-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v42) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x512 : Shape := ⟨2, ![12288, 512]⟩
abbrev S393216 : Shape := ⟨1, ![393216]⟩
abbrev S512x256 : Shape := ⟨2, ![512, 256]⟩
abbrev S256x128 : Shape := ⟨2, ![256, 128]⟩
abbrev S128x64 : Shape := ⟨2, ![128, 64]⟩
abbrev S_ : Shape := ⟨0, ![]⟩

class Facts : Prop where
  bcast_S_S12288x512 : S_.BroadcastsInDim S12288x512 (![] : Fin 0 → Fin S12288x512.rank)
  reducesTo_S12288x512_S_d0_1 : S12288x512.ReducesTo [0, 1] S_
  h_S_ : 0 < S_.numel
  bcast_S_S393216 : S_.BroadcastsInDim S393216 (![] : Fin 0 → Fin S393216.rank)
  reducesTo_S393216_S_d0 : S393216.ReducesTo [0] S_
  bcast_S_S512x256 : S_.BroadcastsInDim S512x256 (![] : Fin 0 → Fin S512x256.rank)
  reducesTo_S512x256_S_d0_1 : S512x256.ReducesTo [0, 1] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_arg6 : FVec F S128x64 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  main_v23

def fn {F : FTy → Type} [FloatOps F] (main_arg0 : FVec F S12288x512 .f32) (main_arg1 : IVec S393216 32) (main_arg2 : IVec S393216 32) (main_arg3 : FVec F S393216 .f32) (main_arg4 : FVec F S512x256 .f32) (main_arg5 : FVec F S256x128 .f32) (main_arg6 : FVec F S128x64 .f32) : IVec S_ 1 :=
  let main_v0 : FVec F S12288x512 .f32 := Host.absf main_arg0
  let main_cst : FVec F S_ .f32 := constant S_ .f32 0x7F800000#32
  let main_v1 : FVec F S12288x512 .f32 := broadcastInDim S12288x512 ![] bcast_S_S12288x512 main_cst
  let main_v2 : IVec S12288x512 1 := cmpf .olt main_v0 main_v1
  let main_c : IVec S_ 1 := constantI S_ 1 1#1
  let main_v3 : IVec S_ 1 := (fun x v => Host.reduce IntOp.andi x v reducesTo_S12288x512_S_d0_1 h_S_) main_v2 main_c
  let main_v4 : FVec F S393216 .f32 := Host.absf main_arg3
  let main_cst_0 : FVec F S_ .f32 := constant S_ .f32 0x7F800000#32
  let main_v5 : FVec F S393216 .f32 := broadcastInDim S393216 ![] bcast_S_S393216 main_cst_0
  let main_v6 : IVec S393216 1 := cmpf .olt main_v4 main_v5
  let main_c_1 : IVec S_ 1 := constantI S_ 1 1#1
  let main_v7 : IVec S_ 1 := (fun x v => Host.reduce IntOp.andi x v reducesTo_S393216_S_d0 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_v13 main_v16
-- ==== Kernel.lean ====
abbrev S12288x512 : Shape := ⟨2, ![12288, 512]⟩
abbrev S393216 : Shape := ⟨1, ![393216]⟩
abbrev S512x256 : Shape := ⟨2, ![512, 256]⟩
abbrev S256x128 : Shape := ⟨2, ![256, 128]⟩
abbrev S128x64 : Shape := ⟨2, ![128, 64]⟩
abbrev S12288x256 : Shape := ⟨2, ![12288, 256]⟩
abbrev S2048x512 : Shape := ⟨2, ![2048, 512]⟩
abbrev S2048x256 : Shape := ⟨2, ![2048, 256]⟩
abbrev S393216x1 : Shape := ⟨2, ![393216, 1]⟩
abbrev S_ : Shape := ⟨0, ![]⟩
abbrev S393216x256 : Shape := ⟨2, ![393216, 256]⟩
abbrev S12288x128 : Shape := ⟨2, ![12288, 128]⟩
abbrev S2048x128 : Shape := ⟨2, ![2048, 128]⟩
abbrev S393216x128 : Shape := ⟨2, ![393216, 128]⟩
abbrev S12288x64 : Shape := ⟨2, ![12288, 64]⟩
abbrev S2048x64 : Shape := ⟨2, ![2048, 64]⟩
abbrev S393216x64 : Shape := ⟨2, ![393216, 64]⟩
abbrev S12288x12288 : Shape := ⟨2, ![12288, 12288]⟩
abbrev S1024x64 : Shape := ⟨2, ![1024, 64]⟩
abbrev S1024x1024 : Shape := ⟨2, ![1024, 1024]⟩

abbrev nBuf : Space → Nat
  | .hbm => 59
  | .vmem => 21
  | .smem => 0
  | _ => 0

abbrev bufTy : (tb : Table) → Fin (tcTables nBuf tb) → BufTy
  | .hbm, ⟨0, _⟩ => ⟨S12288x512, .f32⟩
  | .hbm, ⟨1, _⟩ => ⟨S393216, .i32⟩
  | .hbm, ⟨2, _⟩ => ⟨S393216, .i32⟩
  | .hbm, ⟨3, _⟩ => ⟨S393216, .f32⟩
  | .hbm, ⟨4, _⟩ => ⟨S512x256, .f32⟩
  | .hbm, ⟨5, _⟩ => ⟨S256x128, .f32⟩
  | .hbm, ⟨6, _⟩ => ⟨S128x64, .f32⟩
  | .hbm, ⟨7, _⟩ => ⟨S12288x256, .f32⟩
  | .hbm, ⟨8, _⟩ => ⟨S393216x1, .f32⟩
  | .hbm, ⟨9, _⟩ => ⟨S_, .i32⟩
  | .hbm, ⟨10, _⟩ => ⟨S393216, .i32⟩
  | .hbm, ⟨11, _⟩ => ⟨S393216, .i1⟩
  | .hbm, ⟨12, _⟩ => ⟨S_, .i32⟩
  | .hbm, ⟨13, _⟩ => ⟨S393216, .i32⟩
  | .hbm, ⟨14, _⟩ => ⟨S393216, .i32⟩
  | .hbm, ⟨15, _⟩ => ⟨S393216, .i32⟩
  | .hbm, ⟨16, _⟩ => ⟨S393216x1, .i32⟩
  | .hbm, ⟨17, _⟩ => ⟨S393216x256, .f32⟩
  | .hbm, ⟨18, _⟩ => ⟨S393216x256, .f32⟩
  | .hbm, ⟨19, _⟩ => ⟨S393216x256, .f32⟩
  | .hbm, ⟨20, _⟩ => ⟨S_, .f32⟩
  | .hbm, ⟨21, _⟩ => ⟨S12288x256, .f32⟩
  | .hbm, ⟨22, _⟩ => ⟨S393216x1, .i32⟩
  | .hbm, ⟨23, _⟩ => ⟨S12288x256, .f32⟩
  | .hbm, ⟨24, _⟩ => ⟨S12288x128, .f32⟩
  | .hbm, ⟨25, _⟩ => ⟨S393216x1, .f32⟩
  | .hbm, ⟨26, _⟩ => ⟨S_, .i32⟩
  | .hbm, ⟨27, _⟩ => ⟨S393216, .i32⟩
  | .hbm, ⟨28, _⟩ => ⟨S393216, .i1⟩
  | .hbm, ⟨29, _⟩ => ⟨S_, .i32⟩
  | .hbm, ⟨30, _⟩ => ⟨S393216, .i32⟩
  | .hbm, ⟨31, _⟩ => ⟨S393216, .i32⟩
  | .hbm, ⟨32, _⟩ => ⟨S393216, .i32⟩
  | .hbm, ⟨33, _⟩ => ⟨S393216x1, .i32⟩
  | .hbm, ⟨34, _⟩ => ⟨S393216x128, .f32⟩
  | .hbm, ⟨35, _⟩ => ⟨S393216x128, .f32⟩
  | .hbm, ⟨36, _⟩ => ⟨S393216x128, .f32⟩
  | .hbm, ⟨37, _⟩ => ⟨S_, .f32⟩
  | .hbm, ⟨38, _⟩ => ⟨S12288x128, .f32⟩
  | .hbm, ⟨39, _⟩ => ⟨S393216x1, .i32⟩
  | .hbm, ⟨40, _⟩ => ⟨S12288x128, .f32⟩
  | .hbm, ⟨41, _⟩ => ⟨S12288x64, .f32⟩
  | .hbm, ⟨42, _⟩ => ⟨S393216x1, .f32⟩
  | .hbm, ⟨43, _⟩ => ⟨S_, .i32⟩
  | .hbm, ⟨44, _⟩ => ⟨S393216, .i32⟩
  | .hbm, ⟨45, _⟩ => ⟨S393216, .i1⟩
  | .hbm, ⟨46, _⟩ => ⟨S_, .i32⟩
  | .hbm, ⟨47, _⟩ => ⟨S393216, .i32⟩
  | .hbm, ⟨48, _⟩ => ⟨S393216, .i32⟩
  | .hbm, ⟨49, _⟩ => ⟨S393216, .i32⟩
  | .hbm, ⟨50, _⟩ => ⟨S393216x1, .i32⟩
  | .hbm, ⟨51, _⟩ => ⟨S393216x64, .f32⟩
  | .hbm, ⟨52, _⟩ => ⟨S393216x64, .f32⟩
  | .hbm, ⟨53, _⟩ => ⟨S393216x64, .f32⟩
  | .hbm, ⟨54, _⟩ => ⟨S_, .f32⟩
  | .hbm, ⟨55, _⟩ => ⟨S12288x64, .f32⟩
  | .hbm, ⟨56, _⟩ => ⟨S393216x1, .i32⟩
  | .hbm, ⟨57, _⟩ => ⟨S12288x64, .f32⟩
  | .hbm, ⟨58, _⟩ => ⟨S12288x12288, .f32⟩
  | .local _ .vmem, ⟨0, _⟩ => ⟨S2048x512, .f32⟩
  | .local _ .vmem, ⟨1, _⟩ => ⟨S2048x512, .f32⟩
  | .local _ .vmem, ⟨2, _⟩ => ⟨S512x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S256x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S128x64, .f32⟩
  | .local _ .vmem, ⟨13, _⟩ => ⟨S2048x64, .f32⟩
  | .local _ .vmem, ⟨14, _⟩ => ⟨S2048x64, .f32⟩
  | .local _ .vmem, ⟨15, _⟩ => ⟨S1024x64, .f32⟩
  | .local _ .vmem, ⟨16, _⟩ => ⟨S1024x64, .f32⟩
  | .local _ .vmem, ⟨17, _⟩ => ⟨S1024x64, .f32⟩
  | .local _ .vmem, ⟨18, _⟩ => ⟨S1024x64, .f32⟩
  | .local _ .vmem, ⟨19, _⟩ => ⟨S1024x1024, .f32⟩
  | .local _ .vmem, ⟨20, _⟩ => ⟨S1024x1024, .f32⟩
  | _, _ => ⟨S12288x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![6], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![6], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![12, 12], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2048x256_S2048x256_0_0 : ∀ a, (![0, 0] : Fin 2 → Nat) a + S2048x256.size a ≤ S2048x256.size a
  h_S2048x256 : 0 < S2048x256.numel
  bcast_S393216_S393216x1_0 : S393216.BroadcastsInDim S393216x1 (![0] : Fin 1 → Fin S393216x1.rank)
  bcast_S_S393216 : S_.BroadcastsInDim S393216 (![] : Fin 0 → Fin S393216.rank)
  bcast_S393216x1_S393216x256_0_1 : S393216x1.BroadcastsInDim S393216x256 (![0, 1] : Fin 2 → Fin S393216x256.rank)
  bcast_S_S12288x256 : S_.BroadcastsInDim S12288x256 (![] : Fin 0 → Fin S12288x256.rank)
  shapeCasts_S2048x256_S2048x256 : S2048x256.ShapeCasts S2048x256
  inb_S256x128_S256x128_0_0 : ∀ a, (![0, 0] : Fin 2 → Nat) a + S256x128.size a ≤ S256x128.size a
  h_S256x128 : 0 < S256x128.numel
  inb_S2048x128_S2048x128_0_0 : ∀ a, (![0, 0] : Fin 2 → Nat) a + S2048x128.size a ≤ S2048x128.size a
  h_S2048x128 : 0 < S2048x128.numel
  bcast_S393216x1_S393216x128_0_1 : S393216x1.BroadcastsInDim S393216x128 (![0, 1] : Fin 2 → Fin S393216x128.rank)
  bcast_S_S12288x128 : S_.BroadcastsInDim S12288x128 (![] : Fin 0 → Fin S12288x128.rank)
  shapeCasts_S2048x128_S2048x128 : S2048x128.ShapeCasts S2048x128
  inb_S128x64_S128x64_0_0 : ∀ a, (![0, 0] : Fin 2 → Nat) a + S128x64.size a ≤ S128x64.size a
  h_S128x64 : 0 < S128x64.numel
  inb_S2048x64_S2048x64_0_0 : ∀ a, (![0, 0] : Fin 2 → Nat) a + S2048x64.size a ≤ S2048x64.size a
  h_S2048x64 : 0 < S2048x64.numel
  bcast_S393216x1_S393216x64_0_1 : S393216x1.BroadcastsInDim S393216x64 (![0, 1] : Fin 2 → Fin S393216x64.rank)
  bcast_S_S12288x64 : S_.BroadcastsInDim S12288x64 (![] : Fin 0 → Fin S12288x64.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1024_S1024x1024_0_0 : ∀ a, (![0, 0] : Fin 2 → Nat) a + S1024x1024.size a ≤ S1024x1024.size a
  h_S1024x1024 : 0 < S1024x1024.numel
  dot_S2048x512_S512x256_S2048x256_1_0_0_1_n_n_wf : DotDims.WF S2048x512 S512x256 S2048x256 [1] [0] [0] [1] [] []
  gather_S12288x256_S393216x1_S393216x256_1_0_n_n_0_1_1256_wf : GatherDims.WF S12288x256 S393216x1 S393216x256 [1] [0] [] [0] [] 1 ![1, 256]
  scatter_S12288x256_S393216x1_S393216x256_1_0_0_1_wf : ScatterDims.WF S12288x256 S393216x1 S393216x256 [1] [0] [0] 1
  dot_S2048x256_S256x128_S2048x128_1_0_0_1_n_n_wf : DotDims.WF S2048x256 S256x128 S2048x128 [1] [0] [0] [1] [] []
  gather_S12288x128_S393216x1_S393216x128_1_0_n_n_0_1_1128_wf : GatherDims.WF S12288x128 S393216x1 S393216x128 [1] [0] [] [0] [] 1 ![1, 128]
  scatter_S12288x128_S393216x1_S393216x128_1_0_0_1_wf : ScatterDims.WF S12288x128 S393216x1 S393216x128 [1] [0] [0] 1
  dot_S2048x128_S128x64_S2048x64_1_0_0_1_n_n_wf : DotDims.WF S2048x128 S128x64 S2048x64 [1] [0] [0] [1] [] []
  gather_S12288x64_S393216x1_S393216x64_1_0_n_n_0_1_164_wf : GatherDims.WF S12288x64 S393216x1 S393216x64 [1] [0] [] [0] [] 1 ![1, 64]
  scatter_S12288x64_S393216x1_S393216x64_1_0_0_1_wf : ScatterDims.WF S12288x64 S393216x1 S393216x64 [1] [0] [0] 1
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S12288x512.size a
  hwx0_0 : ∀ i : grid0.Coords, EltTy.bits .f32 = 32 ∨ (Rect.block (s := S12288x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S12288x256.size a
  hwx0_2 : ∀ i : grid0.Coords, EltTy.bits .f32 = 32 ∨ (Rect.block (s := S12288x256) S2048x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S12288x256.size a
  hwx1_0 : ∀ i : grid1.Coords, EltTy.bits .f32 = 32 ∨ (Rect.block (s := S12288x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S12288x128.size a
  hwx1_2 : ∀ i : grid1.Coords, EltTy.bits .f32 = 32 ∨ (Rect.block (s := S12288x128) S2048x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S12288x128.size a
  hwx2_0 : ∀ i : grid2.Coords, EltTy.bits .f32 = 32 ∨ (Rect.block (s := S12288x128) S2048x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x64.size a ≤ S12288x64.size a
  hwx2_2 : ∀ i : grid2.Coords, EltTy.bits .f32 = 32 ∨ (Rect.block (s := S12288x64) S2048x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x64.size a ≤ S12288x64.size a
  hwx3_0 : ∀ i : grid3.Coords, EltTy.bits .f32 = 32 ∨ (Rect.block (s := S12288x64) S1024x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x64.size a ≤ S12288x64.size a
  hwx3_1 : ∀ i : grid3.Coords, EltTy.bits .f32 = 32 ∨ (Rect.block (s := S12288x64) S1024x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S12288x12288.size a
  hwx3_2 : ∀ i : grid3.Coords, EltTy.bits .f32 = 32 ∨ (Rect.block (s := S12288x12288) S1024x1024.size (cc3_transform_2 i) (hinb3_2 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def gather_S12288x256_S393216x1_S393216x256_1_0_n_n_0_1_1256 : GatherDims S12288x256 S393216x1 S393216x256 where
  offsetDims := [1]
  collapsedSliceDims := [0]
  operandBatchingDims := []
  startIndicesBatchingDims := []
  startIndexMap := [0]
  indexVectorDim := 1
  sliceSizes := ![1, 256]
  wf := gather_S12288x256_S393216x1_S393216x256_1_0_n_n_0_1_1256_wf
def scatter_S12288x256_S393216x1_S393216x256_1_0_0_1 : ScatterDims S12288x256 S393216x1 S393216x256 where
  updateWindowDims := [1]
  insertedWindowDims := [0]
  scatterDimsToOperandDims := [0]
  indexVectorDim := 1
  wf := scatter_S12288x256_S393216x1_S393216x256_1_0_0_1_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def gather_S12288x128_S393216x1_S393216x128_1_0_n_n_0_1_1128 : GatherDims S12288x128 S393216x1 S393216x128 where
  offsetDims := [1]
  collapsedSliceDims := [0]
  operandBatchingDims := []
  startIndicesBatchingDims := []
  startIndexMap := [0]
  indexVectorDim := 1
  sliceSizes := ![1, 128]
  wf := gather_S12288x128_S393216x1_S393216x128_1_0_n_n_0_1_1128_wf
def scatter_S12288x128_S393216x1_S393216x128_1_0_0_1 : ScatterDims S12288x128 S393216x1 S393216x128 where
  updateWindowDims := [1]
  insertedWindowDims := [0]
  scatterDimsToOperandDims := [0]
  indexVectorDim := 1
  wf := scatter_S12288x128_S393216x1_S393216x128_1_0_0_1_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def gather_S12288x64_S393216x1_S393216x64_1_0_n_n_0_1_164 : GatherDims S12288x64 S393216x1 S393216x64 where
  offsetDims := [1]
  collapsedSliceDims := [0]
  operandBatchingDims := []
  startIndicesBatchingDims := []
  startIndexMap := [0]
  indexVectorDim := 1
  sliceSizes := ![1, 64]
  wf := gather_S12288x64_S393216x1_S393216x64_1_0_n_n_0_1_164_wf
def scatter_S12288x64_S393216x1_S393216x64_1_0_0_1 : ScatterDims S12288x64 S393216x1 S393216x64 where
  updateWindowDims := [1]
  insertedWindowDims := [0]
  scatterDimsToOperandDims := [0]
  indexVectorDim := 1
  wf := scatter_S12288x64_S393216x1_S393216x64_1_0_0_1_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S2048x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v27) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28) S2048x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v41) S1024x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S1024x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S1024x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S12288x512 : Shape := ⟨2, ![12288, 512]⟩
abbrev S393216 : Shape := ⟨1, ![393216]⟩
abbrev S512x256 : Shape := ⟨2, ![512, 256]⟩
abbrev S256x128 : Shape := ⟨2, ![256, 128]⟩
abbrev S128x64 : Shape := ⟨2, ![128, 64]⟩
abbrev S12288x256 : Shape := ⟨2, ![12288, 256]⟩
abbrev S393216x1 : Shape := ⟨2, ![393216, 1]⟩
abbrev S_ : Shape := ⟨0, ![]⟩
abbrev S393216x256 : Shape := ⟨2, ![393216, 256]⟩
abbrev S12288x128 : Shape := ⟨2, ![12288, 128]⟩
abbrev S393216x128 : Shape := ⟨2, ![393216, 128]⟩
abbrev S12288x64 : Shape := ⟨2, ![12288, 64]⟩
abbrev S393216x64 : Shape := ⟨2, ![393216, 64]⟩
abbrev S64x12288 : Shape := ⟨2, ![64, 12288]⟩
abbrev S12288x12288 : Shape := ⟨2, ![12288, 12288]⟩

abbrev nBuf : Space → Nat
  | .hbm => 70
  | .vmem => 0
  | .smem => 0
  | _ => 0

abbrev bufTy : (tb : Table) → Fin (tcTables nBuf tb) → BufTy
  | .hbm, ⟨0, _⟩ => ⟨S12288x512, .f32⟩
  | .hbm, ⟨1, _⟩ => ⟨S393216, .i32⟩
  | .hbm, ⟨2, _⟩ => ⟨S393216, .i32⟩
  | .hbm, ⟨3, _⟩ => ⟨S393216, .f32⟩
  | .hbm, ⟨4, _⟩ => ⟨S512x256, .f32⟩
  | .hbm, ⟨5, _⟩ => ⟨S256x128, .f32⟩
  | .hbm, ⟨6, _⟩ => ⟨S128x64, .f32⟩
  | .hbm, ⟨7, _⟩ => ⟨S12288x256, .f32⟩
  | .hbm, ⟨8, _⟩ => ⟨S12288x256, .f32⟩
  | .hbm, ⟨9, _⟩ => ⟨S393216x1, .f32⟩
  | .hbm, ⟨10, _⟩ => ⟨S_, .i32⟩
  | .hbm, ⟨11, _⟩ => ⟨S393216, .i32⟩
  | .hbm, ⟨12, _⟩ => ⟨S393216, .i1⟩
  | .hbm, ⟨13, _⟩ => ⟨S_, .i32⟩
  | .hbm, ⟨14, _⟩ => ⟨S393216, .i32⟩
  | .hbm, ⟨15, _⟩ => ⟨S393216, .i32⟩
  | .hbm, ⟨16, _⟩ => ⟨S393216, .i32⟩
  | .hbm, ⟨17, _⟩ => ⟨S393216x1, .i32⟩
  | .hbm, ⟨18, _⟩ => ⟨S393216x256, .f32⟩
  | .hbm, ⟨19, _⟩ => ⟨S393216x256, .f32⟩
  | .hbm, ⟨20, _⟩ => ⟨S393216x256, .f32⟩
  | .hbm, ⟨21, _⟩ => ⟨S_, .f32⟩
  | .hbm, ⟨22, _⟩ => ⟨S12288x256, .f32⟩
  | .hbm, ⟨23, _⟩ => ⟨S393216x1, .i32⟩
  | .hbm, ⟨24, _⟩ => ⟨S12288x256, .f32⟩
  | .hbm, ⟨25, _⟩ => ⟨S12288x128, .f32⟩
  | .hbm, ⟨26, _⟩ => ⟨S12288x128, .f32⟩
  | .hbm, ⟨27, _⟩ => ⟨S393216x1, .f32⟩
  | .hbm, ⟨28, _⟩ => ⟨S_, .i32⟩
  | .hbm, ⟨29, _⟩ => ⟨S393216, .i32⟩
  | .hbm, ⟨30, _⟩ => ⟨S393216, .i1⟩
  | .hbm, ⟨31, _⟩ => ⟨S_, .i32⟩
  | .hbm, ⟨32, _⟩ => ⟨S393216, .i32⟩
  | .hbm, ⟨33, _⟩ => ⟨S393216, .i32⟩
  | .hbm, ⟨34, _⟩ => ⟨S393216, .i32⟩
  | .hbm, ⟨35, _⟩ => ⟨S393216x1, .i32⟩
  | .hbm, ⟨36, _⟩ => ⟨S393216x128, .f32⟩
  | .hbm, ⟨37, _⟩ => ⟨S393216x128, .f32⟩
  | .hbm, ⟨38, _⟩ => ⟨S393216x128, .f32⟩
  | .hbm, ⟨39, _⟩ => ⟨S_, .f32⟩
  | .hbm, ⟨40, _⟩ => ⟨S12288x128, .f32⟩
  | .hbm, ⟨41, _⟩ => ⟨S393216x1, .i32⟩
  | .hbm, ⟨42, _⟩ => ⟨S12288x128, .f32⟩
  | .hbm, ⟨43, _⟩ => ⟨S12288x64, .f32⟩
  | .hbm, ⟨44, _⟩ => ⟨S393216x1, .f32⟩
  | .hbm, ⟨45, _⟩ => ⟨S_, .i32⟩
  | .hbm, ⟨46, _⟩ => ⟨S393216, .i32⟩
  | .hbm, ⟨47, _⟩ => ⟨S393216, .i1⟩
  | .hbm, ⟨48, _⟩ => ⟨S_, .i32⟩
  | .hbm, ⟨49, _⟩ => ⟨S393216, .i32⟩
  | .hbm, ⟨50, _⟩ => ⟨S393216, .i32⟩
  | .hbm, ⟨51, _⟩ => ⟨S393216, .i32⟩
  | .hbm, ⟨52, _⟩ => ⟨S393216x1, .i32⟩
  | .hbm, ⟨53, _⟩ => ⟨S393216x64, .f32⟩
  | .hbm, ⟨54, _⟩ => ⟨S393216x64, .f32⟩
  | .hbm, ⟨55, _⟩ => ⟨S393216x64, .f32⟩
  | .hbm, ⟨56, _⟩ => ⟨S_, .f32⟩
  | .hbm, ⟨57, _⟩ => ⟨S12288x64, .f32⟩
  | .hbm, ⟨58, _⟩ => ⟨S393216x1, .i32⟩
  | .hbm, ⟨59, _⟩ => ⟨S12288x64, .f32⟩
  | .hbm, ⟨60, _⟩ => ⟨S64x12288, .f32⟩
  | .hbm, ⟨61, _⟩ => ⟨S12288x12288, .f32⟩
  | .hbm, ⟨62, _⟩ => ⟨S12288x12288, .f32⟩
  | .hbm, ⟨63, _⟩ => ⟨S12288x12288, .f32⟩
  | .hbm, ⟨64, _⟩ => ⟨S_, .f32⟩
  | .hbm, ⟨65, _⟩ => ⟨S12288x12288, .f32⟩
  | .hbm, ⟨66, _⟩ => ⟨S12288x12288, .f32⟩
  | .hbm, ⟨67, _⟩ => ⟨S_, .f32⟩
  | .hbm, ⟨68, _⟩ => ⟨S12288x12288, .f32⟩
  | .hbm, ⟨69, _⟩ => ⟨S12288x12288, .f32⟩
  | _, _ => ⟨S12288x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_4 : Ref sig .tc := ⟨.hbm, 45, rfl⟩
abbrev main_v32 : Ref sig .tc := ⟨.hbm, 46, rfl⟩
abbrev main_v33 : Ref sig .tc := ⟨.hbm, 47, rfl⟩
abbrev main_c_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]

class Facts₀ : Prop where
  bcast_S393216_S393216x1_0 : S393216.BroadcastsInDim S393216x1 (![0] : Fin 1 → Fin S393216x1.rank)
  bcast_S_S393216 : S_.BroadcastsInDim S393216 (![] : Fin 0 → Fin S393216.rank)
  bcast_S393216x1_S393216x256_0_1 : S393216x1.BroadcastsInDim S393216x256 (![0, 1] : Fin 2 → Fin S393216x256.rank)
  bcast_S_S12288x256 : S_.BroadcastsInDim S12288x256 (![] : Fin 0 → Fin S12288x256.rank)
  bcast_S393216x1_S393216x128_0_1 : S393216x1.BroadcastsInDim S393216x128 (![0, 1] : Fin 2 → Fin S393216x128.rank)
  bcast_S_S12288x128 : S_.BroadcastsInDim S12288x128 (![] : Fin 0 → Fin S12288x128.rank)
  bcast_S393216x1_S393216x64_0_1 : S393216x1.BroadcastsInDim S393216x64 (![0, 1] : Fin 2 → Fin S393216x64.rank)
  bcast_S_S12288x64 : S_.BroadcastsInDim S12288x64 (![] : Fin 0 → Fin S12288x64.rank)
  transposes_S12288x64_S64x12288_1_0 : S12288x64.Transposes [1, 0] S64x12288
  bcast_S_S12288x12288 : S_.BroadcastsInDim S12288x12288 (![] : Fin 0 → Fin S12288x12288.rank)
  dot_S12288x512_S512x256_S12288x256_1_0_0_1_n_n_wf : DotDims.WF S12288x512 S512x256 S12288x256 [1] [0] [0] [1] [] []
  gather_S12288x256_S393216x1_S393216x256_1_0_n_n_0_1_1256_wf : GatherDims.WF S12288x256 S393216x1 S393216x256 [1] [0] [] [0] [] 1 ![1, 256]
  scatter_S12288x256_S393216x1_S393216x256_1_0_0_1_wf : ScatterDims.WF S12288x256 S393216x1 S393216x256 [1] [0] [0] 1
  dot_S12288x256_S256x128_S12288x128_1_0_0_1_n_n_wf : DotDims.WF S12288x256 S256x128 S12288x128 [1] [0] [0] [1] [] []
  gather_S12288x128_S393216x1_S393216x128_1_0_n_n_0_1_1128_wf : GatherDims.WF S12288x128 S393216x1 S393216x128 [1] [0] [] [0] [] 1 ![1, 128]
  scatter_S12288x128_S393216x1_S393216x128_1_0_0_1_wf : ScatterDims.WF S12288x128 S393216x1 S393216x128 [1] [0] [0] 1
  dot_S12288x128_S128x64_S12288x64_1_0_0_1_n_n_wf : DotDims.WF S12288x128 S128x64 S12288x64 [1] [0] [0] [1] [] []
  gather_S12288x64_S393216x1_S393216x64_1_0_n_n_0_1_164_wf : GatherDims.WF S12288x64 S393216x1 S393216x64 [1] [0] [] [0] [] 1 ![1, 64]
  scatter_S12288x64_S393216x1_S393216x64_1_0_0_1_wf : ScatterDims.WF S12288x64 S393216x1 S393216x64 [1] [0] [0] 1
  dot_S12288x64_S64x12288_S12288x12288_1_0_0_1_n_n_wf : DotDims.WF S12288x64 S64x12288 S12288x12288 [1] [0] [0] [1] [] []

variable [Facts₀]

def dot_S12288x512_S512x256_S12288x256_1_0_0_1_n_n : DotDims S12288x512 S512x256 S12288x256 where
  lhsContracting := [1]
  rhsContracting := [0]
  lhsNonContracting := [0]
  rhsNonContracting := [1]
  lhsBatch := []
  rhsBatch := []
  wf := dot_S12288x512_S512x256_S12288x256_1_0_0_1_n_n_wf
def gather_S12288x256_S393216x1_S393216x256_1_0_n_n_0_1_1256 : GatherDims S12288x256 S393216x1 S393216x256 where
  offsetDims := [1]
  collapsedSliceDims := [0]
  operandBatchingDims := []
  startIndicesBatchingDims := []
  startIndexMap := [0]
  indexVectorDim := 1
  sliceSizes := ![1, 256]
  wf := gather_S12288x256_S393216x1_S393216x256_1_0_n_n_0_1_1256_wf
def scatter_S12288x256_S393216x1_S393216x256_1_0_0_1 : ScatterDims S12288x256 S393216x1 S393216x256 where
  updateWindowDims := [1]
  insertedWindowDims := [0]
  scatterDimsToOperandDims := [0]
  indexVectorDim := 1
  wf := scatter_S12288x256_S393216x1_S393216x256_1_0_0_1_wf
def dot_S12288x256_S256x128_S12288x128_1_0_0_1_n_n : DotDims S12288x256 S256x128 S12288x128 where
  lhsContracting := [1]
  rhsContracting := [0]
  lhsNonContracting := [0]
  rhsNonContracting := [1]
  lhsBatch := []
  rhsBatch := []
  wf := dot_S12288x256_S256x128_S12288x128_1_0_0_1_n_n_wf
def gather_S12288x128_S393216x1_S393216x128_1_0_n_n_0_1_1128 : GatherDims S12288x128 S393216x1 S393216x128 where
  offsetDims := [1]
  collapsedSliceDims := [0]
  operandBatchingDims := []
  startIndicesBatchingDims := []
  startIndexMap := [0]
  indexVectorDim := 1
  sliceSizes := ![1, 128]
  wf := gather_S12288x128_S393216x1_S393216x128_1_0_n_n_0_1_1128_wf
def scatter_S12288x128_S393216x1_S393216x128_1_0_0_1 : ScatterDims S12288x128 S393216x1 S393216x128 where
  updateWindowDims := [1]
  insertedWindowDims := [0]
  scatterDimsToOperandDims := [0]
  indexVectorDim := 1
  wf := scatter_S12288x128_S393216x1_S393216x128_1_0_0_1_wf
def dot_S12288x128_S128x64_S12288x64_1_0_0_1_n_n : DotDims S12288x128 S128x64 S12288x64 where
  lhsContracting := [1]
  rhsContracting := [0]
  lhsNonContracting := [0]
  rhsNonContracting := [1]
  lhsBatch := []
  rhsBatch := []
  wf := dot_S12288x128_S128x64_S12288x64_1_0_0_1_n_n_wf
def gather_S12288x64_S393216x1_S393216x64_1_0_n_n_0_1_164 : GatherDims S12288x64 S393216x1 S393216x64 where
  offsetDims := [1]
  collapsedSliceDims := [0]
  operandBatchingDims := []
  startIndicesBatchingDims := []
  startIndexMap := [0]
  indexVectorDim := 1
  sliceSizes := ![1, 64]
  wf := gather_S12288x64_S393216x1_S393216x64_1_0_n_n_0_1_164_wf
def scatter_S12288x64_S393216x1_S393216x64_1_0_0_1 : ScatterDims S12288x64 S393216x1 S393216x64 where
  updateWindowDims := [1]
  insertedWindowDims := [0]
  scatterDimsToOperandDims := [0]
  indexVectorDim := 1
  wf := scatter_S12288x64_S393216x1_S393216x64_1_0_0_1_wf
def dot_S12288x64_S64x12288_S12288x12288_1_0_0_1_n_n : DotDims S12288x64 S64x12288 S12288x12288 where
  lhsContracting := [1]
  rhsContracting := [0]
  lhsNonContracting := [0]
  rhsNonContracting := [1]
  lhsBatch := []
  rhsBatch := []
  wf := dot_S12288x64_S64x12288_S12288x12288_1_0_0_1_n_n_wf

class Facts : Prop extends Facts₀ where

variable [Facts]
-- ==== Proof.KernelRegion0.lean ====
/-
  Region 0 of @main as a pipeline over its grid. Each grid point reads one block through each of two input windows
  (windows 0 and 1: a row tile of an array, or a whole matrix whose block index never moves; the two windows may
  lie on one array) and writes one block of the output array (window 2). The body loads both input blocks whole, forms the payload from them (the matrix
  product of the two blocks, followed by the region's pointwise function where it has one) and stores it over the
  whole output block. Everything here is stated at a parameter V, the buffer contents at the region's entry:
  the blocks read off V, what the body leaves in each staging buffer, the pipeline's proof data, and the body
  obligation at every grid point.
-/
import proofs.«160782_j22454089023912_1_alg».proof.Proof.Gen.Kernel.Launch
import proofs.«160782_j22454089023912_1_alg».proof.Proof.Gen.Kernel.Skeleton
import proofs.«160782_j22454089023912_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
-- the share of its array each input window holds (full shares when the arrays are distinct buffers)
variable (sh : Fin 3 → PosShare TreeShare)

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point: fetched there, or left in place since the last
    fetch because the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, for the same reason. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rx0 : Rect S2048x512 := Rect.unit (s := S2048x512) ![0, 0] S2048x512.size inb_S2048x512_S2048x512_0_0
abbrev rw0 : Rect S512x256 := Rect.unit (s := S512x256) ![0, 0] S512x256.size inb_S512x256_S512x256_0_0
abbrev ro0 : Rect S2048x256 := Rect.unit (s := S2048x256) ![0, 0] S2048x256.size inb_S2048x256_S2048x256_0_0

/-- What the body leaves in the output window's buffer, from the two input blocks: its one store, over the whole block. -/
def out0_2 (x0 : Vec F S2048x512 .f32) (x1 : Vec F S512x256 .f32) : Vec F S2048x256 .f32 :=
  View.canon [⟨ro0, k0_pay1 (View.ld x0 rx0) (View.ld x1 rw0)⟩]

/-- The one store covers the output block. -/
theorem cover0_2 (p0 : Vec F S2048x256 .f32) (y : S2048x256.Idx) :
    ∃ pc ∈ ([⟨ro0, p0⟩] : List (View.Piece (Elt F) S2048x256 .f32)), y ∈ pc.1.set :=
  View.cover_of_tiled [⟨ro0, p0⟩] S2048x256.size (by rfl) y

set_option maxHeartbeats 1000000 in
/-- The body on whole staging memrefs: the inputs' contents are kept, the output's becomes out0_2 of them. -/
theorem sound_kernel0 (c : Dev nD) (E : Set ℕ) (i : grid0.Coords)
    (arg1 : Memref sig .tc .vmem S2048x512 .f32) (harg1 : arg1.IsWhole) (arg2 : Memref sig .tc .vmem S512x256 .f32) (harg2 : arg2.IsWhole)
    (arg3 : Memref sig .tc .vmem S2048x256 .f32) (harg3 : arg3.IsWhole)
    (x0 : Vec F S2048x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__dense_act_kernel i arg1 harg1 arg2 harg2 arg3 harg3) K := by
  simp only [cc0__dense_act_kernel_eq_skeleton]; unfold cc0__dense_act_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core c: the arrays as the region finds them; after the body at point t each
    input's buffer still at its block and the output's at out0_2 of the two input blocks; nothing owed; the input
    windows' shares as given. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q := sh
  owed _ := 0

theorem A_eq0 (c : Dev nD) (w : Fin cfg0.W) : (dat0 V sh c).A w = V c (Pipeline.arrRef spec0 w) := by
  dsimp only [dat0]

theorem after0_0 (c : Dev nD) (t : Fin cfg0.N) : (dat0 V sh c).after 0 t = iblk0 V c 0 t := by dsimp only [dat0]
theorem after0_1 (c : Dev nD) (t : Fin cfg0.N) : (dat0 V sh c).after 1 t = iblk0 V c 1 t := by dsimp only [dat0]
theorem after0_2 (c : Dev nD) (t : Fin cfg0.N) :
    (dat0 V sh c).after 2 t = out0_2 (iblk0 V c 0 t) (iblk0 V c 1 t) := by dsimp only [dat0]

theorem before0_0 (c : Dev nD) (t : Fin cfg0.N) (d) : (dat0 V sh c).before 0 t d = iblk0 V c 0 t :=
  before0_0_of V (dat0 V sh c) (A_eq0 V sh c 0) (after0_0 V sh c) t d
theorem before0_1 (c : Dev nD) (t : Fin cfg0.N) (d) : (dat0 V sh c).before 1 t d = iblk0 V c 1 t :=
  before0_1_of V (dat0 V sh c) (A_eq0 V sh c 1) (after0_1 V sh c) t d

/-- What the body is called with at point t, the windows one by one, -/
def bodyPre0 (c : Dev nD) (t : Fin cfg0.N) : sProp 𝕄 :=
  iprop((dat0 V sh c).Φ t.castSucc ∗ (dat0 V sh c).owesAt () t.castSucc
    ∗ (∃ d, owns (c : Thread nD τ) (st0_0 t) fullShare ((dat0 V sh c).before 0 t d))
    ∗ (∃ d, owns (c : Thread nD τ) (st0_1 t) fullShare ((dat0 V sh c).before 1 t d))
    ∗ (∃ d, owns (c : Thread nD τ) (st0_2 t) fullShare ((dat0 V sh c).before 2 t d)))

/-- and what it returns. -/
def bodyPost0 (c : Dev nD) (t : Fin cfg0.N) : sProp 𝕄 :=
  iprop((dat0 V sh c).Φ t.succ ∗ (dat0 V sh c).owesAt () t.succ
    ∗ owns (c : Thread nD τ) (st0_0 t) fullShare ((dat0 V sh c).after 0 t)
    ∗ owns (c : Thread nD τ) (st0_1 t) fullShare ((dat0 V sh c).after 1 t)
    ∗ owns (c : Thread nD τ) (st0_2 t) fullShare ((dat0 V sh c).after 2 t))

/-- The body at any point: the inputs' memrefs hold their blocks, so sound_kernel0 applies; the invariant and the
    core's dues pass through unread. -/
theorem sound_body0 (c : Dev nD) (t : Fin cfg0.N) :
    bodyPre0 V sh c t ⊢ wp frame (wpE (defs₀ (F := F)) Variants.none c none) Set.univ (bodyAt0 t) (fun _ => bodyPost0 V sh c t) := by
  unfold bodyPre0 bodyPost0 bodyAt0
  simp only [before0_0, before0_1]
  rw [show (dat0 V sh c).Φ t.succ = (dat0 V sh c).Φ t.castSucc from rfl,
    show (dat0 V sh c).owesAt () t.succ = (dat0 V sh c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V sh c) (defs₀ (F := F)) Variants.none () Set.univ := fun t => by
  rw [bigSep_W0, bigSep_W0]
  exact sound_body0 V sh c t

end Cert.Kernel.Regions

end
-- ==== Proof.KernelRegion1.lean ====
/-
  Region 1 of @main as a pipeline over its grid. Each grid point reads one block through each of two input windows
  (windows 0 and 1: a row tile of an array, or a whole matrix whose block index never moves; the two windows may
  lie on one array) and writes one block of the output array (window 2). The body loads both input blocks whole, forms the payload from them (the matrix
  product of the two blocks, followed by the region's pointwise function where it has one) and stores it over the
  whole output block. Everything here is stated at a parameter V, the buffer contents at the region's entry:
  the blocks read off V, what the body leaves in each staging buffer, the pipeline's proof data, and the body
  obligation at every grid point.
-/
import proofs.«160782_j22454089023912_1_alg».proof.Proof.Gen.Kernel.Launch
import proofs.«160782_j22454089023912_1_alg».proof.Proof.Gen.Kernel.Skeleton
import proofs.«160782_j22454089023912_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
-- the share of its array each input window holds (full shares when the arrays are distinct buffers)
variable (sh : Fin 3 → PosShare TreeShare)

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point: fetched there, or left in place since the last
    fetch because the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, for the same reason. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev rx1 : Rect S2048x256 := Rect.unit (s := S2048x256) ![0, 0] S2048x256.size inb_S2048x256_S2048x256_0_0
abbrev rw1 : Rect S256x128 := Rect.unit (s := S256x128) ![0, 0] S256x128.size inb_S256x128_S256x128_0_0
abbrev ro1 : Rect S2048x128 := Rect.unit (s := S2048x128) ![0, 0] S2048x128.size inb_S2048x128_S2048x128_0_0

/-- What the body leaves in the output window's buffer, from the two input blocks: its one store, over the whole block. -/
def out1_2 (x0 : Vec F S2048x256 .f32) (x1 : Vec F S256x128 .f32) : Vec F S2048x128 .f32 :=
  View.canon [⟨ro1, k1_pay1 (View.ld x0 rx1) (View.ld x1 rw1)⟩]

/-- The one store covers the output block. -/
theorem cover1_2 (p0 : Vec F S2048x128 .f32) (y : S2048x128.Idx) :
    ∃ pc ∈ ([⟨ro1, p0⟩] : List (View.Piece (Elt F) S2048x128 .f32)), y ∈ pc.1.set :=
  View.cover_of_tiled [⟨ro1, p0⟩] S2048x128.size (by rfl) y

set_option maxHeartbeats 1000000 in
/-- The body on whole staging memrefs: the inputs' contents are kept, the output's becomes out1_2 of them. -/
theorem sound_kernel1 (c : Dev nD) (E : Set ℕ) (i : grid1.Coords)
    (arg1 : Memref sig .tc .vmem S2048x256 .f32) (harg1 : arg1.IsWhole) (arg2 : Memref sig .tc .vmem S256x128 .f32) (harg2 : arg2.IsWhole)
    (arg3 : Memref sig .tc .vmem S2048x128 .f32) (harg3 : arg3.IsWhole)
    (x0 : Vec F S2048x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__dense_act_kernel i arg1 harg1 arg2 harg2 arg3 harg3) K := by
  simp only [cc1__dense_act_kernel_eq_skeleton]; unfold cc1__dense_act_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core c: the arrays as the region finds them; after the body at point t each
    input's buffer still at its block and the output's at out1_2 of the two input blocks; nothing owed; the input
    windows' shares as given. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q := sh
  owed _ := 0

theorem A_eq1 (c : Dev nD) (w : Fin cfg1.W) : (dat1 V sh c).A w = V c (Pipeline.arrRef spec1 w) := by
  dsimp only [dat1]

theorem after1_0 (c : Dev nD) (t : Fin cfg1.N) : (dat1 V sh c).after 0 t = iblk1 V c 0 t := by dsimp only [dat1]
theorem after1_1 (c : Dev nD) (t : Fin cfg1.N) : (dat1 V sh c).after 1 t = iblk1 V c 1 t := by dsimp only [dat1]
theorem after1_2 (c : Dev nD) (t : Fin cfg1.N) :
    (dat1 V sh c).after 2 t = out1_2 (iblk1 V c 0 t) (iblk1 V c 1 t) := by dsimp only [dat1]

theorem before1_0 (c : Dev nD) (t : Fin cfg1.N) (d) : (dat1 V sh c).before 0 t d = iblk1 V c 0 t :=
  before1_0_of V (dat1 V sh c) (A_eq1 V sh c 0) (after1_0 V sh c) t d
theorem before1_1 (c : Dev nD) (t : Fin cfg1.N) (d) : (dat1 V sh c).before 1 t d = iblk1 V c 1 t :=
  before1_1_of V (dat1 V sh c) (A_eq1 V sh c 1) (after1_1 V sh c) t d

/-- What the body is called with at point t, the windows one by one, -/
def bodyPre1 (c : Dev nD) (t : Fin cfg1.N) : sProp 𝕄 :=
  iprop((dat1 V sh c).Φ t.castSucc ∗ (dat1 V sh c).owesAt () t.castSucc
    ∗ (∃ d, owns (c : Thread nD τ) (st1_0 t) fullShare ((dat1 V sh c).before 0 t d))
    ∗ (∃ d, owns (c : Thread nD τ) (st1_1 t) fullShare ((dat1 V sh c).before 1 t d))
    ∗ (∃ d, owns (c : Thread nD τ) (st1_2 t) fullShare ((dat1 V sh c).before 2 t d)))

/-- and what it returns. -/
def bodyPost1 (c : Dev nD) (t : Fin cfg1.N) : sProp 𝕄 :=
  iprop((dat1 V sh c).Φ t.succ ∗ (dat1 V sh c).owesAt () t.succ
    ∗ owns (c : Thread nD τ) (st1_0 t) fullShare ((dat1 V sh c).after 0 t)
    ∗ owns (c : Thread nD τ) (st1_1 t) fullShare ((dat1 V sh c).after 1 t)
    ∗ owns (c : Thread nD τ) (st1_2 t) fullShare ((dat1 V sh c).after 2 t))

/-- The body at any point: the inputs' memrefs hold their blocks, so sound_kernel1 applies; the invariant and the
    core's dues pass through unread. -/
theorem sound_body1 (c : Dev nD) (t : Fin cfg1.N) :
    bodyPre1 V sh c t ⊢ wp frame (wpE (defs₀ (F := F)) Variants.none c none) Set.univ (bodyAt1 t) (fun _ => bodyPost1 V sh c t) := by
  unfold bodyPre1 bodyPost1 bodyAt1
  simp only [before1_0, before1_1]
  rw [show (dat1 V sh c).Φ t.succ = (dat1 V sh c).Φ t.castSucc from rfl,
    show (dat1 V sh c).owesAt () t.succ = (dat1 V sh c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V sh c) (defs₀ (F := F)) Variants.none () Set.univ := fun t => by
  rw [bigSep_W1, bigSep_W1]
  exact sound_body1 V sh c t

end Cert.Kernel.Regions

end
-- ==== Proof.KernelRegion2.lean ====
/-
  Region 2 of @main as a pipeline over its grid. Each grid point reads one block through each of two input windows
  (windows 0 and 1: a row tile of an array, or a whole matrix whose block index never moves; the two windows may
  lie on one array) and writes one block of the output array (window 2). The body loads both input blocks whole, forms the payload from them (the matrix
  product of the two blocks, followed by the region's pointwise function where it has one) and stores it over the
  whole output block. Everything here is stated at a parameter V, the buffer contents at the region's entry:
  the blocks read off V, what the body leaves in each staging buffer, the pipeline's proof data, and the body
  obligation at every grid point.
-/
import proofs.«160782_j22454089023912_1_alg».proof.Proof.Gen.Kernel.Launch
import proofs.«160782_j22454089023912_1_alg».proof.Proof.Gen.Kernel.Skeleton
import proofs.«160782_j22454089023912_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
-- the share of its array each input window holds (full shares when the arrays are distinct buffers)
variable (sh : Fin 3 → PosShare TreeShare)

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point: fetched there, or left in place since the last
    fetch because the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, for the same reason. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev rx2 : Rect S2048x128 := Rect.unit (s := S2048x128) ![0, 0] S2048x128.size inb_S2048x128_S2048x128_0_0
abbrev rw2 : Rect S128x64 := Rect.unit (s := S128x64) ![0, 0] S128x64.size inb_S128x64_S128x64_0_0
abbrev ro2 : Rect S2048x64 := Rect.unit (s := S2048x64) ![0, 0] S2048x64.size inb_S2048x64_S2048x64_0_0

/-- What the body leaves in the output window's buffer, from the two input blocks: its one store, over the whole block. -/
def out2_2 (x0 : Vec F S2048x128 .f32) (x1 : Vec F S128x64 .f32) : Vec F S2048x64 .f32 :=
  View.canon [⟨ro2, k2_pay1 (View.ld x0 rx2) (View.ld x1 rw2)⟩]

/-- The one store covers the output block. -/
theorem cover2_2 (p0 : Vec F S2048x64 .f32) (y : S2048x64.Idx) :
    ∃ pc ∈ ([⟨ro2, p0⟩] : List (View.Piece (Elt F) S2048x64 .f32)), y ∈ pc.1.set :=
  View.cover_of_tiled [⟨ro2, p0⟩] S2048x64.size (by rfl) y

set_option maxHeartbeats 1000000 in
/-- The body on whole staging memrefs: the inputs' contents are kept, the output's becomes out2_2 of them. -/
theorem sound_kernel2 (c : Dev nD) (E : Set ℕ) (i : grid2.Coords)
    (arg1 : Memref sig .tc .vmem S2048x128 .f32) (harg1 : arg1.IsWhole) (arg2 : Memref sig .tc .vmem S128x64 .f32) (harg2 : arg2.IsWhole)
    (arg3 : Memref sig .tc .vmem S2048x64 .f32) (harg3 : arg3.IsWhole)
    (x0 : Vec F S2048x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__dense_act_kernel i arg1 harg1 arg2 harg2 arg3 harg3) K := by
  simp only [cc2__dense_act_kernel_eq_skeleton]; unfold cc2__dense_act_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core c: the arrays as the region finds them; after the body at point t each
    input's buffer still at its block and the output's at out2_2 of the two input blocks; nothing owed; the input
    windows' shares as given. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q := sh
  owed _ := 0

theorem A_eq2 (c : Dev nD) (w : Fin cfg2.W) : (dat2 V sh c).A w = V c (Pipeline.arrRef spec2 w) := by
  dsimp only [dat2]

theorem after2_0 (c : Dev nD) (t : Fin cfg2.N) : (dat2 V sh c).after 0 t = iblk2 V c 0 t := by dsimp only [dat2]
theorem after2_1 (c : Dev nD) (t : Fin cfg2.N) : (dat2 V sh c).after 1 t = iblk2 V c 1 t := by dsimp only [dat2]
theorem after2_2 (c : Dev nD) (t : Fin cfg2.N) :
    (dat2 V sh c).after 2 t = out2_2 (iblk2 V c 0 t) (iblk2 V c 1 t) := by dsimp only [dat2]

theorem before2_0 (c : Dev nD) (t : Fin cfg2.N) (d) : (dat2 V sh c).before 0 t d = iblk2 V c 0 t :=
  before2_0_of V (dat2 V sh c) (A_eq2 V sh c 0) (after2_0 V sh c) t d
theorem before2_1 (c : Dev nD) (t : Fin cfg2.N) (d) : (dat2 V sh c).before 1 t d = iblk2 V c 1 t :=
  before2_1_of V (dat2 V sh c) (A_eq2 V sh c 1) (after2_1 V sh c) t d

/-- What the body is called with at point t, the windows one by one, -/
def bodyPre2 (c : Dev nD) (t : Fin cfg2.N) : sProp 𝕄 :=
  iprop((dat2 V sh c).Φ t.castSucc ∗ (dat2 V sh c).owesAt () t.castSucc
    ∗ (∃ d, owns (c : Thread nD τ) (st2_0 t) fullShare ((dat2 V sh c).before 0 t d))
    ∗ (∃ d, owns (c : Thread nD τ) (st2_1 t) fullShare ((dat2 V sh c).before 1 t d))
    ∗ (∃ d, owns (c : Thread nD τ) (st2_2 t) fullShare ((dat2 V sh c).before 2 t d)))

/-- and what it returns. -/
def bodyPost2 (c : Dev nD) (t : Fin cfg2.N) : sProp 𝕄 :=
  iprop((dat2 V sh c).Φ t.succ ∗ (dat2 V sh c).owesAt () t.succ
    ∗ owns (c : Thread nD τ) (st2_0 t) fullShare ((dat2 V sh c).after 0 t)
    ∗ owns (c : Thread nD τ) (st2_1 t) fullShare ((dat2 V sh c).after 1 t)
    ∗ owns (c : Thread nD τ) (st2_2 t) fullShare ((dat2 V sh c).after 2 t))

/-- The body at any point: the inputs' memrefs hold their blocks, so sound_kernel2 applies; the invariant and the
    core's dues pass through unread. -/
theorem sound_body2 (c : Dev nD) (t : Fin cfg2.N) :
    bodyPre2 V sh c t ⊢ wp frame (wpE (defs₀ (F := F)) Variants.none c none) Set.univ (bodyAt2 t) (fun _ => bodyPost2 V sh c t) := by
  unfold bodyPre2 bodyPost2 bodyAt2
  simp only [before2_0, before2_1]
  rw [show (dat2 V sh c).Φ t.succ = (dat2 V sh c).Φ t.castSucc from rfl,
    show (dat2 V sh c).owesAt () t.succ = (dat2 V sh c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V sh c) (defs₀ (F := F)) Variants.none () Set.univ := fun t => by
  rw [bigSep_W2, bigSep_W2]
  exact sound_body2 V sh c t

end Cert.Kernel.Regions

end
-- ==== Proof.KernelRegion3.lean ====
/-
  Region 3 of @main as a pipeline over its grid. Each grid point reads one block through each of two input windows
  (windows 0 and 1: a row tile of an array, or a whole matrix whose block index never moves; the two windows may
  lie on one array) and writes one block of the output array (window 2). The body loads both input blocks whole, forms the payload from them (the matrix
  product of the two blocks, followed by the region's pointwise function where it has one) and stores it over the
  whole output block. Everything here is stated at a parameter V, the buffer contents at the region's entry:
  the blocks read off V, what the body leaves in each staging buffer, the pipeline's proof data, and the body
  obligation at every grid point.
-/
import proofs.«160782_j22454089023912_1_alg».proof.Proof.Gen.Kernel.Launch
import proofs.«160782_j22454089023912_1_alg».proof.Proof.Gen.Kernel.Skeleton
import proofs.«160782_j22454089023912_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
-- the share of its array each input window holds (full shares when the arrays are distinct buffers)
variable (sh : Fin 3 → PosShare TreeShare)

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point: fetched there, or left in place since the last
    fetch because the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, for the same reason. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev rx3 : Rect S1024x64 := Rect.unit (s := S1024x64) ![0, 0] S1024x64.size inb_S1024x64_S1024x64_0_0
abbrev rw3 : Rect S1024x64 := Rect.unit (s := S1024x64) ![0, 0] S1024x64.size inb_S1024x64_S1024x64_0_0
abbrev ro3 : Rect S1024x1024 := Rect.unit (s := S1024x1024) ![0, 0] S1024x1024.size inb_S1024x1024_S1024x1024_0_0

/-- What the body leaves in the output window's buffer, from the two input blocks: its one store, over the whole block. -/
def out3_2 (x0 : Vec F S1024x64 .f32) (x1 : Vec F S1024x64 .f32) : Vec F S1024x1024 .f32 :=
  View.canon [⟨ro3, k3_pay1 (View.ld x0 rx3) (View.ld x1 rw3)⟩]

/-- The one store covers the output block. -/
theorem cover3_2 (p0 : Vec F S1024x1024 .f32) (y : S1024x1024.Idx) :
    ∃ pc ∈ ([⟨ro3, p0⟩] : List (View.Piece (Elt F) S1024x1024 .f32)), y ∈ pc.1.set :=
  View.cover_of_tiled [⟨ro3, p0⟩] S1024x1024.size (by rfl) y

set_option maxHeartbeats 1000000 in
/-- The body on whole staging memrefs: the inputs' contents are kept, the output's becomes out3_2 of them. -/
theorem sound_kernel3 (c : Dev nD) (E : Set ℕ) (i : grid3.Coords)
    (arg1 : Memref sig .tc .vmem S1024x64 .f32) (harg1 : arg1.IsWhole) (arg2 : Memref sig .tc .vmem S1024x64 .f32) (harg2 : arg2.IsWhole)
    (arg3 : Memref sig .tc .vmem S1024x1024 .f32) (harg3 : arg3.IsWhole)
    (x0 : Vec F S1024x64 .f32) (x1 : Vec F S1024x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__adj_kernel i arg1 harg1 arg2 harg2 arg3 harg3) K := by
  simp only [cc3__adj_kernel_eq_skeleton]; unfold cc3__adj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of pipeline 3 on core c: the arrays as the region finds them; after the body at point t each
    input's buffer still at its block and the output's at out3_2 of the two input blocks; nothing owed; the input
    windows' shares as given. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q := sh
  owed _ := 0

theorem A_eq3 (c : Dev nD) (w : Fin cfg3.W) : (dat3 V sh c).A w = V c (Pipeline.arrRef spec3 w) := by
  dsimp only [dat3]

theorem after3_0 (c : Dev nD) (t : Fin cfg3.N) : (dat3 V sh c).after 0 t = iblk3 V c 0 t := by dsimp only [dat3]
theorem after3_1 (c : Dev nD) (t : Fin cfg3.N) : (dat3 V sh c).after 1 t = iblk3 V c 1 t := by dsimp only [dat3]
theorem after3_2 (c : Dev nD) (t : Fin cfg3.N) :
    (dat3 V sh c).after 2 t = out3_2 (iblk3 V c 0 t) (iblk3 V c 1 t) := by dsimp only [dat3]

theorem before3_0 (c : Dev nD) (t : Fin cfg3.N) (d) : (dat3 V sh c).before 0 t d = iblk3 V c 0 t :=
  before3_0_of V (dat3 V sh c) (A_eq3 V sh c 0) (after3_0 V sh c) t d
theorem before3_1 (c : Dev nD) (t : Fin cfg3.N) (d) : (dat3 V sh c).before 1 t d = iblk3 V c 1 t :=
  before3_1_of V (dat3 V sh c) (A_eq3 V sh c 1) (after3_1 V sh c) t d

/-- What the body is called with at point t, the windows one by one, -/
def bodyPre3 (c : Dev nD) (t : Fin cfg3.N) : sProp 𝕄 :=
  iprop((dat3 V sh c).Φ t.castSucc ∗ (dat3 V sh c).owesAt () t.castSucc
    ∗ (∃ d, owns (c : Thread nD τ) (st3_0 t) fullShare ((dat3 V sh c).before 0 t d))
    ∗ (∃ d, owns (c : Thread nD τ) (st3_1 t) fullShare ((dat3 V sh c).before 1 t d))
    ∗ (∃ d, owns (c : Thread nD τ) (st3_2 t) fullShare ((dat3 V sh c).before 2 t d)))

/-- and what it returns. -/
def bodyPost3 (c : Dev nD) (t : Fin cfg3.N) : sProp 𝕄 :=
  iprop((dat3 V sh c).Φ t.succ ∗ (dat3 V sh c).owesAt () t.succ
    ∗ owns (c : Thread nD τ) (st3_0 t) fullShare ((dat3 V sh c).after 0 t)
    ∗ owns (c : Thread nD τ) (st3_1 t) fullShare ((dat3 V sh c).after 1 t)
    ∗ owns (c : Thread nD τ) (st3_2 t) fullShare ((dat3 V sh c).after 2 t))

/-- The body at any point: the inputs' memrefs hold their blocks, so sound_kernel3 applies; the invariant and the
    core's dues pass through unread. -/
theorem sound_body3 (c : Dev nD) (t : Fin cfg3.N) :
    bodyPre3 V sh c t ⊢ wp frame (wpE (defs₀ (F := F)) Variants.none c none) Set.univ (bodyAt3 t) (fun _ => bodyPost3 V sh c t) := by
  unfold bodyPre3 bodyPost3 bodyAt3
  simp only [before3_0, before3_1]
  rw [show (dat3 V sh c).Φ t.succ = (dat3 V sh c).Φ t.castSucc from rfl,
    show (dat3 V sh c).owesAt () t.succ = (dat3 V sh c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation3 (c : Dev nD) : BodyObligation (dat3 (F := F) V sh c) (defs₀ (F := F)) Variants.none () Set.univ := fun t => by
  rw [bigSep_W3, bigSep_W3]
  exact sound_body3 V sh c t

end Cert.Kernel.Regions

end
-- ==== Proof.KernelRun.lean ====
/-
  The run of @main from the launch to the return. @main is seven items: region 0, a host stretch, region 1,
  a host stretch, region 2, a host stretch, region 3. The contents of the core's buffers at each boundary are a fold
  from the launch memory: a region leaves its output array at what its grid points wrote back (block t of the
  array is what point t left in the output window) and every other buffer as it found it; a host stretch applies
  its operations. Regions 0, 1, 2 read two distinct arrays each and are entered with both held outright. Region 3
  reads ONE array through both of its input windows: on entry the array's ownership is split into two halves, one
  per window, and on exit the halves are joined again; its contents never change.
  From the launch theorem for a list of segments every weakly fair execution terminates and the final memory
  holds every buffer at the last fold.
-/
import proofs.«160782_j22454089023912_1_alg».proof.Proof.KernelRegion0
import proofs.«160782_j22454089023912_1_alg».proof.Proof.KernelRegion1
import proofs.«160782_j22454089023912_1_alg».proof.Proof.KernelRegion2
import proofs.«160782_j22454089023912_1_alg».proof.Proof.KernelRegion3
import proofs.«160782_j22454089023912_1_alg».proof.Proof.Gen.Kernel.Regions
import Idealize.ShloMosaic.Adequacy
import Idealize.ShloMosaic.Init

set_option maxRecDepth 16384

noncomputable section

namespace Cert.Kernel.Run

open Cert.Kernel Cert.Kernel.Gen Cert.Kernel.Regions
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The shares -/

/-- Distinct arrays: every input window holds its array outright. -/
abbrev shFull : Fin 3 → PosShare TreeShare := fun _ => fullShare
/-- Region 3: the two input windows hold one half each of the array they both read. -/
abbrev shHalves : Fin 3 → PosShare TreeShare := ![fullShare.left, fullShare.right, fullShare]

/-! ## The buffer contents at each boundary -/

/-- At launch. -/
abbrev W0 : Dev nD → Valuation τ sig (Elt F) := fun c b => m (c, b)
abbrev V0 : (c : Dev nD) → (b : Ref sig .tc) → Buf (Elt F) ((c : Thread nD τ).loc b) := fun c b => W0 m c b
/-- After region 0. -/
def W1 (c : Dev nD) : Valuation τ sig (Elt F) :=
  Pipeline.withArrays spec0 c (W0 m c) fun w => (dat0 (V0 m) shFull c).arrAt w cfg0.N
theorem W1_arr (c : Dev nD) (w : Fin cfg0.W) :
    W1 m c (Proc.devRef .tc (Pipeline.arrRef spec0 w)) = (dat0 (V0 m) shFull c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) shFull c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the first host stretch (region 1's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After region 1. -/
def W3 (c : Dev nD) : Valuation τ sig (Elt F) :=
  Pipeline.withArrays spec1 c (W2 m c) fun w => (dat1 (V2 m) shFull c).arrAt w cfg1.N
theorem W3_arr (c : Dev nD) (w : Fin cfg1.W) :
    W3 m c (Proc.devRef .tc (Pipeline.arrRef spec1 w)) = (dat1 (V2 m) shFull c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) shFull c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the second host stretch (region 2's entry). -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b
/-- After region 2. -/
def W5 (c : Dev nD) : Valuation τ sig (Elt F) :=
  Pipeline.withArrays spec2 c (W4 m c) fun w => (dat2 (V4 m) shFull c).arrAt w cfg2.N
theorem W5_arr (c : Dev nD) (w : Fin cfg2.W) :
    W5 m c (Proc.devRef .tc (Pipeline.arrRef spec2 w)) = (dat2 (V4 m) shFull c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (dat2 (V4 m) shFull c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-- After the third host stretch (region 3's entry). -/
abbrev W6 : Dev nD → Valuation τ sig (Elt F) := fun c => StableHlo.after hostOps3 (W5 m c)
abbrev V6 : (c : Dev nD) → (b : Ref sig .tc) → Buf (Elt F) ((c : Thread nD τ).loc b) := fun c b => W6 m c b
/-- After region 3: its output array at what its grid points wrote back, everything else (the array both input
    windows read included) as entered. -/
def W7 (c : Dev nD) : Valuation τ sig (Elt F) :=
  Function.update (W6 m c) (Proc.devRef .tc main_v42) ((dat3 (V6 m) shHalves c).arrAt 2 cfg3.N)
theorem W7_out (c : Dev nD) : W7 m c (Proc.devRef .tc main_v42) = (dat3 (V6 m) shHalves c).arrAt 2 cfg3.N := by
  unfold W7; exact Function.update_self _ _ _
theorem W7_of_ne (c : Dev nD) (b : Ref sig .tc) (hb : b ≠ main_v42) : W7 m c (Proc.devRef .tc b) = W6 m c (Proc.devRef .tc b) := by
  unfold W7; exact Function.update_of_ne (fun e => hb (Proc.devRef_injective _ e)) _ _
abbrev V7 : (c : Dev nD) → (b : Ref sig .tc) → Buf (Elt F) ((c : Thread nD τ).loc b) := fun c b => W7 m c b

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V0 m) shFull c
  | ⟨1, _⟩ => fun c => dat1 (V2 m) shFull c
  | ⟨2, _⟩ => fun c => dat2 (V4 m) shFull c
  | ⟨3, _⟩ => fun c => dat3 (V6 m) shHalves c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at its entry fold, left at the next fold.
    Its arrays are split out of the unscoped buffers and put back at the exit contents; the generator register
    passes through the region's invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) shFull c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry fold, left at the next fold.
    Its arrays are split out of the unscoped buffers and put back at the exit contents; the generator register
    passes through the region's invariant; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) shFull c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at its entry fold, left at the next fold.
    Its arrays are split out of the unscoped buffers and put back at the exit contents; the generator register
    passes through the region's invariant; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) shFull c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3's arrays: one buffer behind both input windows -/

/-- The arrays region 3's windows lie on: the embedding (both input windows) and the reconstruction. -/
theorem image3 : Finset.univ.image (Pipeline.arrRef spec3) = {main_v41, main_v42} := by decide

/-- A conjunction over those two arrays, one by one. -/
theorem bigSep_arr3 {M : Type} [URA M] (Φ : Ref sig .tc → sProp M) :
    bigSep (Finset.univ.image (Pipeline.arrRef spec3)) Φ = iprop(Φ main_v41 ∗ Φ main_v42) :=
  bigSep_eq_bigSepL_of_eq [main_v41, main_v42] (by decide) (by decide) Φ

/-- Every window's array is a whole buffer. -/
theorem whole3 (w : Fin 3) : ((Pipeline.pin (pcfgs (F := F)) adm 3).win w).arr.IsWhole := arr_whole3 w

/-- ENTRY. The embedding's buffer, held outright, is split into two halves, one for each input window; the
    reconstruction's buffer goes to the output window whole. -/
theorem arrays3_split (c : Dev nD) :
    (Pipeline.arrBufs (Ix := Unit) (Name := ℕ) (U := UR sig nD τ) (Lvl := ℕ) spec3 c (V6 m c) : sProp 𝕄)
      ⊢ (pdats m 3 c).arrays ((pdats m 3 c).arrAt · 0) := by
  unfold Pipeline.arrBufs Dat.arrays
  rw [bigSep_arr3, bigSep_W3, (whole3 (F := F) 0).set_eq_univ, (whole3 (F := F) 1).set_eq_univ, (whole3 (F := F) 2).set_eq_univ]
  iintro ⟨H41, H42⟩
  ihave Hs := (pointsTo_share (PosShare.mem_left_op_right fullShare)).1 $$ H41
  icases Hs with ⟨Hl, Hr⟩
  isplitl [Hl]; · iexact Hl
  isplitl [Hr]; · iexact Hr
  iexact H42

/-- Two halves of one buffer at equal contents join to the whole. -/
theorem join_halves (c : Dev nD) (g : Buf (Elt F) ((c : Thread nD τ).loc main_v41)) (k : Buf (Elt F) ((c : Thread nD τ).loc main_v42))
    (f0 f1 : Buf (Elt F) ((c : Thread nD τ).loc main_v41)) (f2 : Buf (Elt F) ((c : Thread nD τ).loc main_v42))
    (h0 : f0 = g) (h1 : f1 = g) (h2 : f2 = k) :
    (iprop((((c : Thread nD τ).loc main_v41) ↦{fullShare.left} f0) ∗ (((c : Thread nD τ).loc main_v41) ↦{fullShare.right} f1)
        ∗ (((c : Thread nD τ).loc main_v42) ↦{fullShare} f2)) : sProp 𝕄)
      ⊢ iprop((((c : Thread nD τ).loc main_v41) ↦{fullShare} g) ∗ (((c : Thread nD τ).loc main_v42) ↦{fullShare} k)) := by
  subst h0; subst h1; subst h2
  iintro ⟨Hl, Hr, H42⟩
  isplitl [Hl Hr]
  · iapply (pointsTo_share (PosShare.mem_left_op_right fullShare)).2
    isplitl [Hl] <;> iassumption
  iexact H42

/-- EXIT. The input windows' arrays are as entered (an input array is never written), so the two halves hold
    the same contents and join to the whole buffer; the output window's array is the last fold's. -/
theorem arrays3_join (c : Dev nD) :
    (pdats m 3 c).arrays ((pdats m 3 c).arrAt · cfg3.N)
      ⊢ (Pipeline.arrBufs (Ix := Unit) (Name := ℕ) (U := UR sig nD τ) (Lvl := ℕ) spec3 c (V7 m c) : sProp 𝕄) := by
  unfold Pipeline.arrBufs Dat.arrays
  rw [bigSep_arr3, bigSep_W3, (whole3 (F := F) 0).set_eq_univ, (whole3 (F := F) 1).set_eq_univ, (whole3 (F := F) 2).set_eq_univ]
  have h0 : (pdats m 3 c).arrAt 0 cfg3.N = V7 m c main_v41 :=
    ((pdats m 3 c).arrAt_in 0 rfl _).trans (W7_of_ne m c main_v41 (by decide)).symm
  have h1 : (pdats m 3 c).arrAt 1 cfg3.N = V7 m c main_v41 :=
    ((pdats m 3 c).arrAt_in 1 rfl _).trans (W7_of_ne m c main_v41 (by decide)).symm
  have h2 : (pdats m 3 c).arrAt 2 cfg3.N = V7 m c main_v42 := (W7_out m c).symm
  exact join_halves c _ _ _ _ _ h0 h1 h2

/-- Off the reconstruction's buffer the last fold is region 3's entry fold. -/
theorem rest3 (c : Dev nD) :
    (Pipeline.unscopedRest (Ix := Unit) (Name := ℕ) (U := UR sig nD τ) (Lvl := ℕ) spec3 c (V6 m c) : sProp 𝕄)
      = Pipeline.unscopedRest spec3 c (V7 m c) := by
  unfold Pipeline.unscopedRest
  refine bigSep_congr fun b hb => ?_
  have hb' : b ∉ Finset.univ.image (Pipeline.arrRef spec3) := (Finset.mem_sdiff.mp hb).2
  rw [image3] at hb'
  have : b ≠ main_v42 := fun e => hb' (by rw [e]; exact Finset.mem_insert_of_mem (Finset.mem_singleton_self _))
  rw [show V7 m c b = V6 m c b from W7_of_ne m c b this]

set_option backward.isDefEq.respectTransparency.types false in
/-- Region 3 over the thread state. Its two input windows read one array: on entry that buffer is split into two
    halves (arrays3_split), on exit the halves are joined (arrays3_join); the output array is put back at what the
    grid points wrote; every other buffer bypasses the region. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (V6 m) shHalves c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (V6 m c)
  hentry c := by
    rw [Pipeline.ownSems0_none]
    have hsp := Entails.of_eq (Pipeline.unscopedBufs_split₀ (Ix := Unit) (Name := ℕ) (U := UR sig nD τ) (Lvl := ℕ)
      (Pipeline.pin (pcfgs (F := F)) adm) 3 winFacts₀3.arr_unscoped c (V6 m c))
    rw [Pipeline.unscopedBufs_held] at hsp
    iintro ⟨⟨Hub, Hp, HO⟩, -, -⟩
    ihave H := hsp $$ Hub
    icases H with ⟨Hb, Hrest⟩
    ihave Ha := (arrays3_split m c) $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hsp := Entails.of_eq (Pipeline.unscopedBufs_split₀ (Ix := Unit) (Name := ℕ) (U := UR sig nD τ) (Lvl := ℕ)
      (Pipeline.pin (pcfgs (F := F)) adm) 3 winFacts₀3.arr_unscoped c (V7 m c)).symm
    rw [Pipeline.unscopedBufs_held] at hsp
    iintro ⟨Ha, HO, HY, Hrest⟩
    imodintro
    isplitl [Ha Hrest]
    · iapply hsp
      isplitl [Ha]
      · iapply (arrays3_join m c); iexact Ha
      iapply (Entails.of_eq (rest3 m c)); iexact Hrest
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .region (reg2 m),
    .host (hseg hostOps3 hostOps3_sub hostOps3_fresh (W5 m)),
    .region (reg3 m) ]

/-- @main is the run of the segments. -/
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and in every final memory each buffer of @main holds the last fold's contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W7 m c) ∗ ∃ r, prngReg c r))
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m c) ∗ R c) ⊢ _
        iintro ⟨Hh, Hp, Ho⟩
        isplitl [Hh Hp]
        · isplitl [Hh] <;> iassumption
        iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

end Cert.Kernel.Run

end
-- ==== Proof.Stages.lean ====
/-
  The stages of the computation, each written once with the host operations of the reference program, generic in
  the float instance. A dense layer is a matrix product, followed by tanh in the first two layers. The sparse
  aggregation takes edge lists (row, col, w) and a feature matrix h to the matrix whose row r is the sum over the
  edges e with row e = r of w e · h[col e]: a gather of rows (a negative column index first moved up by the number
  of rows), a product with the broadcast weights, and a scatter-add into zeros. The embedding z is three
  layers, each followed by the aggregation; the reconstruction is 1 / (1 + exp (-(z zᵀ))) entry by entry.
  Both programs' results are these functions of the argument arrays.
-/
import proofs.«160782_j22454089023912_1_alg».proof.Proof.Gen.ReferenceIdeal

noncomputable section

namespace Cert.Stages

open Cert.ReferenceIdeal Cert.ReferenceIdeal.Facts₀ Idealize.ShloMosaic

variable {F : FTy → Type} [FloatOps F]

/-- The contents of a buffer of the given shape and element type. -/
abbrev Arr (F : FTy → Type) (s : Shape) (e : EltTy) : Type := (⟨s, e⟩ : BufTy).Contents (Elt F)

/-- The gather's start indices: a negative column index is moved up by the number of rows. -/
def gatherIdx (col : Arr F S393216 .i32) : Arr F S393216x1 .i32 :=
  broadcastInDim S393216x1 ![0] bcast_S393216_S393216x1_0 (select (cmpi .slt col (broadcastInDim S393216 ![] bcast_S_S393216 (constantI S_ 32 0#32))) (addi col (broadcastInDim S393216 ![] bcast_S_S393216 (constantI S_ 32 12288#32))) col)

/-- The sparse aggregation over 256 features. -/
def spmm256 (row col : Arr F S393216 .i32) (w : Arr F S393216 .f32) (h : Arr F S12288x256 .f32) : Arr F S12288x256 .f32 :=
  Host.scatterAdd scatter_S12288x256_S393216x1_S393216x256_1_0_0_1 (broadcastInDim S12288x256 ![] bcast_S_S12288x256 (constant S_ .f32 0x00000000#32)) (broadcastInDim S393216x1 ![0] bcast_S393216_S393216x1_0 row) (mulf (broadcastInDim S393216x256 ![0, 1] bcast_S393216x1_S393216x256_0_1 (broadcastInDim S393216x1 ![0] bcast_S393216_S393216x1_0 w)) (Host.gather gather_S12288x256_S393216x1_S393216x256_1_0_n_n_0_1_1256 h (gatherIdx col)))

/-- The sparse aggregation over 128 features. -/
def spmm128 (row col : Arr F S393216 .i32) (w : Arr F S393216 .f32) (h : Arr F S12288x128 .f32) : Arr F S12288x128 .f32 :=
  Host.scatterAdd scatter_S12288x128_S393216x1_S393216x128_1_0_0_1 (broadcastInDim S12288x128 ![] bcast_S_S12288x128 (constant S_ .f32 0x00000000#32)) (broadcastInDim S393216x1 ![0] bcast_S393216_S393216x1_0 row) (mulf (broadcastInDim S393216x128 ![0, 1] bcast_S393216x1_S393216x128_0_1 (broadcastInDim S393216x1 ![0] bcast_S393216_S393216x1_0 w)) (Host.gather gather_S12288x128_S393216x1_S393216x128_1_0_n_n_0_1_1128 h (gatherIdx col)))

/-- The sparse aggregation over 64 features. -/
def spmm64 (row col : Arr F S393216 .i32) (w : Arr F S393216 .f32) (h : Arr F S12288x64 .f32) : Arr F S12288x64 .f32 :=
  Host.scatterAdd scatter_S12288x64_S393216x1_S393216x64_1_0_0_1 (broadcastInDim S12288x64 ![] bcast_S_S12288x64 (constant S_ .f32 0x00000000#32)) (broadcastInDim S393216x1 ![0] bcast_S393216_S393216x1_0 row) (mulf (broadcastInDim S393216x64 ![0, 1] bcast_S393216x1_S393216x64_0_1 (broadcastInDim S393216x1 ![0] bcast_S393216_S393216x1_0 w)) (Host.gather gather_S12288x64_S393216x1_S393216x64_1_0_n_n_0_1_164 h (gatherIdx col)))

/-- The first dense layer: tanh (x W₁). -/
def layer1 (x : Arr F S12288x512 .f32) (W : Arr F S512x256 .f32) : Arr F S12288x256 .f32 :=
  Host.tanh (Host.dotGeneral dot_S12288x512_S512x256_S12288x256_1_0_0_1_n_n none x W)

/-- The second dense layer: tanh (z₁ W₂). -/
def layer2 (x : Arr F S12288x256 .f32) (W : Arr F S256x128 .f32) : Arr F S12288x128 .f32 :=
  Host.tanh (Host.dotGeneral dot_S12288x256_S256x128_S12288x128_1_0_0_1_n_n none x W)

/-- The third dense layer, without activation: z₂ W₃. -/
def layer3 (x : Arr F S12288x128 .f32) (W : Arr F S128x64 .f32) : Arr F S12288x64 .f32 :=
  Host.dotGeneral dot_S12288x128_S128x64_S12288x64_1_0_0_1_n_n none x W

/-- The embedding: three layers, each followed by the aggregation. -/
def embed (x : Arr F S12288x512 .f32) (row col : Arr F S393216 .i32) (w : Arr F S393216 .f32)
    (W1 : Arr F S512x256 .f32) (W2 : Arr F S256x128 .f32) (W3 : Arr F S128x64 .f32) : Arr F S12288x64 .f32 :=
  spmm64 row col w (layer3 (spmm128 row col w (layer2 (spmm256 row col w (layer1 x W1)) W2)) W3)

/-- The reconstruction: 1 / (1 + exp (-(z zᵀ))). -/
def recon (z : Arr F S12288x64 .f32) : Arr F S12288x12288 .f32 :=
  Host.divf (broadcastInDim S12288x12288 ![] bcast_S_S12288x12288 (constant S_ .f32 0x3F800000#32)) (addf (broadcastInDim S12288x12288 ![] bcast_S_S12288x12288 (constant S_ .f32 0x3F800000#32)) (Host.exp (Host.negf (Host.dotGeneral dot_S12288x64_S64x12288_S12288x12288_1_0_0_1_n_n none z (transpose S64x12288 [1, 0] z transposes_S12288x64_S64x12288_1_0)))))

end Cert.Stages

end
-- ==== Proof.KernelHost.lean ====
/-
  The host stretches between the kernel's regions. Each is the sparse aggregation of the stage before it: the edge
  weights broadcast along the features; the column indices, a negative one first moved up by the number of rows,
  gathering rows of the feature matrix; the product of the two scatter-added into zeros at the row indices. These are
  the reference's own operations applied to the same buffers, so what a stretch leaves in its result buffer is the
  aggregation (`Cert.Stages.spmm256`, `spmm128`, `spmm64`) of the three edge lists and of the feature matrix as they
  stood before the stretch, whatever those contents are. The two programs' shape records have the same fields, and
  their side conditions are propositions, so the two terms are one term: nothing is computed. A buffer outside the
  sixteen a stretch writes keeps its contents. Generic in the float instance.
-/
import proofs.«160782_j22454089023912_1_alg».proof.Proof.Gen.Kernel.Regions
import proofs.«160782_j22454089023912_1_alg».proof.Proof.Stages
import Idealize.ShloMosaic.Lib.StableHlo.Run

noncomputable section

namespace Cert.Kernel.Host

open Cert.Kernel Cert.Kernel.Gen Idealize.ShloMosaic

variable {F : FTy → Type} [FloatOps F]

/-! ## What each stretch computes -/

/-- After the first stretch its result buffer holds the aggregation, over 256 features, of the edge lists and of the
    feature matrix the region before it left: the stretch's operations composed are that function's body. -/
theorem host1 (W : Valuation τ sig (Elt F)) :
    StableHlo.after hostOps1 W (Proc.devRef .tc main_v13)
      = Cert.Stages.spmm256 (W (Proc.devRef .tc main_arg1)) (W (Proc.devRef .tc main_arg2))
          (W (Proc.devRef .tc main_arg3)) (W (Proc.devRef .tc main_v0)) := by
  after_results_simp
  unfold Cert.Stages.spmm256 Cert.Stages.gatherIdx
  rfl

/-- After the second stretch its result buffer holds the aggregation, over 128 features, of the edge lists and of the
    feature matrix the region before it left: the stretch's operations composed are that function's body. -/
theorem host2 (W : Valuation τ sig (Elt F)) :
    StableHlo.after hostOps2 W (Proc.devRef .tc main_v27)
      = Cert.Stages.spmm128 (W (Proc.devRef .tc main_arg1)) (W (Proc.devRef .tc main_arg2))
          (W (Proc.devRef .tc main_arg3)) (W (Proc.devRef .tc main_v14)) := by
  after_results_simp
  unfold Cert.Stages.spmm128 Cert.Stages.gatherIdx
  rfl

/-- After the third stretch its result buffer holds the aggregation, over 64 features, of the edge lists and of the
    feature matrix the region before it left: the stretch's operations composed are that function's body. -/
theorem host3 (W : Valuation τ sig (Elt F)) :
    StableHlo.after hostOps3 W (Proc.devRef .tc main_v41)
      = Cert.Stages.spmm64 (W (Proc.devRef .tc main_arg1)) (W (Proc.devRef .tc main_arg2))
          (W (Proc.devRef .tc main_arg3)) (W (Proc.devRef .tc main_v28)) := by
  after_results_simp
  unfold Cert.Stages.spmm64 Cert.Stages.gatherIdx
  rfl

/-! ## What each stretch leaves alone -/

/-- A buffer that is none of the sixteen the first stretch writes holds after it what it held before. -/
theorem keep1 (W : Valuation τ sig (Elt F)) (r : Ref sig .tc) (h : r ∉ hostOps1_W) :
    StableHlo.after hostOps1 W (Proc.devRef .tc r) = W (Proc.devRef .tc r) :=
  StableHlo.after_of_writes_sub hostOps1 W hostOps1_writes h

/-- A buffer that is none of the sixteen the second stretch writes holds after it what it held before. -/
theorem keep2 (W : Valuation τ sig (Elt F)) (r : Ref sig .tc) (h : r ∉ hostOps2_W) :
    StableHlo.after hostOps2 W (Proc.devRef .tc r) = W (Proc.devRef .tc r) :=
  StableHlo.after_of_writes_sub hostOps2 W hostOps2_writes h

/-- A buffer that is none of the sixteen the third stretch writes holds after it what it held before. -/
theorem keep3 (W : Valuation τ sig (Elt F)) (r : Ref sig .tc) (h : r ∉ hostOps3_W) :
    StableHlo.after hostOps3 W (Proc.devRef .tc r) = W (Proc.devRef .tc r) :=
  StableHlo.after_of_writes_sub hostOps3 W hostOps3_writes h

end Cert.Kernel.Host

end
-- ==== Proof.KernelFrame.lean ====
/-
  What the run gives. Each step of the fold keeps every buffer it does not write: a region changes only its output
  array (an input array is read through its window and never written), a host stretch only the buffers its
  operations write. No step writes an argument of @main, so the arguments end as launched.
-/
import proofs.«160782_j22454089023912_1_alg».proof.Proof.KernelRun
import proofs.«160782_j22454089023912_1_alg».proof.Proof.KernelHost

set_option maxRecDepth 16384

noncomputable section

namespace Cert.Kernel.Run

open Cert.Kernel Cert.Kernel.Gen Cert.Kernel.Regions
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- Region 0 changes only its output array. -/
theorem W1_keep (c : Dev nD) (b : Ref sig .tc) (hb : b ≠ main_v0) : W1 m c (Proc.devRef .tc b) = W0 m c (Proc.devRef .tc b) := by
  by_cases h : ∃ w, Pipeline.arrRef spec0 w = b
  · obtain ⟨w, rfl⟩ := h
    rw [W1_arr]
    have hin : (cfg0.win w).isOut = false := by
      match w with
      | ⟨0, _⟩ => rfl
      | ⟨1, _⟩ => rfl
      | ⟨2, _⟩ => exact absurd rfl hb
    exact ((dat0 (V0 m) shFull c).arrAt_in w hin _).trans (A_eq0 (V0 m) shFull c w)
  · exact W1_of_ne m c b fun w e => h ⟨w, e⟩

/-- Region 1 changes only its output array. -/
theorem W3_keep (c : Dev nD) (b : Ref sig .tc) (hb : b ≠ main_v14) : W3 m c (Proc.devRef .tc b) = W2 m c (Proc.devRef .tc b) := by
  by_cases h : ∃ w, Pipeline.arrRef spec1 w = b
  · obtain ⟨w, rfl⟩ := h
    rw [W3_arr]
    have hin : (cfg1.win w).isOut = false := by
      match w with
      | ⟨0, _⟩ => rfl
      | ⟨1, _⟩ => rfl
      | ⟨2, _⟩ => exact absurd rfl hb
    exact ((dat1 (V2 m) shFull c).arrAt_in w hin _).trans (A_eq1 (V2 m) shFull c w)
  · exact W3_of_ne m c b fun w e => h ⟨w, e⟩

/-- Region 2 changes only its output array. -/
theorem W5_keep (c : Dev nD) (b : Ref sig .tc) (hb : b ≠ main_v28) : W5 m c (Proc.devRef .tc b) = W4 m c (Proc.devRef .tc b) := by
  by_cases h : ∃ w, Pipeline.arrRef spec2 w = b
  · obtain ⟨w, rfl⟩ := h
    rw [W5_arr]
    have hin : (cfg2.win w).isOut = false := by
      match w with
      | ⟨0, _⟩ => rfl
      | ⟨1, _⟩ => rfl
      | ⟨2, _⟩ => exact absurd rfl hb
    exact ((dat2 (V4 m) shFull c).arrAt_in w hin _).trans (A_eq2 (V4 m) shFull c w)
  · exact W5_of_ne m c b fun w e => h ⟨w, e⟩

/-- A buffer that region 0 does not write is, after it, as launched. -/
theorem keep1 (c : Dev nD) (b : Ref sig .tc) (h0 : b ≠ main_v0) : W1 m c (Proc.devRef .tc b) = m ((c : Thread nD τ).loc b) :=
  W1_keep m c b h0

/-- … through the first host stretch and region 1. -/
theorem keep3 (c : Dev nD) (b : Ref sig .tc) (h0 : b ≠ main_v0) (h1 : b ∉ hostOps1_W) (h2 : b ≠ main_v14) :
    W3 m c (Proc.devRef .tc b) = m ((c : Thread nD τ).loc b) :=
  (W3_keep m c b h2).trans ((Host.keep1 (W1 m c) b h1).trans (keep1 m c b h0))

/-- … through the second host stretch and region 2. -/
theorem keep5 (c : Dev nD) (b : Ref sig .tc) (h0 : b ≠ main_v0) (h1 : b ∉ hostOps1_W) (h2 : b ≠ main_v14) (h3 : b ∉ hostOps2_W)
    (h4 : b ≠ main_v28) : W5 m c (Proc.devRef .tc b) = m ((c : Thread nD τ).loc b) :=
  (W5_keep m c b h4).trans ((Host.keep2 (W3 m c) b h3).trans (keep3 m c b h0 h1 h2))

/-- … through the third host stretch and region 3: at the return. -/
theorem keep7 (c : Dev nD) (b : Ref sig .tc) (h0 : b ≠ main_v0) (h1 : b ∉ hostOps1_W) (h2 : b ≠ main_v14) (h3 : b ∉ hostOps2_W)
    (h4 : b ≠ main_v28) (h5 : b ∉ hostOps3_W) (h6 : b ≠ main_v42) : W7 m c (Proc.devRef .tc b) = m ((c : Thread nD τ).loc b) :=
  (W7_of_ne m c b h6).trans ((Host.keep3 (W5 m c) b h5).trans (keep5 m c b h0 h1 h2 h3 h4))

/-- A buffer no step so far has written is, at region 1's entry, as launched. -/
theorem keep2 (c : Dev nD) (b : Ref sig .tc) (h0 : b ≠ main_v0) (h1 : b ∉ hostOps1_W) :
    W2 m c (Proc.devRef .tc b) = m ((c : Thread nD τ).loc b) :=
  (Host.keep1 (W1 m c) b h1).trans (keep1 m c b h0)

/-- … at region 2's entry. -/
theorem keep4 (c : Dev nD) (b : Ref sig .tc) (h0 : b ≠ main_v0) (h1 : b ∉ hostOps1_W) (h2 : b ≠ main_v14) (h3 : b ∉ hostOps2_W) :
    W4 m c (Proc.devRef .tc b) = m ((c : Thread nD τ).loc b) :=
  (Host.keep2 (W3 m c) b h3).trans (keep3 m c b h0 h1 h2)

/-- THE FRAME: every weakly fair execution of @main terminates, nothing faulting, and the argument arrays end as
    launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (keep7 m c main_arg0 (by decide) (by decide) (by decide) (by decide) (by decide) (by decide) (by decide)),
     (h c _ (mem_uc main_arg1 (by decide))).trans (keep7 m c main_arg1 (by decide) (by decide) (by decide) (by decide) (by decide) (by decide) (by decide)),
     (h c _ (mem_uc main_arg2 (by decide))).trans (keep7 m c main_arg2 (by decide) (by decide) (by decide) (by decide) (by decide) (by decide) (by decide)),
     (h c _ (mem_uc main_arg3 (by decide))).trans (keep7 m c main_arg3 (by decide) (by decide) (by decide) (by decide) (by decide) (by decide) (by decide)),
     (h c _ (mem_uc main_arg4 (by decide))).trans (keep7 m c main_arg4 (by decide) (by decide) (by decide) (by decide) (by decide) (by decide) (by decide)),
     (h c _ (mem_uc main_arg5 (by decide))).trans (keep7 m c main_arg5 (by decide) (by decide) (by decide) (by decide) (by decide) (by decide) (by decide)),
     (h c _ (mem_uc main_arg6 (by decide))).trans (keep7 m c main_arg6 (by decide) (by decide) (by decide) (by decide) (by decide) (by decide) (by decide))⟩)
    (run_all m ρ)

end Cert.Kernel.Run

end
-- ==== Proof.KernelIdealRegion0.lean ====
/-
  Region 0 of @main as a pipeline over its grid. Each grid point reads one block through each of two input windows
  (windows 0 and 1: a row tile of an array, or a whole matrix whose block index never moves; the two windows may
  lie on one array) and writes one block of the output array (window 2). The body loads both input blocks whole, forms the payload from them (the matrix
  product of the two blocks, followed by the region's pointwise function where it has one) and stores it over the
  whole output block. Everything here is stated at a parameter V, the buffer contents at the region's entry:
  the blocks read off V, what the body leaves in each staging buffer, the pipeline's proof data, and the body
  obligation at every grid point.
-/
import proofs.«160782_j22454089023912_1_alg».proof.Proof.Gen.KernelIdeal.Launch
import proofs.«160782_j22454089023912_1_alg».proof.Proof.Gen.KernelIdeal.Skeleton
import proofs.«160782_j22454089023912_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
-- the share of its array each input window holds (full shares when the arrays are distinct buffers)
variable (sh : Fin 3 → PosShare TreeShare)

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point: fetched there, or left in place since the last
    fetch because the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, for the same reason. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rx0 : Rect S2048x512 := Rect.unit (s := S2048x512) ![0, 0] S2048x512.size inb_S2048x512_S2048x512_0_0
abbrev rw0 : Rect S512x256 := Rect.unit (s := S512x256) ![0, 0] S512x256.size inb_S512x256_S512x256_0_0
abbrev ro0 : Rect S2048x256 := Rect.unit (s := S2048x256) ![0, 0] S2048x256.size inb_S2048x256_S2048x256_0_0

/-- What the body leaves in the output window's buffer, from the two input blocks: its one store, over the whole block. -/
def out0_2 (x0 : Vec F S2048x512 .f32) (x1 : Vec F S512x256 .f32) : Vec F S2048x256 .f32 :=
  View.canon [⟨ro0, k0_pay1 (View.ld x0 rx0) (View.ld x1 rw0)⟩]

/-- The one store covers the output block. -/
theorem cover0_2 (p0 : Vec F S2048x256 .f32) (y : S2048x256.Idx) :
    ∃ pc ∈ ([⟨ro0, p0⟩] : List (View.Piece (Elt F) S2048x256 .f32)), y ∈ pc.1.set :=
  View.cover_of_tiled [⟨ro0, p0⟩] S2048x256.size (by rfl) y

set_option maxHeartbeats 1000000 in
/-- The body on whole staging memrefs: the inputs' contents are kept, the output's becomes out0_2 of them. -/
theorem sound_kernel0 (c : Dev nD) (E : Set ℕ) (i : grid0.Coords)
    (arg1 : Memref sig .tc .vmem S2048x512 .f32) (harg1 : arg1.IsWhole) (arg2 : Memref sig .tc .vmem S512x256 .f32) (harg2 : arg2.IsWhole)
    (arg3 : Memref sig .tc .vmem S2048x256 .f32) (harg3 : arg3.IsWhole)
    (x0 : Vec F S2048x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__dense_act_kernel i arg1 harg1 arg2 harg2 arg3 harg3) K := by
  simp only [cc0__dense_act_kernel_eq_skeleton]; unfold cc0__dense_act_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core c: the arrays as the region finds them; after the body at point t each
    input's buffer still at its block and the output's at out0_2 of the two input blocks; nothing owed; the input
    windows' shares as given. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q := sh
  owed _ := 0

theorem A_eq0 (c : Dev nD) (w : Fin cfg0.W) : (dat0 V sh c).A w = V c (Pipeline.arrRef spec0 w) := by
  dsimp only [dat0]

theorem after0_0 (c : Dev nD) (t : Fin cfg0.N) : (dat0 V sh c).after 0 t = iblk0 V c 0 t := by dsimp only [dat0]
theorem after0_1 (c : Dev nD) (t : Fin cfg0.N) : (dat0 V sh c).after 1 t = iblk0 V c 1 t := by dsimp only [dat0]
theorem after0_2 (c : Dev nD) (t : Fin cfg0.N) :
    (dat0 V sh c).after 2 t = out0_2 (iblk0 V c 0 t) (iblk0 V c 1 t) := by dsimp only [dat0]

theorem before0_0 (c : Dev nD) (t : Fin cfg0.N) (d) : (dat0 V sh c).before 0 t d = iblk0 V c 0 t :=
  before0_0_of V (dat0 V sh c) (A_eq0 V sh c 0) (after0_0 V sh c) t d
theorem before0_1 (c : Dev nD) (t : Fin cfg0.N) (d) : (dat0 V sh c).before 1 t d = iblk0 V c 1 t :=
  before0_1_of V (dat0 V sh c) (A_eq0 V sh c 1) (after0_1 V sh c) t d

/-- What the body is called with at point t, the windows one by one, -/
def bodyPre0 (c : Dev nD) (t : Fin cfg0.N) : sProp 𝕄 :=
  iprop((dat0 V sh c).Φ t.castSucc ∗ (dat0 V sh c).owesAt () t.castSucc
    ∗ (∃ d, owns (c : Thread nD τ) (st0_0 t) fullShare ((dat0 V sh c).before 0 t d))
    ∗ (∃ d, owns (c : Thread nD τ) (st0_1 t) fullShare ((dat0 V sh c).before 1 t d))
    ∗ (∃ d, owns (c : Thread nD τ) (st0_2 t) fullShare ((dat0 V sh c).before 2 t d)))

/-- and what it returns. -/
def bodyPost0 (c : Dev nD) (t : Fin cfg0.N) : sProp 𝕄 :=
  iprop((dat0 V sh c).Φ t.succ ∗ (dat0 V sh c).owesAt () t.succ
    ∗ owns (c : Thread nD τ) (st0_0 t) fullShare ((dat0 V sh c).after 0 t)
    ∗ owns (c : Thread nD τ) (st0_1 t) fullShare ((dat0 V sh c).after 1 t)
    ∗ owns (c : Thread nD τ) (st0_2 t) fullShare ((dat0 V sh c).after 2 t))

/-- The body at any point: the inputs' memrefs hold their blocks, so sound_kernel0 applies; the invariant and the
    core's dues pass through unread. -/
theorem sound_body0 (c : Dev nD) (t : Fin cfg0.N) :
    bodyPre0 V sh c t ⊢ wp frame (wpE (defs₀ (F := F)) Variants.none c none) Set.univ (bodyAt0 t) (fun _ => bodyPost0 V sh c t) := by
  unfold bodyPre0 bodyPost0 bodyAt0
  simp only [before0_0, before0_1]
  rw [show (dat0 V sh c).Φ t.succ = (dat0 V sh c).Φ t.castSucc from rfl,
    show (dat0 V sh c).owesAt () t.succ = (dat0 V sh c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V sh c) (defs₀ (F := F)) Variants.none () Set.univ := fun t => by
  rw [bigSep_W0, bigSep_W0]
  exact sound_body0 V sh c t

end Cert.KernelIdeal.Regions

end
-- ==== Proof.KernelIdealRegion1.lean ====
/-
  Region 1 of @main as a pipeline over its grid. Each grid point reads one block through each of two input windows
  (windows 0 and 1: a row tile of an array, or a whole matrix whose block index never moves; the two windows may
  lie on one array) and writes one block of the output array (window 2). The body loads both input blocks whole, forms the payload from them (the matrix
  product of the two blocks, followed by the region's pointwise function where it has one) and stores it over the
  whole output block. Everything here is stated at a parameter V, the buffer contents at the region's entry:
  the blocks read off V, what the body leaves in each staging buffer, the pipeline's proof data, and the body
  obligation at every grid point.
-/
import proofs.«160782_j22454089023912_1_alg».proof.Proof.Gen.KernelIdeal.Launch
import proofs.«160782_j22454089023912_1_alg».proof.Proof.Gen.KernelIdeal.Skeleton
import proofs.«160782_j22454089023912_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
-- the share of its array each input window holds (full shares when the arrays are distinct buffers)
variable (sh : Fin 3 → PosShare TreeShare)

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point: fetched there, or left in place since the last
    fetch because the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, for the same reason. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev rx1 : Rect S2048x256 := Rect.unit (s := S2048x256) ![0, 0] S2048x256.size inb_S2048x256_S2048x256_0_0
abbrev rw1 : Rect S256x128 := Rect.unit (s := S256x128) ![0, 0] S256x128.size inb_S256x128_S256x128_0_0
abbrev ro1 : Rect S2048x128 := Rect.unit (s := S2048x128) ![0, 0] S2048x128.size inb_S2048x128_S2048x128_0_0

/-- What the body leaves in the output window's buffer, from the two input blocks: its one store, over the whole block. -/
def out1_2 (x0 : Vec F S2048x256 .f32) (x1 : Vec F S256x128 .f32) : Vec F S2048x128 .f32 :=
  View.canon [⟨ro1, k1_pay1 (View.ld x0 rx1) (View.ld x1 rw1)⟩]

/-- The one store covers the output block. -/
theorem cover1_2 (p0 : Vec F S2048x128 .f32) (y : S2048x128.Idx) :
    ∃ pc ∈ ([⟨ro1, p0⟩] : List (View.Piece (Elt F) S2048x128 .f32)), y ∈ pc.1.set :=
  View.cover_of_tiled [⟨ro1, p0⟩] S2048x128.size (by rfl) y

set_option maxHeartbeats 1000000 in
/-- The body on whole staging memrefs: the inputs' contents are kept, the output's becomes out1_2 of them. -/
theorem sound_kernel1 (c : Dev nD) (E : Set ℕ) (i : grid1.Coords)
    (arg1 : Memref sig .tc .vmem S2048x256 .f32) (harg1 : arg1.IsWhole) (arg2 : Memref sig .tc .vmem S256x128 .f32) (harg2 : arg2.IsWhole)
    (arg3 : Memref sig .tc .vmem S2048x128 .f32) (harg3 : arg3.IsWhole)
    (x0 : Vec F S2048x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__dense_act_kernel i arg1 harg1 arg2 harg2 arg3 harg3) K := by
  simp only [cc1__dense_act_kernel_eq_skeleton]; unfold cc1__dense_act_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core c: the arrays as the region finds them; after the body at point t each
    input's buffer still at its block and the output's at out1_2 of the two input blocks; nothing owed; the input
    windows' shares as given. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q := sh
  owed _ := 0

theorem A_eq1 (c : Dev nD) (w : Fin cfg1.W) : (dat1 V sh c).A w = V c (Pipeline.arrRef spec1 w) := by
  dsimp only [dat1]

theorem after1_0 (c : Dev nD) (t : Fin cfg1.N) : (dat1 V sh c).after 0 t = iblk1 V c 0 t := by dsimp only [dat1]
theorem after1_1 (c : Dev nD) (t : Fin cfg1.N) : (dat1 V sh c).after 1 t = iblk1 V c 1 t := by dsimp only [dat1]
theorem after1_2 (c : Dev nD) (t : Fin cfg1.N) :
    (dat1 V sh c).after 2 t = out1_2 (iblk1 V c 0 t) (iblk1 V c 1 t) := by dsimp only [dat1]

theorem before1_0 (c : Dev nD) (t : Fin cfg1.N) (d) : (dat1 V sh c).before 0 t d = iblk1 V c 0 t :=
  before1_0_of V (dat1 V sh c) (A_eq1 V sh c 0) (after1_0 V sh c) t d
theorem before1_1 (c : Dev nD) (t : Fin cfg1.N) (d) : (dat1 V sh c).before 1 t d = iblk1 V c 1 t :=
  before1_1_of V (dat1 V sh c) (A_eq1 V sh c 1) (after1_1 V sh c) t d

/-- What the body is called with at point t, the windows one by one, -/
def bodyPre1 (c : Dev nD) (t : Fin cfg1.N) : sProp 𝕄 :=
  iprop((dat1 V sh c).Φ t.castSucc ∗ (dat1 V sh c).owesAt () t.castSucc
    ∗ (∃ d, owns (c : Thread nD τ) (st1_0 t) fullShare ((dat1 V sh c).before 0 t d))
    ∗ (∃ d, owns (c : Thread nD τ) (st1_1 t) fullShare ((dat1 V sh c).before 1 t d))
    ∗ (∃ d, owns (c : Thread nD τ) (st1_2 t) fullShare ((dat1 V sh c).before 2 t d)))

/-- and what it returns. -/
def bodyPost1 (c : Dev nD) (t : Fin cfg1.N) : sProp 𝕄 :=
  iprop((dat1 V sh c).Φ t.succ ∗ (dat1 V sh c).owesAt () t.succ
    ∗ owns (c : Thread nD τ) (st1_0 t) fullShare ((dat1 V sh c).after 0 t)
    ∗ owns (c : Thread nD τ) (st1_1 t) fullShare ((dat1 V sh c).after 1 t)
    ∗ owns (c : Thread nD τ) (st1_2 t) fullShare ((dat1 V sh c).after 2 t))

/-- The body at any point: the inputs' memrefs hold their blocks, so sound_kernel1 applies; the invariant and the
    core's dues pass through unread. -/
theorem sound_body1 (c : Dev nD) (t : Fin cfg1.N) :
    bodyPre1 V sh c t ⊢ wp frame (wpE (defs₀ (F := F)) Variants.none c none) Set.univ (bodyAt1 t) (fun _ => bodyPost1 V sh c t) := by
  unfold bodyPre1 bodyPost1 bodyAt1
  simp only [before1_0, before1_1]
  rw [show (dat1 V sh c).Φ t.succ = (dat1 V sh c).Φ t.castSucc from rfl,
    show (dat1 V sh c).owesAt () t.succ = (dat1 V sh c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V sh c) (defs₀ (F := F)) Variants.none () Set.univ := fun t => by
  rw [bigSep_W1, bigSep_W1]
  exact sound_body1 V sh c t

end Cert.KernelIdeal.Regions

end
-- ==== Proof.KernelIdealRegion2.lean ====
/-
  Region 2 of @main as a pipeline over its grid. Each grid point reads one block through each of two input windows
  (windows 0 and 1: a row tile of an array, or a whole matrix whose block index never moves; the two windows may
  lie on one array) and writes one block of the output array (window 2). The body loads both input blocks whole, forms the payload from them (the matrix
  product of the two blocks, followed by the region's pointwise function where it has one) and stores it over the
  whole output block. Everything here is stated at a parameter V, the buffer contents at the region's entry:
  the blocks read off V, what the body leaves in each staging buffer, the pipeline's proof data, and the body
  obligation at every grid point.
-/
import proofs.«160782_j22454089023912_1_alg».proof.Proof.Gen.KernelIdeal.Launch
import proofs.«160782_j22454089023912_1_alg».proof.Proof.Gen.KernelIdeal.Skeleton
import proofs.«160782_j22454089023912_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
-- the share of its array each input window holds (full shares when the arrays are distinct buffers)
variable (sh : Fin 3 → PosShare TreeShare)

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point: fetched there, or left in place since the last
    fetch because the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, for the same reason. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev rx2 : Rect S2048x128 := Rect.unit (s := S2048x128) ![0, 0] S2048x128.size inb_S2048x128_S2048x128_0_0
abbrev rw2 : Rect S128x64 := Rect.unit (s := S128x64) ![0, 0] S128x64.size inb_S128x64_S128x64_0_0
abbrev ro2 : Rect S2048x64 := Rect.unit (s := S2048x64) ![0, 0] S2048x64.size inb_S2048x64_S2048x64_0_0

/-- What the body leaves in the output window's buffer, from the two input blocks: its one store, over the whole block. -/
def out2_2 (x0 : Vec F S2048x128 .f32) (x1 : Vec F S128x64 .f32) : Vec F S2048x64 .f32 :=
  View.canon [⟨ro2, k2_pay1 (View.ld x0 rx2) (View.ld x1 rw2)⟩]

/-- The one store covers the output block. -/
theorem cover2_2 (p0 : Vec F S2048x64 .f32) (y : S2048x64.Idx) :
    ∃ pc ∈ ([⟨ro2, p0⟩] : List (View.Piece (Elt F) S2048x64 .f32)), y ∈ pc.1.set :=
  View.cover_of_tiled [⟨ro2, p0⟩] S2048x64.size (by rfl) y

set_option maxHeartbeats 1000000 in
/-- The body on whole staging memrefs: the inputs' contents are kept, the output's becomes out2_2 of them. -/
theorem sound_kernel2 (c : Dev nD) (E : Set ℕ) (i : grid2.Coords)
    (arg1 : Memref sig .tc .vmem S2048x128 .f32) (harg1 : arg1.IsWhole) (arg2 : Memref sig .tc .vmem S128x64 .f32) (harg2 : arg2.IsWhole)
    (arg3 : Memref sig .tc .vmem S2048x64 .f32) (harg3 : arg3.IsWhole)
    (x0 : Vec F S2048x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__dense_act_kernel i arg1 harg1 arg2 harg2 arg3 harg3) K := by
  simp only [cc2__dense_act_kernel_eq_skeleton]; unfold cc2__dense_act_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core c: the arrays as the region finds them; after the body at point t each
    input's buffer still at its block and the output's at out2_2 of the two input blocks; nothing owed; the input
    windows' shares as given. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q := sh
  owed _ := 0

theorem A_eq2 (c : Dev nD) (w : Fin cfg2.W) : (dat2 V sh c).A w = V c (Pipeline.arrRef spec2 w) := by
  dsimp only [dat2]

theorem after2_0 (c : Dev nD) (t : Fin cfg2.N) : (dat2 V sh c).after 0 t = iblk2 V c 0 t := by dsimp only [dat2]
theorem after2_1 (c : Dev nD) (t : Fin cfg2.N) : (dat2 V sh c).after 1 t = iblk2 V c 1 t := by dsimp only [dat2]
theorem after2_2 (c : Dev nD) (t : Fin cfg2.N) :
    (dat2 V sh c).after 2 t = out2_2 (iblk2 V c 0 t) (iblk2 V c 1 t) := by dsimp only [dat2]

theorem before2_0 (c : Dev nD) (t : Fin cfg2.N) (d) : (dat2 V sh c).before 0 t d = iblk2 V c 0 t :=
  before2_0_of V (dat2 V sh c) (A_eq2 V sh c 0) (after2_0 V sh c) t d
theorem before2_1 (c : Dev nD) (t : Fin cfg2.N) (d) : (dat2 V sh c).before 1 t d = iblk2 V c 1 t :=
  before2_1_of V (dat2 V sh c) (A_eq2 V sh c 1) (after2_1 V sh c) t d

/-- What the body is called with at point t, the windows one by one, -/
def bodyPre2 (c : Dev nD) (t : Fin cfg2.N) : sProp 𝕄 :=
  iprop((dat2 V sh c).Φ t.castSucc ∗ (dat2 V sh c).owesAt () t.castSucc
    ∗ (∃ d, owns (c : Thread nD τ) (st2_0 t) fullShare ((dat2 V sh c).before 0 t d))
    ∗ (∃ d, owns (c : Thread nD τ) (st2_1 t) fullShare ((dat2 V sh c).before 1 t d))
    ∗ (∃ d, owns (c : Thread nD τ) (st2_2 t) fullShare ((dat2 V sh c).before 2 t d)))

/-- and what it returns. -/
def bodyPost2 (c : Dev nD) (t : Fin cfg2.N) : sProp 𝕄 :=
  iprop((dat2 V sh c).Φ t.succ ∗ (dat2 V sh c).owesAt () t.succ
    ∗ owns (c : Thread nD τ) (st2_0 t) fullShare ((dat2 V sh c).after 0 t)
    ∗ owns (c : Thread nD τ) (st2_1 t) fullShare ((dat2 V sh c).after 1 t)
    ∗ owns (c : Thread nD τ) (st2_2 t) fullShare ((dat2 V sh c).after 2 t))

/-- The body at any point: the inputs' memrefs hold their blocks, so sound_kernel2 applies; the invariant and the
    core's dues pass through unread. -/
theorem sound_body2 (c : Dev nD) (t : Fin cfg2.N) :
    bodyPre2 V sh c t ⊢ wp frame (wpE (defs₀ (F := F)) Variants.none c none) Set.univ (bodyAt2 t) (fun _ => bodyPost2 V sh c t) := by
  unfold bodyPre2 bodyPost2 bodyAt2
  simp only [before2_0, before2_1]
  rw [show (dat2 V sh c).Φ t.succ = (dat2 V sh c).Φ t.castSucc from rfl,
    show (dat2 V sh c).owesAt () t.succ = (dat2 V sh c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V sh c) (defs₀ (F := F)) Variants.none () Set.univ := fun t => by
  rw [bigSep_W2, bigSep_W2]
  exact sound_body2 V sh c t

end Cert.KernelIdeal.Regions

end
-- ==== Proof.KernelIdealRegion3.lean ====
/-
  Region 3 of @main as a pipeline over its grid. Each grid point reads one block through each of two input windows
  (windows 0 and 1: a row tile of an array, or a whole matrix whose block index never moves; the two windows may
  lie on one array) and writes one block of the output array (window 2). The body loads both input blocks whole, forms the payload from them (the matrix
  product of the two blocks, followed by the region's pointwise function where it has one) and stores it over the
  whole output block. Everything here is stated at a parameter V, the buffer contents at the region's entry:
  the blocks read off V, what the body leaves in each staging buffer, the pipeline's proof data, and the body
  obligation at every grid point.
-/
import proofs.«160782_j22454089023912_1_alg».proof.Proof.Gen.KernelIdeal.Launch
import proofs.«160782_j22454089023912_1_alg».proof.Proof.Gen.KernelIdeal.Skeleton
import proofs.«160782_j22454089023912_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
-- the share of its array each input window holds (full shares when the arrays are distinct buffers)
variable (sh : Fin 3 → PosShare TreeShare)

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point: fetched there, or left in place since the last
    fetch because the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, for the same reason. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev rx3 : Rect S1024x64 := Rect.unit (s := S1024x64) ![0, 0] S1024x64.size inb_S1024x64_S1024x64_0_0
abbrev rw3 : Rect S1024x64 := Rect.unit (s := S1024x64) ![0, 0] S1024x64.size inb_S1024x64_S1024x64_0_0
abbrev ro3 : Rect S1024x1024 := Rect.unit (s := S1024x1024) ![0, 0] S1024x1024.size inb_S1024x1024_S1024x1024_0_0

/-- What the body leaves in the output window's buffer, from the two input blocks: its one store, over the whole block. -/
def out3_2 (x0 : Vec F S1024x64 .f32) (x1 : Vec F S1024x64 .f32) : Vec F S1024x1024 .f32 :=
  View.canon [⟨ro3, k3_pay1 (View.ld x0 rx3) (View.ld x1 rw3)⟩]

/-- The one store covers the output block. -/
theorem cover3_2 (p0 : Vec F S1024x1024 .f32) (y : S1024x1024.Idx) :
    ∃ pc ∈ ([⟨ro3, p0⟩] : List (View.Piece (Elt F) S1024x1024 .f32)), y ∈ pc.1.set :=
  View.cover_of_tiled [⟨ro3, p0⟩] S1024x1024.size (by rfl) y

set_option maxHeartbeats 1000000 in
/-- The body on whole staging memrefs: the inputs' contents are kept, the output's becomes out3_2 of them. -/
theorem sound_kernel3 (c : Dev nD) (E : Set ℕ) (i : grid3.Coords)
    (arg1 : Memref sig .tc .vmem S1024x64 .f32) (harg1 : arg1.IsWhole) (arg2 : Memref sig .tc .vmem S1024x64 .f32) (harg2 : arg2.IsWhole)
    (arg3 : Memref sig .tc .vmem S1024x1024 .f32) (harg3 : arg3.IsWhole)
    (x0 : Vec F S1024x64 .f32) (x1 : Vec F S1024x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__adj_kernel i arg1 harg1 arg2 harg2 arg3 harg3) K := by
  simp only [cc3__adj_kernel_eq_skeleton]; unfold cc3__adj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of pipeline 3 on core c: the arrays as the region finds them; after the body at point t each
    input's buffer still at its block and the output's at out3_2 of the two input blocks; nothing owed; the input
    windows' shares as given. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q := sh
  owed _ := 0

theorem A_eq3 (c : Dev nD) (w : Fin cfg3.W) : (dat3 V sh c).A w = V c (Pipeline.arrRef spec3 w) := by
  dsimp only [dat3]

theorem after3_0 (c : Dev nD) (t : Fin cfg3.N) : (dat3 V sh c).after 0 t = iblk3 V c 0 t := by dsimp only [dat3]
theorem after3_1 (c : Dev nD) (t : Fin cfg3.N) : (dat3 V sh c).after 1 t = iblk3 V c 1 t := by dsimp only [dat3]
theorem after3_2 (c : Dev nD) (t : Fin cfg3.N) :
    (dat3 V sh c).after 2 t = out3_2 (iblk3 V c 0 t) (iblk3 V c 1 t) := by dsimp only [dat3]

theorem before3_0 (c : Dev nD) (t : Fin cfg3.N) (d) : (dat3 V sh c).before 0 t d = iblk3 V c 0 t :=
  before3_0_of V (dat3 V sh c) (A_eq3 V sh c 0) (after3_0 V sh c) t d
theorem before3_1 (c : Dev nD) (t : Fin cfg3.N) (d) : (dat3 V sh c).before 1 t d = iblk3 V c 1 t :=
  before3_1_of V (dat3 V sh c) (A_eq3 V sh c 1) (after3_1 V sh c) t d

/-- What the body is called with at point t, the windows one by one, -/
def bodyPre3 (c : Dev nD) (t : Fin cfg3.N) : sProp 𝕄 :=
  iprop((dat3 V sh c).Φ t.castSucc ∗ (dat3 V sh c).owesAt () t.castSucc
    ∗ (∃ d, owns (c : Thread nD τ) (st3_0 t) fullShare ((dat3 V sh c).before 0 t d))
    ∗ (∃ d, owns (c : Thread nD τ) (st3_1 t) fullShare ((dat3 V sh c).before 1 t d))
    ∗ (∃ d, owns (c : Thread nD τ) (st3_2 t) fullShare ((dat3 V sh c).before 2 t d)))

/-- and what it returns. -/
def bodyPost3 (c : Dev nD) (t : Fin cfg3.N) : sProp 𝕄 :=
  iprop((dat3 V sh c).Φ t.succ ∗ (dat3 V sh c).owesAt () t.succ
    ∗ owns (c : Thread nD τ) (st3_0 t) fullShare ((dat3 V sh c).after 0 t)
    ∗ owns (c : Thread nD τ) (st3_1 t) fullShare ((dat3 V sh c).after 1 t)
    ∗ owns (c : Thread nD τ) (st3_2 t) fullShare ((dat3 V sh c).after 2 t))

/-- The body at any point: the inputs' memrefs hold their blocks, so sound_kernel3 applies; the invariant and the
    core's dues pass through unread. -/
theorem sound_body3 (c : Dev nD) (t : Fin cfg3.N) :
    bodyPre3 V sh c t ⊢ wp frame (wpE (defs₀ (F := F)) Variants.none c none) Set.univ (bodyAt3 t) (fun _ => bodyPost3 V sh c t) := by
  unfold bodyPre3 bodyPost3 bodyAt3
  simp only [before3_0, before3_1]
  rw [show (dat3 V sh c).Φ t.succ = (dat3 V sh c).Φ t.castSucc from rfl,
    show (dat3 V sh c).owesAt () t.succ = (dat3 V sh c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation3 (c : Dev nD) : BodyObligation (dat3 (F := F) V sh c) (defs₀ (F := F)) Variants.none () Set.univ := fun t => by
  rw [bigSep_W3, bigSep_W3]
  exact sound_body3 V sh c t

end Cert.KernelIdeal.Regions

end
-- ==== Proof.KernelIdealRun.lean ====
/-
  The run of @main from the launch to the return. @main is seven items: region 0, a host stretch, region 1,
  a host stretch, region 2, a host stretch, region 3. The contents of the core's buffers at each boundary are a fold
  from the launch memory: a region leaves its output array at what its grid points wrote back (block t of the
  array is what point t left in the output window) and every other buffer as it found it; a host stretch applies
  its operations. Regions 0, 1, 2 read two distinct arrays each and are entered with both held outright. Region 3
  reads ONE array through both of its input windows: on entry the array's ownership is split into two halves, one
  per window, and on exit the halves are joined again; its contents never change.
  From the launch theorem for a list of segments every weakly fair execution terminates and the final memory
  holds every buffer at the last fold.
-/
import proofs.«160782_j22454089023912_1_alg».proof.Proof.KernelIdealRegion0
import proofs.«160782_j22454089023912_1_alg».proof.Proof.KernelIdealRegion1
import proofs.«160782_j22454089023912_1_alg».proof.Proof.KernelIdealRegion2
import proofs.«160782_j22454089023912_1_alg».proof.Proof.KernelIdealRegion3
import proofs.«160782_j22454089023912_1_alg».proof.Proof.Gen.KernelIdeal.Regions
import Idealize.ShloMosaic.Adequacy
import Idealize.ShloMosaic.Init

set_option maxRecDepth 16384

noncomputable section

namespace Cert.KernelIdeal.Run

open Cert.KernelIdeal Cert.KernelIdeal.Gen Cert.KernelIdeal.Regions
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The shares -/

/-- Distinct arrays: every input window holds its array outright. -/
abbrev shFull : Fin 3 → PosShare TreeShare := fun _ => fullShare
/-- Region 3: the two input windows hold one half each of the array they both read. -/
abbrev shHalves : Fin 3 → PosShare TreeShare := ![fullShare.left, fullShare.right, fullShare]

/-! ## The buffer contents at each boundary -/

/-- At launch. -/
abbrev W0 : Dev nD → Valuation τ sig (Elt F) := fun c b => m (c, b)
abbrev V0 : (c : Dev nD) → (b : Ref sig .tc) → Buf (Elt F) ((c : Thread nD τ).loc b) := fun c b => W0 m c b
/-- After region 0. -/
def W1 (c : Dev nD) : Valuation τ sig (Elt F) :=
  Pipeline.withArrays spec0 c (W0 m c) fun w => (dat0 (V0 m) shFull c).arrAt w cfg0.N
theorem W1_arr (c : Dev nD) (w : Fin cfg0.W) :
    W1 m c (Proc.devRef .tc (Pipeline.arrRef spec0 w)) = (dat0 (V0 m) shFull c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) shFull c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the first host stretch (region 1's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After region 1. -/
def W3 (c : Dev nD) : Valuation τ sig (Elt F) :=
  Pipeline.withArrays spec1 c (W2 m c) fun w => (dat1 (V2 m) shFull c).arrAt w cfg1.N
theorem W3_arr (c : Dev nD) (w : Fin cfg1.W) :
    W3 m c (Proc.devRef .tc (Pipeline.arrRef spec1 w)) = (dat1 (V2 m) shFull c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) shFull c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the second host stretch (region 2's entry). -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b
/-- After region 2. -/
def W5 (c : Dev nD) : Valuation τ sig (Elt F) :=
  Pipeline.withArrays spec2 c (W4 m c) fun w => (dat2 (V4 m) shFull c).arrAt w cfg2.N
theorem W5_arr (c : Dev nD) (w : Fin cfg2.W) :
    W5 m c (Proc.devRef .tc (Pipeline.arrRef spec2 w)) = (dat2 (V4 m) shFull c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (dat2 (V4 m) shFull c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-- After the third host stretch (region 3's entry). -/
abbrev W6 : Dev nD → Valuation τ sig (Elt F) := fun c => StableHlo.after hostOps3 (W5 m c)
abbrev V6 : (c : Dev nD) → (b : Ref sig .tc) → Buf (Elt F) ((c : Thread nD τ).loc b) := fun c b => W6 m c b
/-- After region 3: its output array at what its grid points wrote back, everything else (the array both input
    windows read included) as entered. -/
def W7 (c : Dev nD) : Valuation τ sig (Elt F) :=
  Function.update (W6 m c) (Proc.devRef .tc main_v42) ((dat3 (V6 m) shHalves c).arrAt 2 cfg3.N)
theorem W7_out (c : Dev nD) : W7 m c (Proc.devRef .tc main_v42) = (dat3 (V6 m) shHalves c).arrAt 2 cfg3.N := by
  unfold W7; exact Function.update_self _ _ _
theorem W7_of_ne (c : Dev nD) (b : Ref sig .tc) (hb : b ≠ main_v42) : W7 m c (Proc.devRef .tc b) = W6 m c (Proc.devRef .tc b) := by
  unfold W7; exact Function.update_of_ne (fun e => hb (Proc.devRef_injective _ e)) _ _
abbrev V7 : (c : Dev nD) → (b : Ref sig .tc) → Buf (Elt F) ((c : Thread nD τ).loc b) := fun c b => W7 m c b

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V0 m) shFull c
  | ⟨1, _⟩ => fun c => dat1 (V2 m) shFull c
  | ⟨2, _⟩ => fun c => dat2 (V4 m) shFull c
  | ⟨3, _⟩ => fun c => dat3 (V6 m) shHalves c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at its entry fold, left at the next fold.
    Its arrays are split out of the unscoped buffers and put back at the exit contents; the generator register
    passes through the region's invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) shFull c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry fold, left at the next fold.
    Its arrays are split out of the unscoped buffers and put back at the exit contents; the generator register
    passes through the region's invariant; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) shFull c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at its entry fold, left at the next fold.
    Its arrays are split out of the unscoped buffers and put back at the exit contents; the generator register
    passes through the region's invariant; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) shFull c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3's arrays: one buffer behind both input windows -/

/-- The arrays region 3's windows lie on: the embedding (both input windows) and the reconstruction. -/
theorem image3 : Finset.univ.image (Pipeline.arrRef spec3) = {main_v41, main_v42} := by decide

/-- A conjunction over those two arrays, one by one. -/
theorem bigSep_arr3 {M : Type} [URA M] (Φ : Ref sig .tc → sProp M) :
    bigSep (Finset.univ.image (Pipeline.arrRef spec3)) Φ = iprop(Φ main_v41 ∗ Φ main_v42) :=
  bigSep_eq_bigSepL_of_eq [main_v41, main_v42] (by decide) (by decide) Φ

/-- Every window's array is a whole buffer. -/
theorem whole3 (w : Fin 3) : ((Pipeline.pin (pcfgs (F := F)) adm 3).win w).arr.IsWhole := arr_whole3 w

/-- ENTRY. The embedding's buffer, held outright, is split into two halves, one for each input window; the
    reconstruction's buffer goes to the output window whole. -/
theorem arrays3_split (c : Dev nD) :
    (Pipeline.arrBufs (Ix := Unit) (Name := ℕ) (U := UR sig nD τ) (Lvl := ℕ) spec3 c (V6 m c) : sProp 𝕄)
      ⊢ (pdats m 3 c).arrays ((pdats m 3 c).arrAt · 0) := by
  unfold Pipeline.arrBufs Dat.arrays
  rw [bigSep_arr3, bigSep_W3, (whole3 (F := F) 0).set_eq_univ, (whole3 (F := F) 1).set_eq_univ, (whole3 (F := F) 2).set_eq_univ]
  iintro ⟨H41, H42⟩
  ihave Hs := (pointsTo_share (PosShare.mem_left_op_right fullShare)).1 $$ H41
  icases Hs with ⟨Hl, Hr⟩
  isplitl [Hl]; · iexact Hl
  isplitl [Hr]; · iexact Hr
  iexact H42

/-- Two halves of one buffer at equal contents join to the whole. -/
theorem join_halves (c : Dev nD) (g : Buf (Elt F) ((c : Thread nD τ).loc main_v41)) (k : Buf (Elt F) ((c : Thread nD τ).loc main_v42))
    (f0 f1 : Buf (Elt F) ((c : Thread nD τ).loc main_v41)) (f2 : Buf (Elt F) ((c : Thread nD τ).loc main_v42))
    (h0 : f0 = g) (h1 : f1 = g) (h2 : f2 = k) :
    (iprop((((c : Thread nD τ).loc main_v41) ↦{fullShare.left} f0) ∗ (((c : Thread nD τ).loc main_v41) ↦{fullShare.right} f1)
        ∗ (((c : Thread nD τ).loc main_v42) ↦{fullShare} f2)) : sProp 𝕄)
      ⊢ iprop((((c : Thread nD τ).loc main_v41) ↦{fullShare} g) ∗ (((c : Thread nD τ).loc main_v42) ↦{fullShare} k)) := by
  subst h0; subst h1; subst h2
  iintro ⟨Hl, Hr, H42⟩
  isplitl [Hl Hr]
  · iapply (pointsTo_share (PosShare.mem_left_op_right fullShare)).2
    isplitl [Hl] <;> iassumption
  iexact H42

/-- EXIT. The input windows' arrays are as entered (an input array is never written), so the two halves hold
    the same contents and join to the whole buffer; the output window's array is the last fold's. -/
theorem arrays3_join (c : Dev nD) :
    (pdats m 3 c).arrays ((pdats m 3 c).arrAt · cfg3.N)
      ⊢ (Pipeline.arrBufs (Ix := Unit) (Name := ℕ) (U := UR sig nD τ) (Lvl := ℕ) spec3 c (V7 m c) : sProp 𝕄) := by
  unfold Pipeline.arrBufs Dat.arrays
  rw [bigSep_arr3, bigSep_W3, (whole3 (F := F) 0).set_eq_univ, (whole3 (F := F) 1).set_eq_univ, (whole3 (F := F) 2).set_eq_univ]
  have h0 : (pdats m 3 c).arrAt 0 cfg3.N = V7 m c main_v41 :=
    ((pdats m 3 c).arrAt_in 0 rfl _).trans (W7_of_ne m c main_v41 (by decide)).symm
  have h1 : (pdats m 3 c).arrAt 1 cfg3.N = V7 m c main_v41 :=
    ((pdats m 3 c).arrAt_in 1 rfl _).trans (W7_of_ne m c main_v41 (by decide)).symm
  have h2 : (pdats m 3 c).arrAt 2 cfg3.N = V7 m c main_v42 := (W7_out m c).symm
  exact join_halves c _ _ _ _ _ h0 h1 h2

/-- Off the reconstruction's buffer the last fold is region 3's entry fold. -/
theorem rest3 (c : Dev nD) :
    (Pipeline.unscopedRest (Ix := Unit) (Name := ℕ) (U := UR sig nD τ) (Lvl := ℕ) spec3 c (V6 m c) : sProp 𝕄)
      = Pipeline.unscopedRest spec3 c (V7 m c) := by
  unfold Pipeline.unscopedRest
  refine bigSep_congr fun b hb => ?_
  have hb' : b ∉ Finset.univ.image (Pipeline.arrRef spec3) := (Finset.mem_sdiff.mp hb).2
  rw [image3] at hb'
  have : b ≠ main_v42 := fun e => hb' (by rw [e]; exact Finset.mem_insert_of_mem (Finset.mem_singleton_self _))
  rw [show V7 m c b = V6 m c b from W7_of_ne m c b this]

set_option backward.isDefEq.respectTransparency.types false in
/-- Region 3 over the thread state. Its two input windows read one array: on entry that buffer is split into two
    halves (arrays3_split), on exit the halves are joined (arrays3_join); the output array is put back at what the
    grid points wrote; every other buffer bypasses the region. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (V6 m) shHalves c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (V6 m c)
  hentry c := by
    rw [Pipeline.ownSems0_none]
    have hsp := Entails.of_eq (Pipeline.unscopedBufs_split₀ (Ix := Unit) (Name := ℕ) (U := UR sig nD τ) (Lvl := ℕ)
      (Pipeline.pin (pcfgs (F := F)) adm) 3 winFacts₀3.arr_unscoped c (V6 m c))
    rw [Pipeline.unscopedBufs_held] at hsp
    iintro ⟨⟨Hub, Hp, HO⟩, -, -⟩
    ihave H := hsp $$ Hub
    icases H with ⟨Hb, Hrest⟩
    ihave Ha := (arrays3_split m c) $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hsp := Entails.of_eq (Pipeline.unscopedBufs_split₀ (Ix := Unit) (Name := ℕ) (U := UR sig nD τ) (Lvl := ℕ)
      (Pipeline.pin (pcfgs (F := F)) adm) 3 winFacts₀3.arr_unscoped c (V7 m c)).symm
    rw [Pipeline.unscopedBufs_held] at hsp
    iintro ⟨Ha, HO, HY, Hrest⟩
    imodintro
    isplitl [Ha Hrest]
    · iapply hsp
      isplitl [Ha]
      · iapply (arrays3_join m c); iexact Ha
      iapply (Entails.of_eq (rest3 m c)); iexact Hrest
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .region (reg2 m),
    .host (hseg hostOps3 hostOps3_sub hostOps3_fresh (W5 m)),
    .region (reg3 m) ]

/-- @main is the run of the segments. -/
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and in every final memory each buffer of @main holds the last fold's contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W7 m c) ∗ ∃ r, prngReg c r))
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m c) ∗ R c) ⊢ _
        iintro ⟨Hh, Hp, Ho⟩
        isplitl [Hh Hp]
        · isplitl [Hh] <;> iassumption
        iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

end Cert.KernelIdeal.Run

end
-- ==== Proof.KernelIdealHost.lean ====
/-
  The host stretches between the kernel's regions. Each is the sparse aggregation of the stage before it: the edge
  weights broadcast along the features; the column indices, a negative one first moved up by the number of rows,
  gathering rows of the feature matrix; the product of the two scatter-added into zeros at the row indices. These are
  the reference's own operations applied to the same buffers, so what a stretch leaves in its result buffer is the
  aggregation (`Cert.Stages.spmm256`, `spmm128`, `spmm64`) of the three edge lists and of the feature matrix as they
  stood before the stretch, whatever those contents are. The two programs' shape records have the same fields, and
  their side conditions are propositions, so the two terms are one term: nothing is computed. A buffer outside the
  sixteen a stretch writes keeps its contents. Generic in the float instance.
-/
import proofs.«160782_j22454089023912_1_alg».proof.Proof.Gen.KernelIdeal.Regions
import proofs.«160782_j22454089023912_1_alg».proof.Proof.Stages
import Idealize.ShloMosaic.Lib.StableHlo.Run

noncomputable section

namespace Cert.KernelIdeal.Host

open Cert.KernelIdeal Cert.KernelIdeal.Gen Idealize.ShloMosaic

variable {F : FTy → Type} [FloatOps F]

/-! ## What each stretch computes -/

/-- After the first stretch its result buffer holds the aggregation, over 256 features, of the edge lists and of the
    feature matrix the region before it left: the stretch's operations composed are that function's body. -/
theorem host1 (W : Valuation τ sig (Elt F)) :
    StableHlo.after hostOps1 W (Proc.devRef .tc main_v13)
      = Cert.Stages.spmm256 (W (Proc.devRef .tc main_arg1)) (W (Proc.devRef .tc main_arg2))
          (W (Proc.devRef .tc main_arg3)) (W (Proc.devRef .tc main_v0)) := by
  after_results_simp
  unfold Cert.Stages.spmm256 Cert.Stages.gatherIdx
  rfl

/-- After the second stretch its result buffer holds the aggregation, over 128 features, of the edge lists and of the
    feature matrix the region before it left: the stretch's operations composed are that function's body. -/
theorem host2 (W : Valuation τ sig (Elt F)) :
    StableHlo.after hostOps2 W (Proc.devRef .tc main_v27)
      = Cert.Stages.spmm128 (W (Proc.devRef .tc main_arg1)) (W (Proc.devRef .tc main_arg2))
          (W (Proc.devRef .tc main_arg3)) (W (Proc.devRef .tc main_v14)) := by
  after_results_simp
  unfold Cert.Stages.spmm128 Cert.Stages.gatherIdx
  rfl

/-- After the third stretch its result buffer holds the aggregation, over 64 features, of the edge lists and of the
    feature matrix the region before it left: the stretch's operations composed are that function's body. -/
theorem host3 (W : Valuation τ sig (Elt F)) :
    StableHlo.after hostOps3 W (Proc.devRef .tc main_v41)
      = Cert.Stages.spmm64 (W (Proc.devRef .tc main_arg1)) (W (Proc.devRef .tc main_arg2))
          (W (Proc.devRef .tc main_arg3)) (W (Proc.devRef .tc main_v28)) := by
  after_results_simp
  unfold Cert.Stages.spmm64 Cert.Stages.gatherIdx
  rfl

/-! ## What each stretch leaves alone -/

/-- A buffer that is none of the sixteen the first stretch writes holds after it what it held before. -/
theorem keep1 (W : Valuation τ sig (Elt F)) (r : Ref sig .tc) (h : r ∉ hostOps1_W) :
    StableHlo.after hostOps1 W (Proc.devRef .tc r) = W (Proc.devRef .tc r) :=
  StableHlo.after_of_writes_sub hostOps1 W hostOps1_writes h

/-- A buffer that is none of the sixteen the second stretch writes holds after it what it held before. -/
theorem keep2 (W : Valuation τ sig (Elt F)) (r : Ref sig .tc) (h : r ∉ hostOps2_W) :
    StableHlo.after hostOps2 W (Proc.devRef .tc r) = W (Proc.devRef .tc r) :=
  StableHlo.after_of_writes_sub hostOps2 W hostOps2_writes h

/-- A buffer that is none of the sixteen the third stretch writes holds after it what it held before. -/
theorem keep3 (W : Valuation τ sig (Elt F)) (r : Ref sig .tc) (h : r ∉ hostOps3_W) :
    StableHlo.after hostOps3 W (Proc.devRef .tc r) = W (Proc.devRef .tc r) :=
  StableHlo.after_of_writes_sub hostOps3 W hostOps3_writes h

end Cert.KernelIdeal.Host

end
-- ==== Proof.KernelIdealFrame.lean ====
/-
  What the run gives. Each step of the fold keeps every buffer it does not write: a region changes only its output
  array (an input array is read through its window and never written), a host stretch only the buffers its
  operations write. No step writes an argument of @main, so the arguments end as launched.
-/
import proofs.«160782_j22454089023912_1_alg».proof.Proof.KernelIdealRun
import proofs.«160782_j22454089023912_1_alg».proof.Proof.KernelIdealHost

set_option maxRecDepth 16384

noncomputable section

namespace Cert.KernelIdeal.Run

open Cert.KernelIdeal Cert.KernelIdeal.Gen Cert.KernelIdeal.Regions
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- Region 0 changes only its output array. -/
theorem W1_keep (c : Dev nD) (b : Ref sig .tc) (hb : b ≠ main_v0) : W1 m c (Proc.devRef .tc b) = W0 m c (Proc.devRef .tc b) := by
  by_cases h : ∃ w, Pipeline.arrRef spec0 w = b
  · obtain ⟨w, rfl⟩ := h
    rw [W1_arr]
    have hin : (cfg0.win w).isOut = false := by
      match w with
      | ⟨0, _⟩ => rfl
      | ⟨1, _⟩ => rfl
      | ⟨2, _⟩ => exact absurd rfl hb
    exact ((dat0 (V0 m) shFull c).arrAt_in w hin _).trans (A_eq0 (V0 m) shFull c w)
  · exact W1_of_ne m c b fun w e => h ⟨w, e⟩

/-- Region 1 changes only its output array. -/
theorem W3_keep (c : Dev nD) (b : Ref sig .tc) (hb : b ≠ main_v14) : W3 m c (Proc.devRef .tc b) = W2 m c (Proc.devRef .tc b) := by
  by_cases h : ∃ w, Pipeline.arrRef spec1 w = b
  · obtain ⟨w, rfl⟩ := h
    rw [W3_arr]
    have hin : (cfg1.win w).isOut = false := by
      match w with
      | ⟨0, _⟩ => rfl
      | ⟨1, _⟩ => rfl
      | ⟨2, _⟩ => exact absurd rfl hb
    exact ((dat1 (V2 m) shFull c).arrAt_in w hin _).trans (A_eq1 (V2 m) shFull c w)
  · exact W3_of_ne m c b fun w e => h ⟨w, e⟩

/-- Region 2 changes only its output array. -/
theorem W5_keep (c : Dev nD) (b : Ref sig .tc) (hb : b ≠ main_v28) : W5 m c (Proc.devRef .tc b) = W4 m c (Proc.devRef .tc b) := by
  by_cases h : ∃ w, Pipeline.arrRef spec2 w = b
  · obtain ⟨w, rfl⟩ := h
    rw [W5_arr]
    have hin : (cfg2.win w).isOut = false := by
      match w with
      | ⟨0, _⟩ => rfl
      | ⟨1, _⟩ => rfl
      | ⟨2, _⟩ => exact absurd rfl hb
    exact ((dat2 (V4 m) shFull c).arrAt_in w hin _).trans (A_eq2 (V4 m) shFull c w)
  · exact W5_of_ne m c b fun w e => h ⟨w, e⟩

/-- A buffer that region 0 does not write is, after it, as launched. -/
theorem keep1 (c : Dev nD) (b : Ref sig .tc) (h0 : b ≠ main_v0) : W1 m c (Proc.devRef .tc b) = m ((c : Thread nD τ).loc b) :=
  W1_keep m c b h0

/-- … through the first host stretch and region 1. -/
theorem keep3 (c : Dev nD) (b : Ref sig .tc) (h0 : b ≠ main_v0) (h1 : b ∉ hostOps1_W) (h2 : b ≠ main_v14) :
    W3 m c (Proc.devRef .tc b) = m ((c : Thread nD τ).loc b) :=
  (W3_keep m c b h2).trans ((Host.keep1 (W1 m c) b h1).trans (keep1 m c b h0))

/-- … through the second host stretch and region 2. -/
theorem keep5 (c : Dev nD) (b : Ref sig .tc) (h0 : b ≠ main_v0) (h1 : b ∉ hostOps1_W) (h2 : b ≠ main_v14) (h3 : b ∉ hostOps2_W)
    (h4 : b ≠ main_v28) : W5 m c (Proc.devRef .tc b) = m ((c : Thread nD τ).loc b) :=
  (W5_keep m c b h4).trans ((Host.keep2 (W3 m c) b h3).trans (keep3 m c b h0 h1 h2))

/-- … through the third host stretch and region 3: at the return. -/
theorem keep7 (c : Dev nD) (b : Ref sig .tc) (h0 : b ≠ main_v0) (h1 : b ∉ hostOps1_W) (h2 : b ≠ main_v14) (h3 : b ∉ hostOps2_W)
    (h4 : b ≠ main_v28) (h5 : b ∉ hostOps3_W) (h6 : b ≠ main_v42) : W7 m c (Proc.devRef .tc b) = m ((c : Thread nD τ).loc b) :=
  (W7_of_ne m c b h6).trans ((Host.keep3 (W5 m c) b h5).trans (keep5 m c b h0 h1 h2 h3 h4))

/-- A buffer no step so far has written is, at region 1's entry, as launched. -/
theorem keep2 (c : Dev nD) (b : Ref sig .tc) (h0 : b ≠ main_v0) (h1 : b ∉ hostOps1_W) :
    W2 m c (Proc.devRef .tc b) = m ((c : Thread nD τ).loc b) :=
  (Host.keep1 (W1 m c) b h1).trans (keep1 m c b h0)

/-- … at region 2's entry. -/
theorem keep4 (c : Dev nD) (b : Ref sig .tc) (h0 : b ≠ main_v0) (h1 : b ∉ hostOps1_W) (h2 : b ≠ main_v14) (h3 : b ∉ hostOps2_W) :
    W4 m c (Proc.devRef .tc b) = m ((c : Thread nD τ).loc b) :=
  (Host.keep2 (W3 m c) b h3).trans (keep3 m c b h0 h1 h2)

/-- THE FRAME: every weakly fair execution of @main terminates, nothing faulting, and the argument arrays end as
    launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (keep7 m c main_arg0 (by decide) (by decide) (by decide) (by decide) (by decide) (by decide) (by decide)),
     (h c _ (mem_uc main_arg1 (by decide))).trans (keep7 m c main_arg1 (by decide) (by decide) (by decide) (by decide) (by decide) (by decide) (by decide)),
     (h c _ (mem_uc main_arg2 (by decide))).trans (keep7 m c main_arg2 (by decide) (by decide) (by decide) (by decide) (by decide) (by decide) (by decide)),
     (h c _ (mem_uc main_arg3 (by decide))).trans (keep7 m c main_arg3 (by decide) (by decide) (by decide) (by decide) (by decide) (by decide) (by decide)),
     (h c _ (mem_uc main_arg4 (by decide))).trans (keep7 m c main_arg4 (by decide) (by decide) (by decide) (by decide) (by decide) (by decide) (by decide)),
     (h c _ (mem_uc main_arg5 (by decide))).trans (keep7 m c main_arg5 (by decide) (by decide) (by decide) (by decide) (by decide) (by decide) (by decide)),
     (h c _ (mem_uc main_arg6 (by decide))).trans (keep7 m c main_arg6 (by decide) (by decide) (by decide) (by decide) (by decide) (by decide) (by decide))⟩)
    (run_all m ρ)

end Cert.KernelIdeal.Run

end
-- ==== Proof.KernelIdealValue0.lean ====
/-
  Region 0 of the kernel, read as a value. The region's output array after its run is the first dense layer of
  the stage functions, tanh (x W₁), of the two arrays the region reads: each grid point writes one tile of 2048
  rows, the product of the matching 2048 rows of x with the whole of W₁ followed by tanh; the six tiles cover the
  12288 rows. At the ideal instance the format changes are the identity and both products are the same finite sum
  over the 512 contraction indices, so only indices are moved.
-/
import proofs.«160782_j22454089023912_1_alg».proof.Proof.KernelIdealRegion0
import proofs.«160782_j22454089023912_1_alg».proof.Proof.Stages
import Idealize.ShloMosaic.Lib.Pipeline.Value
import Idealize.ShloMosaic.Lib.ValueIdx
import Idealize.ShloMosaic.PureOps.Ideal.Laws

noncomputable section

namespace Cert.KernelIdeal.Value0

open Cert.KernelIdeal Cert.KernelIdeal.Gen Cert.KernelIdeal.Regions
open Idealize.ShloMosaic Idealize.ShloMosaic.TcCoe Idealize.SL.Sem
open Idealize.SL Idealize.SL.RA
open Idealize.ShloMosaic.Pipeline (Dat)
open Idealize.ShloMosaic.ValueIdx

/-! ## The tile product at an index -/

/-- The left operand of the tile product at output index i and contraction index q is in row i₀ … -/
theorem lhs_axis0 (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
/-- … and column q; -/
theorem lhs_axis1 (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
/-- the right operand is in row q … -/
theorem rhs_axis0 (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
/-- … and column i₁. -/
theorem rhs_axis1 (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl

/-- What the body stores, at row p and column q of the tile: tanh of the sum over k of x₀[p,k] · x₁[k,q]. -/
theorem pay_apply (x0 : Vec Ideal S2048x512 .f32) (x1 : Vec Ideal S512x256 .f32) (p : Fin 2048) (q : Fin 256) :
    k0_pay1 (F := Ideal) x0 x1 (ix2 p q) = Ideal.tanh (∑ k : Fin 512, x0 (ix2 p k) * x1 (ix2 k q)) := by
  unfold k0_pay1
  show Ideal.tanh (FloatOps.matmul (F := Ideal) dot_S2048x512_S512x256_S2048x256_1_0_0_1_n_n none (truncf .bf16 x0 bitsLt_bf16_f32) (truncf .bf16 x1 bitsLt_bf16_f32) (constant S2048x256 .f32 0x00000000#32) (ix2 p q)) = _
  refine congrArg Ideal.tanh ?_
  refine (Ideal.matmul_constant_zero_apply dot_S2048x512_S512x256_S2048x256_1_0_0_1_n_n none _ _ (ix2 p q)).trans ?_
  rw [← Equiv.sum_comp (ValueIdx.contrEquiv1 dot_S2048x512_S512x256_S2048x256_1_0_0_1_n_n 512 rfl rfl).symm]
  refine Finset.sum_congr rfl fun k _ => ?_
  have hk := ValueIdx.contrEquiv1_symm_val dot_S2048x512_S512x256_S2048x256_1_0_0_1_n_n 512 rfl rfl k
  have el : dot_S2048x512_S512x256_S2048x256_1_0_0_1_n_n.lhsIdx (ix2 p q) ((ValueIdx.contrEquiv1 dot_S2048x512_S512x256_S2048x256_1_0_0_1_n_n 512 rfl rfl).symm k) = ix2 p k := funext fun a => Fin.ext (by
    match a with
    | ⟨0, _⟩ => exact lhs_axis0 _ _
    | ⟨1, _⟩ => exact (lhs_axis1 _ _).trans hk)
  have er : dot_S2048x512_S512x256_S2048x256_1_0_0_1_n_n.rhsIdx (ix2 p q) ((ValueIdx.contrEquiv1 dot_S2048x512_S512x256_S2048x256_1_0_0_1_n_n 512 rfl rfl).symm k) = ix2 k q := funext fun a => Fin.ext (by
    match a with
    | ⟨0, _⟩ => exact (rhs_axis0 _ _).trans hk
    | ⟨1, _⟩ => exact rhs_axis1 _ _)
  rw [el, er]
  rfl

/-! ## The stage function at an index -/

/-- The whole product's left operand at output index i and contraction index q is in row i₀ … -/
theorem ref_lhs_axis0 (i : Cert.ReferenceIdeal.S12288x256.Idx) (q : Cert.ReferenceIdeal.dot_S12288x512_S512x256_S12288x256_1_0_0_1_n_n.contr.Idx) :
    (Cert.ReferenceIdeal.dot_S12288x512_S512x256_S12288x256_1_0_0_1_n_n.lhsIdx i q 0).val = (i 0).val := by
  unfold DotDims.lhsIdx
  rw [dif_neg (show ¬(0 : Fin Cert.ReferenceIdeal.S12288x512.rank) ∈ Cert.ReferenceIdeal.dot_S12288x512_S512x256_S12288x256_1_0_0_1_n_n.lhsBatch by decide), dif_pos (show (0 : Fin Cert.ReferenceIdeal.S12288x512.rank) ∈ Cert.ReferenceIdeal.dot_S12288x512_S512x256_S12288x256_1_0_0_1_n_n.lhsNonContracting by decide)]
  rfl
/-- … and column q; -/
theorem ref_lhs_axis1 (i : Cert.ReferenceIdeal.S12288x256.Idx) (q : Cert.ReferenceIdeal.dot_S12288x512_S512x256_S12288x256_1_0_0_1_n_n.contr.Idx) :
    (Cert.ReferenceIdeal.dot_S12288x512_S512x256_S12288x256_1_0_0_1_n_n.lhsIdx i q 1).val = (q ⟨0, by decide⟩).val :=
  Cert.ReferenceIdeal.dot_S12288x512_S512x256_S12288x256_1_0_0_1_n_n.lhsIdx_val_of_single rfl i q
/-- the right operand is in row q … -/
theorem ref_rhs_axis0 (i : Cert.ReferenceIdeal.S12288x256.Idx) (q : Cert.ReferenceIdeal.dot_S12288x512_S512x256_S12288x256_1_0_0_1_n_n.contr.Idx) :
    (Cert.ReferenceIdeal.dot_S12288x512_S512x256_S12288x256_1_0_0_1_n_n.rhsIdx i q 0).val = (q ⟨0, by decide⟩).val :=
  Cert.ReferenceIdeal.dot_S12288x512_S512x256_S12288x256_1_0_0_1_n_n.rhsIdx_val_of_single rfl i q
/-- … and column i₁. -/
theorem ref_rhs_axis1 (i : Cert.ReferenceIdeal.S12288x256.Idx) (q : Cert.ReferenceIdeal.dot_S12288x512_S512x256_S12288x256_1_0_0_1_n_n.contr.Idx) :
    (Cert.ReferenceIdeal.dot_S12288x512_S512x256_S12288x256_1_0_0_1_n_n.rhsIdx i q 1).val = (i 1).val := by
  unfold DotDims.rhsIdx
  rw [dif_neg (show ¬(1 : Fin Cert.ReferenceIdeal.S512x256.rank) ∈ Cert.ReferenceIdeal.dot_S12288x512_S512x256_S12288x256_1_0_0_1_n_n.rhsBatch by decide), dif_pos (show (1 : Fin Cert.ReferenceIdeal.S512x256.rank) ∈ Cert.ReferenceIdeal.dot_S12288x512_S512x256_S12288x256_1_0_0_1_n_n.rhsNonContracting by decide)]
  rfl

/-- The first dense layer at row r and column q: tanh of the sum over k of x[r,k] · W[k,q]. -/
theorem layer1_apply (x : Cert.Stages.Arr Ideal Cert.ReferenceIdeal.S12288x512 .f32) (W : Cert.Stages.Arr Ideal Cert.ReferenceIdeal.S512x256 .f32)
    (r : Fin 12288) (q : Fin 256) :
    Cert.Stages.layer1 (F := Ideal) x W (ix2 r q) = Ideal.tanh (∑ k : Fin 512, x (ix2 r k) * W (ix2 k q)) := by
  unfold Cert.Stages.layer1
  show Ideal.tanh (FloatOps.dotGeneral (F := Ideal) Cert.ReferenceIdeal.dot_S12288x512_S512x256_S12288x256_1_0_0_1_n_n none _ x W (ix2 r q)) = _
  refine congrArg Ideal.tanh ?_
  refine (Ideal.dotGeneral_apply Cert.ReferenceIdeal.dot_S12288x512_S512x256_S12288x256_1_0_0_1_n_n none _ x W (ix2 r q)).trans ?_
  rw [← Equiv.sum_comp (ValueIdx.contrEquiv1 Cert.ReferenceIdeal.dot_S12288x512_S512x256_S12288x256_1_0_0_1_n_n 512 rfl rfl).symm]
  refine Finset.sum_congr rfl fun k _ => ?_
  have hk := ValueIdx.contrEquiv1_symm_val Cert.ReferenceIdeal.dot_S12288x512_S512x256_S12288x256_1_0_0_1_n_n 512 rfl rfl k
  have el : Cert.ReferenceIdeal.dot_S12288x512_S512x256_S12288x256_1_0_0_1_n_n.lhsIdx (ix2 r q) ((ValueIdx.contrEquiv1 Cert.ReferenceIdeal.dot_S12288x512_S512x256_S12288x256_1_0_0_1_n_n 512 rfl rfl).symm k) = ix2 r k := funext fun a => Fin.ext (by
    match a with
    | ⟨0, _⟩ => exact ref_lhs_axis0 _ _
    | ⟨1, _⟩ => exact (ref_lhs_axis1 _ _).trans hk)
  have er : Cert.ReferenceIdeal.dot_S12288x512_S512x256_S12288x256_1_0_0_1_n_n.rhsIdx (ix2 r q) ((ValueIdx.contrEquiv1 Cert.ReferenceIdeal.dot_S12288x512_S512x256_S12288x256_1_0_0_1_n_n 512 rfl rfl).symm k) = ix2 k q := funext fun a => Fin.ext (by
    match a with
    | ⟨0, _⟩ => exact (ref_rhs_axis0 _ _).trans hk
    | ⟨1, _⟩ => exact ref_rhs_axis1 _ _)
  rw [el, er]

/-! ## From tiles to the array -/

variable (V : (c : Dev nD) → (b : Ref sig .tc) → Buf (Elt Ideal) ((c : Thread nD τ).loc b))
variable (sh : Fin 3 → PosShare TreeShare)

/-- The body's rectangles start at the tile's origin. -/
theorem origin : (![0, 0] : Fin 2 → Nat) = fun _ => 0 := funext fun a => by fin_cases a <;> rfl

/-- The printed index maps over the grid: point t reads row tile t of x and the whole of W₁, and writes row tile t
    of the output. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Row p, column k of the x tile at point t is row 2048 t + p, column k of x. -/
theorem xblk_apply (c : Dev nD) (t : Fin cfg0.N) (p : Fin 2048) (k : Fin 512) (r : Fin 12288) (hr : r.val = 2048 * t.val + p.val) :
    iblk0 (F := Ideal) V c 0 t (ix2 p k) = V c main_arg0 (ix2 r k) := by
  obtain ⟨e0, e1, e2, e3, e4, e5⟩ := idx_facts t
  show V c main_arg0 (((cfg0.win 0).blk t).view.emb (ix2 p k)) = V c main_arg0 (ix2 r k)
  refine congrArg (V c main_arg0) ?_
  funext a; apply Fin.ext
  match a with
  | ⟨0, _⟩ => show win0_0.index t (0 : Fin 2) * 2048 + 1 * p.val = r.val; omega
  | ⟨1, _⟩ => show win0_0.index t (1 : Fin 2) * 512 + 1 * k.val = k.val; omega

/-- The W₁ tile at every point is W₁. -/
theorem wblk_apply (c : Dev nD) (t : Fin cfg0.N) (k : Fin 512) (q : Fin 256) :
    iblk0 (F := Ideal) V c 1 t (ix2 k q) = V c main_arg4 (ix2 k q) := by
  obtain ⟨e0, e1, e2, e3, e4, e5⟩ := idx_facts t
  show V c main_arg4 (((cfg0.win 1).blk t).view.emb (ix2 k q)) = V c main_arg4 (ix2 k q)
  refine congrArg (V c main_arg4) ?_
  funext a; apply Fin.ext
  match a with
  | ⟨0, _⟩ => show win0_1.index t (0 : Fin 2) * 512 + 1 * k.val = k.val; omega
  | ⟨1, _⟩ => show win0_1.index t (1 : Fin 2) * 256 + 1 * q.val = q.val; omega

/-- What point t writes back is row tile t of tanh (x W₁). -/
theorem flushed_eq (c : Dev nD) (t : Fin cfg0.N) :
    (dat0 (F := Ideal) V sh c).flushed 2 t
      = ((cfg0.win 2).blk t).view.read (Elt Ideal) (Cert.Stages.layer1 (F := Ideal) (V c main_arg0) (V c main_arg4)) := by
  show (cfg0.win 2).cut (grid0.coords t) ((dat0 (F := Ideal) V sh c).after 2 t) = _
  rw [after0_2]
  unfold out0_2
  rw [View.canon_unit_zero origin]
  simp only [View.ld_unit_zero (S := S2048x512) origin, View.ld_unit_zero (S := S512x256) origin]
  obtain ⟨e0, e1, e2, e3, e4, e5⟩ := idx_facts t
  have hN : cfg0.N = 6 := N_0
  have ht : t.val < 6 := hN ▸ t.isLt
  funext j
  obtain ⟨p, q, rfl⟩ : ∃ (p : Fin 2048) (q : Fin 256), j = ix2 p q := ⟨j 0, j 1, eq_ix2 j⟩
  obtain ⟨r, hr⟩ : ∃ r : Fin 12288, r.val = 2048 * t.val + p.val := ⟨⟨2048 * t.val + p.val, by have := p.isLt; omega⟩, rfl⟩
  show k0_pay1 (F := Ideal) (iblk0 V c 0 t) (iblk0 V c 1 t) (ix2 p q)
    = Cert.Stages.layer1 (F := Ideal) (V c main_arg0) (V c main_arg4) (((cfg0.win 2).blk t).view.emb (ix2 p q))
  have hemb : ((cfg0.win 2).blk t).view.emb (ix2 p q) = ix2 r q := by
    funext a; apply Fin.ext
    match a with
    | ⟨0, _⟩ => show win0_2.index t (0 : Fin 2) * 2048 + 1 * p.val = r.val; omega
    | ⟨1, _⟩ => show win0_2.index t (1 : Fin 2) * 256 + 1 * q.val = q.val; omega
  rw [hemb]
  refine (pay_apply (iblk0 V c 0 t) (iblk0 V c 1 t) p q).trans ?_
  refine Eq.trans ?_ (layer1_apply (V c main_arg0) (V c main_arg4) r q).symm
  refine congrArg Ideal.tanh (Finset.sum_congr rfl fun k _ => ?_)
  rw [xblk_apply V c t p k r hr, wblk_apply V c t k q]

/-- An index of the output array is in point t's tile iff each coordinate is in the tile's range on its axis. -/
theorem mem_blk (t : Fin cfg0.N) (i : S12288x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v0).slice (win0_2.rect t)).set ↔ _
  rw [View.set_slice_whole, Rect.mem_set_unit]
  exact Iff.rfl

/-- The six row tiles cover the output array: row r is in tile r / 2048. -/
theorem cover (i : S12288x256.Idx) :
    ∃ t : Fin cfg0.N, (cfg0.win 2).flush t = true ∧ i ∈ ((cfg0.win 2).blk t).view.set := by
  have hi0 : (i 0).val < 12288 := (i 0).isLt
  have hi1 : (i 1).val < 256 := (i 1).isLt
  have hN : cfg0.N = 6 := N_0
  obtain ⟨t, ht⟩ : ∃ t : Fin cfg0.N, t.val = (i 0).val / 2048 := ⟨⟨(i 0).val / 2048, by rw [hN]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 256 ≤ (i 1).val ∧ (i 1).val < win0_2.index t (1 : Fin 2) * 256 + 256; omega

/-- The region's output array after its run is the first dense layer of the two arrays it reads. -/
theorem arrAt (c : Dev nD) :
    (dat0 (F := Ideal) V sh c).arrAt 2 cfg0.N = Cert.Stages.layer1 (F := Ideal) (V c main_arg0) (V c main_arg4) :=
  (dat0 (F := Ideal) V sh c).arrAt_eq_of_cover 2 _ (fun t _ => flushed_eq V sh c t) cover

end Cert.KernelIdeal.Value0

end
-- ==== Proof.KernelIdealValue1.lean ====
/-
  Region 1 of the kernel, read as a value. The region's output array after its run is the second dense layer of
  the stage functions, tanh (x W₂), of the two arrays the region reads: each grid point writes one tile of 2048
  rows, the product of the matching 2048 rows of x (cast to their own shape) with the whole of W₂ followed by
  tanh; the six tiles cover the 12288 rows. At the ideal instance the format changes are the identity and both products are the same finite sum
  over the 256 contraction indices, so only indices are moved.
-/
import proofs.«160782_j22454089023912_1_alg».proof.Proof.KernelIdealRegion1
import proofs.«160782_j22454089023912_1_alg».proof.Proof.Stages
import Idealize.ShloMosaic.Lib.Pipeline.Value
import Idealize.ShloMosaic.Lib.ValueIdx
import Idealize.ShloMosaic.PureOps.Ideal.Laws

noncomputable section

namespace Cert.KernelIdeal.Value1

open Cert.KernelIdeal Cert.KernelIdeal.Gen Cert.KernelIdeal.Regions
open Idealize.ShloMosaic Idealize.ShloMosaic.TcCoe Idealize.SL.Sem
open Idealize.SL Idealize.SL.RA
open Idealize.ShloMosaic.Pipeline (Dat)
open Idealize.ShloMosaic.ValueIdx

/-! ## The tile product at an index -/

/-- The left operand of the tile product at output index i and contraction index q is in row i₀ … -/
theorem lhs_axis0 (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
/-- … and column q; -/
theorem lhs_axis1 (i : S2048x128.Idx) (q : dot_S2048x256_S256x128_S2048x128_1_0_0_1_n_n.contr.Idx) :
    (dot_S2048x256_S256x128_S2048x128_1_0_0_1_n_n.lhsIdx i q 1).val = (q ⟨0, by decide⟩).val :=
  dot_S2048x256_S256x128_S2048x128_1_0_0_1_n_n.lhsIdx_val_of_single rfl i q
/-- the right operand is in row q … -/
theorem rhs_axis0 (i : S2048x128.Idx) (q : dot_S2048x256_S256x128_S2048x128_1_0_0_1_n_n.contr.Idx) :
    (dot_S2048x256_S256x128_S2048x128_1_0_0_1_n_n.rhsIdx i q 0).val = (q ⟨0, by decide⟩).val :=
  dot_S2048x256_S256x128_S2048x128_1_0_0_1_n_n.rhsIdx_val_of_single rfl i q
/-- … and column i₁. -/
theorem rhs_axis1 (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-- What the body stores, at row p and column q of the tile: tanh of the sum over k of x₀[p,k] · x₁[k,q]. -/
theorem pay_apply (x0 : Vec Ideal S2048x256 .f32) (x1 : Vec Ideal S256x128 .f32) (p : Fin 2048) (q : Fin 128) :
    k1_pay1 (F := Ideal) x0 x1 (ix2 p q) = Ideal.tanh (∑ k : Fin 256, x0 (ix2 p k) * x1 (ix2 k q)) := by
  unfold k1_pay1
  show Ideal.tanh (FloatOps.matmul (F := Ideal) dot_S2048x256_S256x128_S2048x128_1_0_0_1_n_n none (truncf .bf16 (shapeCast S2048x256 x0 shapeCasts_S2048x256_S2048x256) bitsLt_bf16_f32) (truncf .bf16 x1 bitsLt_bf16_f32) (constant S2048x128 .f32 0x00000000#32) (ix2 p q)) = _
  refine congrArg Ideal.tanh ?_
  refine (Ideal.matmul_constant_zero_apply dot_S2048x256_S256x128_S2048x128_1_0_0_1_n_n none _ _ (ix2 p q)).trans ?_
  rw [← Equiv.sum_comp (ValueIdx.contrEquiv1 dot_S2048x256_S256x128_S2048x128_1_0_0_1_n_n 256 rfl rfl).symm]
  refine Finset.sum_congr rfl fun k _ => ?_
  have hk := ValueIdx.contrEquiv1_symm_val dot_S2048x256_S256x128_S2048x128_1_0_0_1_n_n 256 rfl rfl k
  have el : dot_S2048x256_S256x128_S2048x128_1_0_0_1_n_n.lhsIdx (ix2 p q) ((ValueIdx.contrEquiv1 dot_S2048x256_S256x128_S2048x128_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S2048x256_S256x128_S2048x128_1_0_0_1_n_n.rhsIdx (ix2 p q) ((ValueIdx.contrEquiv1 dot_S2048x256_S256x128_S2048x128_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]
  show shapeCast S2048x256 x0 shapeCasts_S2048x256_S2048x256 (ix2 p k) * x1 (ix2 k q) = x0 (ix2 p k) * x1 (ix2 k q)
  rw [shapeCast_self]

/-! ## The stage function at an index -/

/-- The whole product's left operand at output index i and contraction index q is in row i₀ … -/
theorem ref_lhs_axis0 (i : Cert.ReferenceIdeal.S12288x128.Idx) (q : Cert.ReferenceIdeal.dot_S12288x256_S256x128_S12288x128_1_0_0_1_n_n.contr.Idx) :
    (Cert.ReferenceIdeal.dot_S12288x256_S256x128_S12288x128_1_0_0_1_n_n.lhsIdx i q 0).val = (i 0).val := by
  unfold DotDims.lhsIdx
  rw [dif_neg (show ¬(0 : Fin Cert.ReferenceIdeal.S12288x256.rank) ∈ Cert.ReferenceIdeal.dot_S12288x256_S256x128_S12288x128_1_0_0_1_n_n.lhsBatch by decide), dif_pos (show (0 : Fin Cert.ReferenceIdeal.S12288x256.rank) ∈ Cert.ReferenceIdeal.dot_S12288x256_S256x128_S12288x128_1_0_0_1_n_n.lhsNonContracting by decide)]
  rfl
/-- … and column q; -/
theorem ref_lhs_axis1 (i : Cert.ReferenceIdeal.S12288x128.Idx) (q : Cert.ReferenceIdeal.dot_S12288x256_S256x128_S12288x128_1_0_0_1_n_n.contr.Idx) :
    (Cert.ReferenceIdeal.dot_S12288x256_S256x128_S12288x128_1_0_0_1_n_n.lhsIdx i q 1).val = (q ⟨0, by decide⟩).val :=
  Cert.ReferenceIdeal.dot_S12288x256_S256x128_S12288x128_1_0_0_1_n_n.lhsIdx_val_of_single rfl i q
/-- the right operand is in row q … -/
theorem ref_rhs_axis0 (i : Cert.ReferenceIdeal.S12288x128.Idx) (q : Cert.ReferenceIdeal.dot_S12288x256_S256x128_S12288x128_1_0_0_1_n_n.contr.Idx) :
    (Cert.ReferenceIdeal.dot_S12288x256_S256x128_S12288x128_1_0_0_1_n_n.rhsIdx i q 0).val = (q ⟨0, by decide⟩).val :=
  Cert.ReferenceIdeal.dot_S12288x256_S256x128_S12288x128_1_0_0_1_n_n.rhsIdx_val_of_single rfl i q
/-- … and column i₁. -/
theorem ref_rhs_axis1 (i : Cert.ReferenceIdeal.S12288x128.Idx) (q : Cert.ReferenceIdeal.dot_S12288x256_S256x128_S12288x128_1_0_0_1_n_n.contr.Idx) :
    (Cert.ReferenceIdeal.dot_S12288x256_S256x128_S12288x128_1_0_0_1_n_n.rhsIdx i q 1).val = (i 1).val := by
  unfold DotDims.rhsIdx
  rw [dif_neg (show ¬(1 : Fin Cert.ReferenceIdeal.S256x128.rank) ∈ Cert.ReferenceIdeal.dot_S12288x256_S256x128_S12288x128_1_0_0_1_n_n.rhsBatch by decide), dif_pos (show (1 : Fin Cert.ReferenceIdeal.S256x128.rank) ∈ Cert.ReferenceIdeal.dot_S12288x256_S256x128_S12288x128_1_0_0_1_n_n.rhsNonContracting by decide)]
  rfl

/-- The second dense layer at row r and column q: tanh of the sum over k of x[r,k] · W[k,q]. -/
theorem layer2_apply (x : Cert.Stages.Arr Ideal Cert.ReferenceIdeal.S12288x256 .f32) (W : Cert.Stages.Arr Ideal Cert.ReferenceIdeal.S256x128 .f32)
    (r : Fin 12288) (q : Fin 128) :
    Cert.Stages.layer2 (F := Ideal) x W (ix2 r q) = Ideal.tanh (∑ k : Fin 256, x (ix2 r k) * W (ix2 k q)) := by
  unfold Cert.Stages.layer2
  show Ideal.tanh (FloatOps.dotGeneral (F := Ideal) Cert.ReferenceIdeal.dot_S12288x256_S256x128_S12288x128_1_0_0_1_n_n none _ x W (ix2 r q)) = _
  refine congrArg Ideal.tanh ?_
  refine (Ideal.dotGeneral_apply Cert.ReferenceIdeal.dot_S12288x256_S256x128_S12288x128_1_0_0_1_n_n none _ x W (ix2 r q)).trans ?_
  rw [← Equiv.sum_comp (ValueIdx.contrEquiv1 Cert.ReferenceIdeal.dot_S12288x256_S256x128_S12288x128_1_0_0_1_n_n 256 rfl rfl).symm]
  refine Finset.sum_congr rfl fun k _ => ?_
  have hk := ValueIdx.contrEquiv1_symm_val Cert.ReferenceIdeal.dot_S12288x256_S256x128_S12288x128_1_0_0_1_n_n 256 rfl rfl k
  have el : Cert.ReferenceIdeal.dot_S12288x256_S256x128_S12288x128_1_0_0_1_n_n.lhsIdx (ix2 r q) ((ValueIdx.contrEquiv1 Cert.ReferenceIdeal.dot_S12288x256_S256x128_S12288x128_1_0_0_1_n_n 256 rfl rfl).symm k) = ix2 r k := funext fun a => Fin.ext (by
    match a with
    | ⟨0, _⟩ => exact ref_lhs_axis0 _ _
    | ⟨1, _⟩ => exact (ref_lhs_axis1 _ _).trans hk)
  have er : Cert.ReferenceIdeal.dot_S12288x256_S256x128_S12288x128_1_0_0_1_n_n.rhsIdx (ix2 r q) ((ValueIdx.contrEquiv1 Cert.ReferenceIdeal.dot_S12288x256_S256x128_S12288x128_1_0_0_1_n_n 256 rfl rfl).symm k) = ix2 k q := funext fun a => Fin.ext (by
    match a with
    | ⟨0, _⟩ => exact (ref_rhs_axis0 _ _).trans hk
    | ⟨1, _⟩ => exact ref_rhs_axis1 _ _)
  rw [el, er]

/-! ## From tiles to the array -/

variable (V : (c : Dev nD) → (b : Ref sig .tc) → Buf (Elt Ideal) ((c : Thread nD τ).loc b))
variable (sh : Fin 3 → PosShare TreeShare)

/-- The body's rectangles start at the tile's origin. -/
theorem origin : (![0, 0] : Fin 2 → Nat) = fun _ => 0 := funext fun a => by fin_cases a <;> rfl

/-- The printed index maps over the grid: point t reads row tile t of x and the whole of W₂, and writes row tile t
    of the output. -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- Row p, column k of the x tile at point t is row 2048 t + p, column k of x. -/
theorem xblk_apply (c : Dev nD) (t : Fin cfg1.N) (p : Fin 2048) (k : Fin 256) (r : Fin 12288) (hr : r.val = 2048 * t.val + p.val) :
    iblk1 (F := Ideal) V c 0 t (ix2 p k) = V c main_v13 (ix2 r k) := by
  obtain ⟨e0, e1, e2, e3, e4, e5⟩ := idx_facts t
  show V c main_v13 (((cfg1.win 0).blk t).view.emb (ix2 p k)) = V c main_v13 (ix2 r k)
  refine congrArg (V c main_v13) ?_
  funext a; apply Fin.ext
  match a with
  | ⟨0, _⟩ => show win1_0.index t (0 : Fin 2) * 2048 + 1 * p.val = r.val; omega
  | ⟨1, _⟩ => show win1_0.index t (1 : Fin 2) * 256 + 1 * k.val = k.val; omega

/-- The W₂ tile at every point is W₂. -/
theorem wblk_apply (c : Dev nD) (t : Fin cfg1.N) (k : Fin 256) (q : Fin 128) :
    iblk1 (F := Ideal) V c 1 t (ix2 k q) = V c main_arg5 (ix2 k q) := by
  obtain ⟨e0, e1, e2, e3, e4, e5⟩ := idx_facts t
  show V c main_arg5 (((cfg1.win 1).blk t).view.emb (ix2 k q)) = V c main_arg5 (ix2 k q)
  refine congrArg (V c main_arg5) ?_
  funext a; apply Fin.ext
  match a with
  | ⟨0, _⟩ => show win1_1.index t (0 : Fin 2) * 256 + 1 * k.val = k.val; omega
  | ⟨1, _⟩ => show win1_1.index t (1 : Fin 2) * 128 + 1 * q.val = q.val; omega

/-- What point t writes back is row tile t of tanh (x W₂). -/
theorem flushed_eq (c : Dev nD) (t : Fin cfg1.N) :
    (dat1 (F := Ideal) V sh c).flushed 2 t
      = ((cfg1.win 2).blk t).view.read (Elt Ideal) (Cert.Stages.layer2 (F := Ideal) (V c main_v13) (V c main_arg5)) := by
  show (cfg1.win 2).cut (grid1.coords t) ((dat1 (F := Ideal) V sh c).after 2 t) = _
  rw [after1_2]
  unfold out1_2
  rw [View.canon_unit_zero origin]
  simp only [View.ld_unit_zero (S := S2048x256) origin, View.ld_unit_zero (S := S256x128) origin]
  obtain ⟨e0, e1, e2, e3, e4, e5⟩ := idx_facts t
  have hN : cfg1.N = 6 := N_1
  have ht : t.val < 6 := hN ▸ t.isLt
  funext j
  obtain ⟨p, q, rfl⟩ : ∃ (p : Fin 2048) (q : Fin 128), j = ix2 p q := ⟨j 0, j 1, eq_ix2 j⟩
  obtain ⟨r, hr⟩ : ∃ r : Fin 12288, r.val = 2048 * t.val + p.val := ⟨⟨2048 * t.val + p.val, by have := p.isLt; omega⟩, rfl⟩
  show k1_pay1 (F := Ideal) (iblk1 V c 0 t) (iblk1 V c 1 t) (ix2 p q)
    = Cert.Stages.layer2 (F := Ideal) (V c main_v13) (V c main_arg5) (((cfg1.win 2).blk t).view.emb (ix2 p q))
  have hemb : ((cfg1.win 2).blk t).view.emb (ix2 p q) = ix2 r q := by
    funext a; apply Fin.ext
    match a with
    | ⟨0, _⟩ => show win1_2.index t (0 : Fin 2) * 2048 + 1 * p.val = r.val; omega
    | ⟨1, _⟩ => show win1_2.index t (1 : Fin 2) * 128 + 1 * q.val = q.val; omega
  rw [hemb]
  refine (pay_apply (iblk1 V c 0 t) (iblk1 V c 1 t) p q).trans ?_
  refine Eq.trans ?_ (layer2_apply (V c main_v13) (V c main_arg5) r q).symm
  refine congrArg Ideal.tanh (Finset.sum_congr rfl fun k _ => ?_)
  rw [xblk_apply V c t p k r hr, wblk_apply V c t k q]

/-- An index of the output array is in point t's tile iff each coordinate is in the tile's range on its axis. -/
theorem mem_blk (t : Fin cfg1.N) (i : S12288x128.Idx) :
    i ∈ ((cfg1.win 2).blk t).view.set ↔ ∀ a : Fin 2, win1_2.index t a * S2048x128.size a ≤ (i a).val ∧ (i a).val < win1_2.index t a * S2048x128.size a + S2048x128.size a := by
  show i ∈ ((View.whole main_v14).slice (win1_2.rect t)).set ↔ _
  rw [View.set_slice_whole, Rect.mem_set_unit]
  exact Iff.rfl

/-- The six row tiles cover the output array: row r is in tile r / 2048. -/
theorem cover (i : S12288x128.Idx) :
    ∃ t : Fin cfg1.N, (cfg1.win 2).flush t = true ∧ i ∈ ((cfg1.win 2).blk t).view.set := by
  have hi0 : (i 0).val < 12288 := (i 0).isLt
  have hi1 : (i 1).val < 128 := (i 1).isLt
  have hN : cfg1.N = 6 := N_1
  obtain ⟨t, ht⟩ : ∃ t : Fin cfg1.N, t.val = (i 0).val / 2048 := ⟨⟨(i 0).val / 2048, by rw [hN]; omega⟩, rfl⟩
  obtain ⟨e0, e1, e2, e3, e4, e5⟩ := idx_facts t
  refine ⟨t, flush1_2 t, ?_⟩
  rw [mem_blk]
  intro a
  match a with
  | ⟨0, _⟩ => show win1_2.index t (0 : Fin 2) * 2048 ≤ (i 0).val ∧ (i 0).val < win1_2.index t (0 : Fin 2) * 2048 + 2048; omega
  | ⟨1, _⟩ => show win1_2.index t (1 : Fin 2) * 128 ≤ (i 1).val ∧ (i 1).val < win1_2.index t (1 : Fin 2) * 128 + 128; omega

/-- The region's output array after its run is the second dense layer of the two arrays it reads. -/
theorem arrAt (c : Dev nD) :
    (dat1 (F := Ideal) V sh c).arrAt 2 cfg1.N = Cert.Stages.layer2 (F := Ideal) (V c main_v13) (V c main_arg5) :=
  (dat1 (F := Ideal) V sh c).arrAt_eq_of_cover 2 _ (fun t _ => flushed_eq V sh c t) cover

end Cert.KernelIdeal.Value1

end
-- ==== Proof.KernelIdealValue2.lean ====
/-
  Region 2 of the kernel, read as a value. The region's output array after its run is the third dense layer of
  the stage functions, x W₃ with no activation, of the two arrays the region reads: each grid point writes one tile
  of 2048 rows, the product of the matching 2048 rows of x (cast to their own shape) with the whole of W₃; the six
  tiles cover the 12288 rows. At the ideal instance the format changes are the identity and both products are the same finite sum
  over the 128 contraction indices, so only indices are moved.
-/
import proofs.«160782_j22454089023912_1_alg».proof.Proof.KernelIdealRegion2
import proofs.«160782_j22454089023912_1_alg».proof.Proof.Stages
import Idealize.ShloMosaic.Lib.Pipeline.Value
import Idealize.ShloMosaic.Lib.ValueIdx
import Idealize.ShloMosaic.PureOps.Ideal.Laws

noncomputable section

namespace Cert.KernelIdeal.Value2

open Cert.KernelIdeal Cert.KernelIdeal.Gen Cert.KernelIdeal.Regions
open Idealize.ShloMosaic Idealize.ShloMosaic.TcCoe Idealize.SL.Sem
open Idealize.SL Idealize.SL.RA
open Idealize.ShloMosaic.Pipeline (Dat)
open Idealize.ShloMosaic.ValueIdx

/-! ## The tile product at an index -/

/-- The left operand of the tile product at output index i and contraction index q is in row i₀ … -/
theorem lhs_axis0 (i : S2048x64.Idx) (q : dot_S2048x128_S128x64_S2048x64_1_0_0_1_n_n.contr.Idx) :
    (dot_S2048x128_S128x64_S2048x64_1_0_0_1_n_n.lhsIdx i q 0).val = (i 0).val := by
  unfold DotDims.lhsIdx
  rw [dif_neg (show ¬(0 : Fin S2048x128.rank) ∈ dot_S2048x128_S128x64_S2048x64_1_0_0_1_n_n.lhsBatch by decide), dif_pos (show (0 : Fin S2048x128.rank) ∈ dot_S2048x128_S128x64_S2048x64_1_0_0_1_n_n.lhsNonContracting by decide)]
  rfl
/-- … and column q; -/
theorem lhs_axis1 (i : S2048x64.Idx) (q : dot_S2048x128_S128x64_S2048x64_1_0_0_1_n_n.contr.Idx) :
    (dot_S2048x128_S128x64_S2048x64_1_0_0_1_n_n.lhsIdx i q 1).val = (q ⟨0, by decide⟩).val :=
  dot_S2048x128_S128x64_S2048x64_1_0_0_1_n_n.lhsIdx_val_of_single rfl i q
/-- the right operand is in row q … -/
theorem rhs_axis0 (i : S2048x64.Idx) (q : dot_S2048x128_S128x64_S2048x64_1_0_0_1_n_n.contr.Idx) :
    (dot_S2048x128_S128x64_S2048x64_1_0_0_1_n_n.rhsIdx i q 0).val = (q ⟨0, by decide⟩).val :=
  dot_S2048x128_S128x64_S2048x64_1_0_0_1_n_n.rhsIdx_val_of_single rfl i q
/-- … and column i₁. -/
theorem rhs_axis1 (i : S2048x64.Idx) (q : dot_S2048x128_S128x64_S2048x64_1_0_0_1_n_n.contr.Idx) :
    (dot_S2048x128_S128x64_S2048x64_1_0_0_1_n_n.rhsIdx i q 1).val = (i 1).val := by
  unfold DotDims.rhsIdx
  rw [dif_neg (show ¬(1 : Fin S128x64.rank) ∈ dot_S2048x128_S128x64_S2048x64_1_0_0_1_n_n.rhsBatch by decide), dif_pos (show (1 : Fin S128x64.rank) ∈ dot_S2048x128_S128x64_S2048x64_1_0_0_1_n_n.rhsNonContracting by decide)]
  rfl

/-- What the body stores, at row p and column q of the tile: the sum over k of x₀[p,k] · x₁[k,q]. -/
theorem pay_apply (x0 : Vec Ideal S2048x128 .f32) (x1 : Vec Ideal S128x64 .f32) (p : Fin 2048) (q : Fin 64) :
    k2_pay1 (F := Ideal) x0 x1 (ix2 p q) = ∑ k : Fin 128, x0 (ix2 p k) * x1 (ix2 k q) := by
  unfold k2_pay1
  show FloatOps.matmul (F := Ideal) dot_S2048x128_S128x64_S2048x64_1_0_0_1_n_n none (truncf .bf16 (shapeCast S2048x128 x0 shapeCasts_S2048x128_S2048x128) bitsLt_bf16_f32) (truncf .bf16 x1 bitsLt_bf16_f32) (constant S2048x64 .f32 0x00000000#32) (ix2 p q) = _
  refine (Ideal.matmul_constant_zero_apply dot_S2048x128_S128x64_S2048x64_1_0_0_1_n_n none _ _ (ix2 p q)).trans ?_
  rw [← Equiv.sum_comp (ValueIdx.contrEquiv1 dot_S2048x128_S128x64_S2048x64_1_0_0_1_n_n 128 rfl rfl).symm]
  refine Finset.sum_congr rfl fun k _ => ?_
  have hk := ValueIdx.contrEquiv1_symm_val dot_S2048x128_S128x64_S2048x64_1_0_0_1_n_n 128 rfl rfl k
  have el : dot_S2048x128_S128x64_S2048x64_1_0_0_1_n_n.lhsIdx (ix2 p q) ((ValueIdx.contrEquiv1 dot_S2048x128_S128x64_S2048x64_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2048x128_S128x64_S2048x64_1_0_0_1_n_n.rhsIdx (ix2 p q) ((ValueIdx.contrEquiv1 dot_S2048x128_S128x64_S2048x64_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]
  show shapeCast S2048x128 x0 shapeCasts_S2048x128_S2048x128 (ix2 p k) * x1 (ix2 k q) = x0 (ix2 p k) * x1 (ix2 k q)
  rw [shapeCast_self]

/-! ## The stage function at an index -/

/-- The whole product's left operand at output index i and contraction index q is in row i₀ … -/
theorem ref_lhs_axis0 (i : Cert.ReferenceIdeal.S12288x64.Idx) (q : Cert.ReferenceIdeal.dot_S12288x128_S128x64_S12288x64_1_0_0_1_n_n.contr.Idx) :
    (Cert.ReferenceIdeal.dot_S12288x128_S128x64_S12288x64_1_0_0_1_n_n.lhsIdx i q 0).val = (i 0).val := by
  unfold DotDims.lhsIdx
  rw [dif_neg (show ¬(0 : Fin Cert.ReferenceIdeal.S12288x128.rank) ∈ Cert.ReferenceIdeal.dot_S12288x128_S128x64_S12288x64_1_0_0_1_n_n.lhsBatch by decide), dif_pos (show (0 : Fin Cert.ReferenceIdeal.S12288x128.rank) ∈ Cert.ReferenceIdeal.dot_S12288x128_S128x64_S12288x64_1_0_0_1_n_n.lhsNonContracting by decide)]
  rfl
/-- … and column q; -/
theorem ref_lhs_axis1 (i : Cert.ReferenceIdeal.S12288x64.Idx) (q : Cert.ReferenceIdeal.dot_S12288x128_S128x64_S12288x64_1_0_0_1_n_n.contr.Idx) :
    (Cert.ReferenceIdeal.dot_S12288x128_S128x64_S12288x64_1_0_0_1_n_n.lhsIdx i q 1).val = (q ⟨0, by decide⟩).val :=
  Cert.ReferenceIdeal.dot_S12288x128_S128x64_S12288x64_1_0_0_1_n_n.lhsIdx_val_of_single rfl i q
/-- the right operand is in row q … -/
theorem ref_rhs_axis0 (i : Cert.ReferenceIdeal.S12288x64.Idx) (q : Cert.ReferenceIdeal.dot_S12288x128_S128x64_S12288x64_1_0_0_1_n_n.contr.Idx) :
    (Cert.ReferenceIdeal.dot_S12288x128_S128x64_S12288x64_1_0_0_1_n_n.rhsIdx i q 0).val = (q ⟨0, by decide⟩).val :=
  Cert.ReferenceIdeal.dot_S12288x128_S128x64_S12288x64_1_0_0_1_n_n.rhsIdx_val_of_single rfl i q
/-- … and column i₁. -/
theorem ref_rhs_axis1 (i : Cert.ReferenceIdeal.S12288x64.Idx) (q : Cert.ReferenceIdeal.dot_S12288x128_S128x64_S12288x64_1_0_0_1_n_n.contr.Idx) :
    (Cert.ReferenceIdeal.dot_S12288x128_S128x64_S12288x64_1_0_0_1_n_n.rhsIdx i q 1).val = (i 1).val := by
  unfold DotDims.rhsIdx
  rw [dif_neg (show ¬(1 : Fin Cert.ReferenceIdeal.S128x64.rank) ∈ Cert.ReferenceIdeal.dot_S12288x128_S128x64_S12288x64_1_0_0_1_n_n.rhsBatch by decide), dif_pos (show (1 : Fin Cert.ReferenceIdeal.S128x64.rank) ∈ Cert.ReferenceIdeal.dot_S12288x128_S128x64_S12288x64_1_0_0_1_n_n.rhsNonContracting by decide)]
  rfl

/-- The third dense layer at row r and column q: the sum over k of x[r,k] · W[k,q]. -/
theorem layer3_apply (x : Cert.Stages.Arr Ideal Cert.ReferenceIdeal.S12288x128 .f32) (W : Cert.Stages.Arr Ideal Cert.ReferenceIdeal.S128x64 .f32)
    (r : Fin 12288) (q : Fin 64) :
    Cert.Stages.layer3 (F := Ideal) x W (ix2 r q) = ∑ k : Fin 128, x (ix2 r k) * W (ix2 k q) := by
  unfold Cert.Stages.layer3
  show FloatOps.dotGeneral (F := Ideal) Cert.ReferenceIdeal.dot_S12288x128_S128x64_S12288x64_1_0_0_1_n_n none _ x W (ix2 r q) = _
  refine (Ideal.dotGeneral_apply Cert.ReferenceIdeal.dot_S12288x128_S128x64_S12288x64_1_0_0_1_n_n none _ x W (ix2 r q)).trans ?_
  rw [← Equiv.sum_comp (ValueIdx.contrEquiv1 Cert.ReferenceIdeal.dot_S12288x128_S128x64_S12288x64_1_0_0_1_n_n 128 rfl rfl).symm]
  refine Finset.sum_congr rfl fun k _ => ?_
  have hk := ValueIdx.contrEquiv1_symm_val Cert.ReferenceIdeal.dot_S12288x128_S128x64_S12288x64_1_0_0_1_n_n 128 rfl rfl k
  have el : Cert.ReferenceIdeal.dot_S12288x128_S128x64_S12288x64_1_0_0_1_n_n.lhsIdx (ix2 r q) ((ValueIdx.contrEquiv1 Cert.ReferenceIdeal.dot_S12288x128_S128x64_S12288x64_1_0_0_1_n_n 128 rfl rfl).symm k) = ix2 r k := funext fun a => Fin.ext (by
    match a with
    | ⟨0, _⟩ => exact ref_lhs_axis0 _ _
    | ⟨1, _⟩ => exact (ref_lhs_axis1 _ _).trans hk)
  have er : Cert.ReferenceIdeal.dot_S12288x128_S128x64_S12288x64_1_0_0_1_n_n.rhsIdx (ix2 r q) ((ValueIdx.contrEquiv1 Cert.ReferenceIdeal.dot_S12288x128_S128x64_S12288x64_1_0_0_1_n_n 128 rfl rfl).symm k) = ix2 k q := funext fun a => Fin.ext (by
    match a with
    | ⟨0, _⟩ => exact (ref_rhs_axis0 _ _).trans hk
    | ⟨1, _⟩ => exact ref_rhs_axis1 _ _)
  rw [el, er]

/-! ## From tiles to the array -/

variable (V : (c : Dev nD) → (b : Ref sig .tc) → Buf (Elt Ideal) ((c : Thread nD τ).loc b))
variable (sh : Fin 3 → PosShare TreeShare)

/-- The body's rectangles start at the tile's origin. -/
theorem origin : (![0, 0] : Fin 2 → Nat) = fun _ => 0 := funext fun a => by fin_cases a <;> rfl

/-- The printed index maps over the grid: point t reads row tile t of x and the whole of W₃, and writes row tile t
    of the output. -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- Row p, column k of the x tile at point t is row 2048 t + p, column k of x. -/
theorem xblk_apply (c : Dev nD) (t : Fin cfg2.N) (p : Fin 2048) (k : Fin 128) (r : Fin 12288) (hr : r.val = 2048 * t.val + p.val) :
    iblk2 (F := Ideal) V c 0 t (ix2 p k) = V c main_v27 (ix2 r k) := by
  obtain ⟨e0, e1, e2, e3, e4, e5⟩ := idx_facts t
  show V c main_v27 (((cfg2.win 0).blk t).view.emb (ix2 p k)) = V c main_v27 (ix2 r k)
  refine congrArg (V c main_v27) ?_
  funext a; apply Fin.ext
  match a with
  | ⟨0, _⟩ => show win2_0.index t (0 : Fin 2) * 2048 + 1 * p.val = r.val; omega
  | ⟨1, _⟩ => show win2_0.index t (1 : Fin 2) * 128 + 1 * k.val = k.val; omega

/-- The W₃ tile at every point is W₃. -/
theorem wblk_apply (c : Dev nD) (t : Fin cfg2.N) (k : Fin 128) (q : Fin 64) :
    iblk2 (F := Ideal) V c 1 t (ix2 k q) = V c main_arg6 (ix2 k q) := by
  obtain ⟨e0, e1, e2, e3, e4, e5⟩ := idx_facts t
  show V c main_arg6 (((cfg2.win 1).blk t).view.emb (ix2 k q)) = V c main_arg6 (ix2 k q)
  refine congrArg (V c main_arg6) ?_
  funext a; apply Fin.ext
  match a with
  | ⟨0, _⟩ => show win2_1.index t (0 : Fin 2) * 128 + 1 * k.val = k.val; omega
  | ⟨1, _⟩ => show win2_1.index t (1 : Fin 2) * 64 + 1 * q.val = q.val; omega

/-- What point t writes back is row tile t of x W₃. -/
theorem flushed_eq (c : Dev nD) (t : Fin cfg2.N) :
    (dat2 (F := Ideal) V sh c).flushed 2 t
      = ((cfg2.win 2).blk t).view.read (Elt Ideal) (Cert.Stages.layer3 (F := Ideal) (V c main_v27) (V c main_arg6)) := by
  show (cfg2.win 2).cut (grid2.coords t) ((dat2 (F := Ideal) V sh c).after 2 t) = _
  rw [after2_2]
  unfold out2_2
  rw [View.canon_unit_zero origin]
  simp only [View.ld_unit_zero (S := S2048x128) origin, View.ld_unit_zero (S := S128x64) origin]
  obtain ⟨e0, e1, e2, e3, e4, e5⟩ := idx_facts t
  have hN : cfg2.N = 6 := N_2
  have ht : t.val < 6 := hN ▸ t.isLt
  funext j
  obtain ⟨p, q, rfl⟩ : ∃ (p : Fin 2048) (q : Fin 64), j = ix2 p q := ⟨j 0, j 1, eq_ix2 j⟩
  obtain ⟨r, hr⟩ : ∃ r : Fin 12288, r.val = 2048 * t.val + p.val := ⟨⟨2048 * t.val + p.val, by have := p.isLt; omega⟩, rfl⟩
  show k2_pay1 (F := Ideal) (iblk2 V c 0 t) (iblk2 V c 1 t) (ix2 p q)
    = Cert.Stages.layer3 (F := Ideal) (V c main_v27) (V c main_arg6) (((cfg2.win 2).blk t).view.emb (ix2 p q))
  have hemb : ((cfg2.win 2).blk t).view.emb (ix2 p q) = ix2 r q := by
    funext a; apply Fin.ext
    match a with
    | ⟨0, _⟩ => show win2_2.index t (0 : Fin 2) * 2048 + 1 * p.val = r.val; omega
    | ⟨1, _⟩ => show win2_2.index t (1 : Fin 2) * 64 + 1 * q.val = q.val; omega
  rw [hemb]
  refine (pay_apply (iblk2 V c 0 t) (iblk2 V c 1 t) p q).trans ?_
  refine Eq.trans ?_ (layer3_apply (V c main_v27) (V c main_arg6) r q).symm
  refine Finset.sum_congr rfl fun k _ => ?_
  rw [xblk_apply V c t p k r hr, wblk_apply V c t k q]

/-- An index of the output array is in point t's tile iff each coordinate is in the tile's range on its axis. -/
theorem mem_blk (t : Fin cfg2.N) (i : S12288x64.Idx) :
    i ∈ ((cfg2.win 2).blk t).view.set ↔ ∀ a : Fin 2, win2_2.index t a * S2048x64.size a ≤ (i a).val ∧ (i a).val < win2_2.index t a * S2048x64.size a + S2048x64.size a := by
  show i ∈ ((View.whole main_v28).slice (win2_2.rect t)).set ↔ _
  rw [View.set_slice_whole, Rect.mem_set_unit]
  exact Iff.rfl

/-- The six row tiles cover the output array: row r is in tile r / 2048. -/
theorem cover (i : S12288x64.Idx) :
    ∃ t : Fin cfg2.N, (cfg2.win 2).flush t = true ∧ i ∈ ((cfg2.win 2).blk t).view.set := by
  have hi0 : (i 0).val < 12288 := (i 0).isLt
  have hi1 : (i 1).val < 64 := (i 1).isLt
  have hN : cfg2.N = 6 := N_2
  obtain ⟨t, ht⟩ : ∃ t : Fin cfg2.N, t.val = (i 0).val / 2048 := ⟨⟨(i 0).val / 2048, by rw [hN]; omega⟩, rfl⟩
  obtain ⟨e0, e1, e2, e3, e4, e5⟩ := idx_facts t
  refine ⟨t, flush2_2 t, ?_⟩
  rw [mem_blk]
  intro a
  match a with
  | ⟨0, _⟩ => show win2_2.index t (0 : Fin 2) * 2048 ≤ (i 0).val ∧ (i 0).val < win2_2.index t (0 : Fin 2) * 2048 + 2048; omega
  | ⟨1, _⟩ => show win2_2.index t (1 : Fin 2) * 64 ≤ (i 1).val ∧ (i 1).val < win2_2.index t (1 : Fin 2) * 64 + 64; omega

/-- The region's output array after its run is the third dense layer of the two arrays it reads. -/
theorem arrAt (c : Dev nD) :
    (dat2 (F := Ideal) V sh c).arrAt 2 cfg2.N = Cert.Stages.layer3 (F := Ideal) (V c main_v27) (V c main_arg6) :=
  (dat2 (F := Ideal) V sh c).arrAt_eq_of_cover 2 _ (fun t _ => flushed_eq V sh c t) cover

end Cert.KernelIdeal.Value2

end
-- ==== Proof.KernelIdealValue3.lean ====
/-
  The value of region 3, the reconstruction: after the region the output array holds, at row r and column s,
  1 / (1 + exp (-(Σ_k z[r,k] · z[s,k]))) of the embedding z the region finds in its one input array, which is the
  reference's reconstruction stage of that array. The grid point (i, j) reads row tile i and row tile j of z, forms
  the product of the first with the transpose of the second and the logistic of it, and writes block (i, j) of the
  output; the blocks tile the output, so the array ends as that one function of z.
-/
import proofs.«160782_j22454089023912_1_alg».proof.Proof.KernelIdealRegion3
import proofs.«160782_j22454089023912_1_alg».proof.Proof.Stages
import Idealize.ShloMosaic.Lib.Pipeline.Value
import Idealize.ShloMosaic.Lib.ValueIdx
import Idealize.ShloMosaic.PureOps.Ideal.Laws

set_option maxRecDepth 16384

noncomputable section

namespace Cert.KernelIdeal.Value3

open Cert.KernelIdeal Cert.KernelIdeal.Gen Cert.KernelIdeal.Regions
open Idealize.ShloMosaic Idealize.ShloMosaic.TcCoe Idealize.SL.Sem
open Idealize.SL Idealize.SL.RA
open Idealize.ShloMosaic.Pipeline (Dat)
open Idealize.ShloMosaic.ValueIdx (ix2 eq_ix2)

/-! ## The kernel's product: row p of the first block against row q of the second -/

/-- The contraction of the body's product: axis 1 of each operand. -/
abbrev DK : DotDims S1024x64 S1024x64 S1024x1024 := dot_S1024x64_S1024x64_S1024x1024_1_1_0_0_n_n

theorem lhsK_0 (i : S1024x1024.Idx) (q : DK.contr.Idx) : (DK.lhsIdx i q 0).val = (i 0).val := by
  unfold DotDims.lhsIdx
  rw [dif_neg (show ¬(0 : Fin S1024x64.rank) ∈ DK.lhsBatch by decide), dif_pos (show (0 : Fin S1024x64.rank) ∈ DK.lhsNonContracting by decide)]
  rfl
theorem lhsK_1 (i : S1024x1024.Idx) (q : DK.contr.Idx) : (DK.lhsIdx i q 1).val = (q ⟨0, by decide⟩).val :=
  DK.lhsIdx_val_of_single rfl i q
theorem rhsK_0 (i : S1024x1024.Idx) (q : DK.contr.Idx) : (DK.rhsIdx i q 0).val = (i 1).val := by
  unfold DotDims.rhsIdx
  rw [dif_neg (show ¬(0 : Fin S1024x64.rank) ∈ DK.rhsBatch by decide), dif_pos (show (0 : Fin S1024x64.rank) ∈ DK.rhsNonContracting by decide)]
  rfl
theorem rhsK_1 (i : S1024x1024.Idx) (q : DK.contr.Idx) : (DK.rhsIdx i q 1).val = (q ⟨0, by decide⟩).val :=
  DK.rhsIdx_val_of_single rfl i q

/-- The body's payload at (p, q): the logistic of the sum over k of a[p,k] · b[q,k]. -/
theorem pay_apply (a b : Vec Ideal S1024x64 .f32) (p q : Fin 1024) :
    k3_pay1 (F := Ideal) a b (ix2 p q) = Ideal.logistic (∑ k : Fin 64, a (ix2 p k) * b (ix2 q k)) := by
  unfold k3_pay1
  simp only [shapeCast_self]
  refine ((show ∀ (v : FVec Ideal S1024x1024 .f32) (i : S1024x1024.Idx), logistic v i = Ideal.logistic (v i) from fun _ _ => rfl) _ _).trans ?_
  refine congrArg Ideal.logistic ?_
  refine (Ideal.matmul_constant_zero_apply DK none _ _ (ix2 p q)).trans ?_
  rw [← Equiv.sum_comp (ValueIdx.contrEquiv1 DK 64 rfl rfl).symm]
  refine Finset.sum_congr rfl fun k _ => ?_
  have hk := ValueIdx.contrEquiv1_symm_val DK 64 rfl rfl k
  have el : DK.lhsIdx (ix2 p q) ((ValueIdx.contrEquiv1 DK 64 rfl rfl).symm k) = ix2 p k := funext fun x => Fin.ext (by
    match x with
    | ⟨0, _⟩ => exact lhsK_0 _ _
    | ⟨1, _⟩ => exact (lhsK_1 _ _).trans hk)
  have er : DK.rhsIdx (ix2 p q) ((ValueIdx.contrEquiv1 DK 64 rfl rfl).symm k) = ix2 q k := funext fun x => Fin.ext (by
    match x with
    | ⟨0, _⟩ => exact rhsK_0 _ _
    | ⟨1, _⟩ => exact (rhsK_1 _ _).trans hk)
  rw [el, er]
  rfl

/-! ## The reference's reconstruction at an entry -/

/-- The contraction of the reference's product z · zᵀ: axis 1 of z against axis 0 of the transpose. -/
abbrev DR : DotDims Cert.ReferenceIdeal.S12288x64 Cert.ReferenceIdeal.S64x12288 Cert.ReferenceIdeal.S12288x12288 :=
  Cert.ReferenceIdeal.dot_S12288x64_S64x12288_S12288x12288_1_0_0_1_n_n

theorem lhsR_0 (i : Cert.ReferenceIdeal.S12288x12288.Idx) (q : DR.contr.Idx) : (DR.lhsIdx i q 0).val = (i 0).val := by
  unfold DotDims.lhsIdx
  rw [dif_neg (show ¬(0 : Fin Cert.ReferenceIdeal.S12288x64.rank) ∈ DR.lhsBatch by decide), dif_pos (show (0 : Fin Cert.ReferenceIdeal.S12288x64.rank) ∈ DR.lhsNonContracting by decide)]
  rfl
theorem lhsR_1 (i : Cert.ReferenceIdeal.S12288x12288.Idx) (q : DR.contr.Idx) : (DR.lhsIdx i q 1).val = (q ⟨0, by decide⟩).val :=
  DR.lhsIdx_val_of_single rfl i q
theorem rhsR_0 (i : Cert.ReferenceIdeal.S12288x12288.Idx) (q : DR.contr.Idx) : (DR.rhsIdx i q 0).val = (q ⟨0, by decide⟩).val :=
  DR.rhsIdx_val_of_single rfl i q
theorem rhsR_1 (i : Cert.ReferenceIdeal.S12288x12288.Idx) (q : DR.contr.Idx) : (DR.rhsIdx i q 1).val = (i 1).val := by
  unfold DotDims.rhsIdx
  rw [dif_neg (show ¬(1 : Fin Cert.ReferenceIdeal.S64x12288.rank) ∈ DR.rhsBatch by decide), dif_pos (show (1 : Fin Cert.ReferenceIdeal.S64x12288.rank) ∈ DR.rhsNonContracting by decide)]
  rfl

/-- The bit pattern of 1.0 denotes the extended real 1. -/
theorem ofBits_one : Ideal.ofBits .f32 0x3F800000#32 = 1 := IdealRules.sign_bit.ideal_onePat .f32

/-- The expression the reference spells at one entry is the logistic function. -/
theorem logistic_spelled (x : EReal) :
    FloatOps.hostDivf (F := Ideal) (φ := .f32) (1 : EReal) (FloatOps.addf (F := Ideal) (φ := .f32) (1 : EReal) (FloatOps.hostUnary (F := Ideal) (φ := .f32) .exp (FloatOps.hostNegf (F := Ideal) (φ := .f32) x)))
      = Ideal.logistic x := rfl

/-- The reference's product z · zᵀ at (r, s): the sum over k of z[r,k] · z[s,k]. -/
theorem gram_apply (z : FVec Ideal Cert.ReferenceIdeal.S12288x64 .f32)
    (zt : FVec Ideal Cert.ReferenceIdeal.S64x12288 .f32) (hzt : ∀ (k : Fin 64) (s : Fin 12288), zt (ix2 k s) = z (ix2 s k)) (r s : Fin 12288) :
    Host.dotGeneral (F := Ideal) DR none z zt (ix2 r s) = ∑ k : Fin 64, z (ix2 r k) * z (ix2 s k) := by
  simp only [Host.dotGeneral]
  rw [Ideal.dotGeneral_apply, ← Equiv.sum_comp (ValueIdx.contrEquiv1 DR 64 rfl rfl).symm]
  refine Finset.sum_congr rfl fun k _ => ?_
  have hk := ValueIdx.contrEquiv1_symm_val DR 64 rfl rfl k
  have el : DR.lhsIdx (ix2 r s) ((ValueIdx.contrEquiv1 DR 64 rfl rfl).symm k) = ix2 r k := funext fun x => Fin.ext (by
    match x with
    | ⟨0, _⟩ => exact lhsR_0 _ _
    | ⟨1, _⟩ => exact (lhsR_1 _ _).trans hk)
  have er : DR.rhsIdx (ix2 r s) ((ValueIdx.contrEquiv1 DR 64 rfl rfl).symm k) = ix2 k s := funext fun x => Fin.ext (by
    match x with
    | ⟨0, _⟩ => exact (rhsR_0 _ _).trans hk
    | ⟨1, _⟩ => exact rhsR_1 _ _)
  rw [el, er, hzt]

/-- The reference's reconstruction at (r, s): the logistic of the sum over k of z[r,k] · z[s,k]. -/
theorem recon_apply (z : Cert.Stages.Arr Ideal Cert.ReferenceIdeal.S12288x64 .f32) (r s : Fin 12288) :
    Cert.Stages.recon (F := Ideal) z (ix2 r s) = Ideal.logistic (∑ k : Fin 64, z (ix2 r k) * z (ix2 s k)) := by
  unfold Cert.Stages.recon
  have hone : ∀ (h : Cert.ReferenceIdeal.S_.BroadcastsInDim Cert.ReferenceIdeal.S12288x12288 ![]) (i : Cert.ReferenceIdeal.S12288x12288.Idx),
      broadcastInDim Cert.ReferenceIdeal.S12288x12288 ![] h (constant (F := Ideal) Cert.ReferenceIdeal.S_ .f32 0x3F800000#32) i = (1 : EReal) := fun h i =>
    (broadcastInDim_apply _ h (constant (F := Ideal) Cert.ReferenceIdeal.S_ .f32 0x3F800000#32) i (fun a => a.elim0) (fun a => a.elim0)).trans ofBits_one
  have hzt : ∀ (h : Cert.ReferenceIdeal.S12288x64.Transposes [1, 0] Cert.ReferenceIdeal.S64x12288) (k : Fin 64) (s : Fin 12288),
      transpose Cert.ReferenceIdeal.S64x12288 [1, 0] z h (ix2 k s) = z (ix2 s k) := fun h k s =>
    transpose_apply [1, 0] z h (ix2 k s) (ix2 s k) (fun b => match b with
      | ⟨0, _⟩ => rfl
      | ⟨1, _⟩ => rfl)
  refine ((show ∀ (a b : FVec Ideal Cert.ReferenceIdeal.S12288x12288 .f32) (i : Cert.ReferenceIdeal.S12288x12288.Idx),
      Host.divf a b i = FloatOps.hostDivf (a i) (b i) from fun _ _ _ => rfl) _ _ _).trans ?_
  rw [hone]
  refine ((show ∀ (u : EReal) (a b : FVec Ideal Cert.ReferenceIdeal.S12288x12288 .f32) (i : Cert.ReferenceIdeal.S12288x12288.Idx),
      FloatOps.hostDivf (F := Ideal) (φ := .f32) u (addf a b i) = FloatOps.hostDivf (F := Ideal) (φ := .f32) u (FloatOps.addf (a i) (b i)) from fun _ _ _ _ => rfl) _ _ _ _).trans ?_
  rw [hone]
  refine (logistic_spelled _).trans ?_
  refine congrArg Ideal.logistic ?_
  exact gram_apply z _ (hzt _) r s

/-! ## What each grid point writes, and the whole output -/

variable (V : (c : Dev nD) → (b : Ref sig .tc) → Buf (Elt Ideal) ((c : Thread nD τ).loc b)) (sh : Fin 3 → PosShare TreeShare)

theorem hz2 : (![0, 0] : Fin 2 → Nat) = fun _ => 0 := funext fun a => by fin_cases a <;> rfl

/-- The index maps over the grid: the first input window's row tile is the output block's row index, the second's is
    the output block's column index, neither moves along the feature axis, and the output's block indices stay below 12. -/
theorem idx_facts : ∀ t : Fin cfg3.N,
    win3_0.index t (0 : Fin 2) = win3_2.index t (0 : Fin 2) ∧ win3_0.index t (1 : Fin 2) = 0
    ∧ win3_1.index t (0 : Fin 2) = win3_2.index t (1 : Fin 2) ∧ win3_1.index t (1 : Fin 2) = 0
    ∧ win3_2.index t (0 : Fin 2) ≤ 11 ∧ win3_2.index t (1 : Fin 2) ≤ 11 :=
  (by decide +kernel : ∀ t : Fin grid3.N, _)

/-- Every block (i, j) of the 12 × 12 tiling of the output is some grid point's. -/
theorem idx_onto : ∀ (q0 q1 : Fin 12), ∃ t : Fin cfg3.N, win3_2.index t = ![q0.val, q1.val] :=
  (by decide +kernel : ∀ (q0 q1 : Fin 12), ∃ t : Fin grid3.N, win3_2.index t = ![q0.val, q1.val])

/-- Entry (p, k) of the first input window's block at point t is row (tile · 1024 + p) of z. -/
theorem iblk0_apply (c : Dev nD) (t : Fin cfg3.N) (p : Fin 1024) (k : Fin 64) (r : Fin 12288)
    (hr : r.val = win3_0.index t (0 : Fin 2) * 1024 + p.val) (h1 : win3_0.index t (1 : Fin 2) = 0) :
    (iblk3 V c 0 t : Vec Ideal S1024x64 .f32) (ix2 p k) = (V c main_v41 : S12288x64.Idx → EReal) (ix2 r k) := by
  unfold iblk3
  rw [View.read_apply]
  show V c main_v41 _ = V c main_v41 _
  congr 1
  funext a
  apply Fin.ext
  match a with
  | ⟨0, _⟩ => show win3_0.index t (0 : Fin 2) * 1024 + 1 * p.val = r.val; omega
  | ⟨1, _⟩ => show win3_0.index t (1 : Fin 2) * 64 + 1 * k.val = k.val; rw [h1]; omega

/-- Entry (q, k) of the second input window's block at point t is row (tile · 1024 + q) of z. -/
theorem iblk1_apply (c : Dev nD) (t : Fin cfg3.N) (q : Fin 1024) (k : Fin 64) (s : Fin 12288)
    (hs : s.val = win3_1.index t (0 : Fin 2) * 1024 + q.val) (h1 : win3_1.index t (1 : Fin 2) = 0) :
    (iblk3 V c 1 t : Vec Ideal S1024x64 .f32) (ix2 q k) = (V c main_v41 : S12288x64.Idx → EReal) (ix2 s k) := by
  unfold iblk3
  rw [View.read_apply]
  show V c main_v41 _ = V c main_v41 _
  congr 1
  funext a
  apply Fin.ext
  match a with
  | ⟨0, _⟩ => show win3_1.index t (0 : Fin 2) * 1024 + 1 * q.val = s.val; omega
  | ⟨1, _⟩ => show win3_1.index t (1 : Fin 2) * 64 + 1 * k.val = k.val; rw [h1]; omega

/-- What point t writes back is block t of the reference's reconstruction of z. -/
theorem flushed_eq (c : Dev nD) (t : Fin cfg3.N) :
    (dat3 (F := Ideal) V sh c).flushed 2 t = ((cfg3.win 2).blk t).view.read (Elt Ideal) (Cert.Stages.recon (F := Ideal) (V c main_v41)) := by
  show (cfg3.win 2).cut (grid3.coords t) ((dat3 (F := Ideal) V sh c).after 2 t) = _
  rw [after3_2]
  unfold out3_2
  rw [View.canon_unit_zero hz2]
  simp only [View.ld_unit_zero (S := S1024x64) hz2]
  obtain ⟨e0, e1, e2, e3, e4, e5⟩ := idx_facts t
  funext j
  have hj0 : (j 0).val < 1024 := (j 0).isLt
  have hj1 : (j 1).val < 1024 := (j 1).isLt
  have hx : (cfg3.win 2).xinj (grid3.coords t) j = ix2 (⟨(j 0).val, hj0⟩ : Fin 1024) (⟨(j 1).val, hj1⟩ : Fin 1024) :=
    funext fun a => Fin.ext (by
      match a with
      | ⟨0, _⟩ => rfl
      | ⟨1, _⟩ => rfl)
  have hy : ((cfg3.win 2).blk t).view.emb j
      = ix2 (⟨win3_2.index t (0 : Fin 2) * 1024 + (j 0).val, by omega⟩ : Fin 12288) (⟨win3_2.index t (1 : Fin 2) * 1024 + (j 1).val, by omega⟩ : Fin 12288) :=
    funext fun a => Fin.ext (by
      match a with
      | ⟨0, _⟩ => show win3_2.index t (0 : Fin 2) * 1024 + 1 * (j 0).val = win3_2.index t (0 : Fin 2) * 1024 + (j 0).val; omega
      | ⟨1, _⟩ => show win3_2.index t (1 : Fin 2) * 1024 + 1 * (j 1).val = win3_2.index t (1 : Fin 2) * 1024 + (j 1).val; omega)
  rw [View.read_apply]
  show k3_pay1 (F := Ideal) (iblk3 V c 0 t) (iblk3 V c 1 t) ((cfg3.win 2).xinj (grid3.coords t) j)
    = Cert.Stages.recon (F := Ideal) (V c main_v41) (((cfg3.win 2).blk t).view.emb j)
  rw [hx, hy, pay_apply, recon_apply]
  refine congrArg Ideal.logistic (Finset.sum_congr rfl fun k _ => ?_)
  rw [iblk0_apply V c t _ k ⟨win3_2.index t (0 : Fin 2) * 1024 + (j 0).val, by omega⟩ (by rw [e0]) e1,
    iblk1_apply V c t _ k ⟨win3_2.index t (1 : Fin 2) * 1024 + (j 1).val, by omega⟩ (by rw [e2]) e3]

/-- An index of the output is in point t's block iff each coordinate is in the block's range on its axis. -/
theorem mem_blk (t : Fin cfg3.N) (i : S12288x12288.Idx) :
    i ∈ ((cfg3.win 2).blk t).view.set ↔ ∀ a : Fin 2, win3_2.index t a * S1024x1024.size a ≤ (i a).val ∧ (i a).val < win3_2.index t a * S1024x1024.size a + S1024x1024.size a := by
  show i ∈ ((View.whole main_v42).slice (win3_2.rect t)).set ↔ _
  rw [View.set_slice_whole, Rect.mem_set_unit]
  exact Iff.rfl

/-- The blocks tile the output: (r, s) lies in the block of the point whose block index is (r / 1024, s / 1024). -/
theorem cover (i : S12288x12288.Idx) : ∃ t : Fin cfg3.N, (cfg3.win 2).flush t = true ∧ i ∈ ((cfg3.win 2).blk t).view.set := by
  have hi0 : (i 0).val < 12288 := (i 0).isLt
  have hi1 : (i 1).val < 12288 := (i 1).isLt
  obtain ⟨t, ht⟩ := idx_onto ⟨(i 0).val / 1024, by omega⟩ ⟨(i 1).val / 1024, by omega⟩
  have q0 : win3_2.index t (0 : Fin 2) = (i 0).val / 1024 := congrFun ht 0
  have q1 : win3_2.index t (1 : Fin 2) = (i 1).val / 1024 := congrFun ht 1
  refine ⟨t, flush3_2 t, ?_⟩
  rw [mem_blk]
  intro a
  match a with
  | ⟨0, _⟩ => show win3_2.index t (0 : Fin 2) * 1024 ≤ (i 0).val ∧ (i 0).val < win3_2.index t (0 : Fin 2) * 1024 + 1024; omega
  | ⟨1, _⟩ => show win3_2.index t (1 : Fin 2) * 1024 ≤ (i 1).val ∧ (i 1).val < win3_2.index t (1 : Fin 2) * 1024 + 1024; omega

/-- After the region the output array is the reference's reconstruction of the embedding the region found. -/
theorem arrAt (V : (c : Dev nD) → (b : Ref sig .tc) → Buf (Elt Ideal) ((c : Thread nD τ).loc b)) (sh : Fin 3 → PosShare TreeShare) (c : Dev nD) :
    (Cert.KernelIdeal.Regions.dat3 (F := Ideal) V sh c).arrAt 2 cfg3.N = Cert.Stages.recon (F := Ideal) (V c main_v41) :=
  (dat3 (F := Ideal) V sh c).arrAt_eq_of_cover 2 (Cert.Stages.recon (F := Ideal) (V c main_v41)) (fun t _ => flushed_eq V sh c t) cover

end Cert.KernelIdeal.Value3

end
-- ==== Proof.KernelIdealValue.lean ====
/-
  The values the idealized kernel leaves. Over the extended reals each region's output array is the dense stage of
  its two input arrays (a row tile of the product is the product of the row tile; the reconstruction's tile (i, j) is
  the logistic function of row tile i times the transpose of row tile j), each host stretch is the sparse
  aggregation of the array before it, and the arguments are still the launch's when each stage reads them. So the
  first result is the embedding of the arguments and the second its reconstruction.
-/
import proofs.«160782_j22454089023912_1_alg».proof.Proof.KernelIdealFrame
import proofs.«160782_j22454089023912_1_alg».proof.Proof.KernelIdealValue0
import proofs.«160782_j22454089023912_1_alg».proof.Proof.KernelIdealValue1
import proofs.«160782_j22454089023912_1_alg».proof.Proof.KernelIdealValue2
import proofs.«160782_j22454089023912_1_alg».proof.Proof.KernelIdealValue3

set_option maxRecDepth 16384

noncomputable section

namespace Cert.KernelIdeal.Run

open Cert.KernelIdeal Cert.KernelIdeal.Gen Cert.KernelIdeal.Regions
open Idealize.ShloMosaic Idealize.ShloMosaic.TcCoe
open Idealize.SL Idealize.SL.Sem

variable (m : (ℓ : Loc nD τ sig) → Buf (Elt Ideal) ℓ)

/-- The embedding of the launch's arguments. -/
abbrev zOf (c : Dev nD) : Cert.Stages.Arr Ideal Cert.ReferenceIdeal.S12288x64 .f32 :=
  Cert.Stages.embed (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- After region 0 its output array is the first layer of the arguments. -/
theorem stage0 (c : Dev nD) :
    W1 m c (Proc.devRef .tc main_v0) = Cert.Stages.layer1 (F := Ideal) (m ((c : Thread nD τ).loc main_arg0)) (m ((c : Thread nD τ).loc main_arg4)) :=
  (W1_arr m c 2).trans (Cert.KernelIdeal.Value0.arrAt (V0 m) shFull c)

/-- The first aggregation. -/
theorem stage1 (c : Dev nD) :
    W2 m c (Proc.devRef .tc main_v13) = Cert.Stages.spmm256 (F := Ideal) (m ((c : Thread nD τ).loc main_arg1)) (m ((c : Thread nD τ).loc main_arg2)) (m ((c : Thread nD τ).loc main_arg3)) (Cert.Stages.layer1 (F := Ideal) (m ((c : Thread nD τ).loc main_arg0)) (m ((c : Thread nD τ).loc main_arg4))) :=
  (Host.host1 (W1 m c)).trans (by
    rw [keep1 m c main_arg1 (by decide), keep1 m c main_arg2 (by decide), keep1 m c main_arg3 (by decide), stage0 m c])

/-- After region 1 its output array is the second layer. -/
theorem stage2 (c : Dev nD) :
    W3 m c (Proc.devRef .tc main_v14) = Cert.Stages.layer2 (F := Ideal) (Cert.Stages.spmm256 (F := Ideal) (m ((c : Thread nD τ).loc main_arg1)) (m ((c : Thread nD τ).loc main_arg2)) (m ((c : Thread nD τ).loc main_arg3)) (Cert.Stages.layer1 (F := Ideal) (m ((c : Thread nD τ).loc main_arg0)) (m ((c : Thread nD τ).loc main_arg4)))) (m ((c : Thread nD τ).loc main_arg5)) :=
  (W3_arr m c 2).trans ((Cert.KernelIdeal.Value1.arrAt (V2 m) shFull c).trans
    (congrArg₂ (Cert.Stages.layer2 (F := Ideal)) (stage1 m c) (keep2 m c main_arg5 (by decide) (by decide))))

/-- The second aggregation. -/
theorem stage3 (c : Dev nD) :
    W4 m c (Proc.devRef .tc main_v27) = Cert.Stages.spmm128 (F := Ideal) (m ((c : Thread nD τ).loc main_arg1)) (m ((c : Thread nD τ).loc main_arg2)) (m ((c : Thread nD τ).loc main_arg3)) (Cert.Stages.layer2 (F := Ideal) (Cert.Stages.spmm256 (F := Ideal) (m ((c : Thread nD τ).loc main_arg1)) (m ((c : Thread nD τ).loc main_arg2)) (m ((c : Thread nD τ).loc main_arg3)) (Cert.Stages.layer1 (F := Ideal) (m ((c : Thread nD τ).loc main_arg0)) (m ((c : Thread nD τ).loc main_arg4)))) (m ((c : Thread nD τ).loc main_arg5))) :=
  (Host.host2 (W3 m c)).trans (by
    rw [keep3 m c main_arg1 (by decide) (by decide) (by decide), keep3 m c main_arg2 (by decide) (by decide) (by decide),
      keep3 m c main_arg3 (by decide) (by decide) (by decide), stage2 m c])

/-- After region 2 its output array is the third layer. -/
theorem stage4 (c : Dev nD) :
    W5 m c (Proc.devRef .tc main_v28) = Cert.Stages.layer3 (F := Ideal) (Cert.Stages.spmm128 (F := Ideal) (m ((c : Thread nD τ).loc main_arg1)) (m ((c : Thread nD τ).loc main_arg2)) (m ((c : Thread nD τ).loc main_arg3)) (Cert.Stages.layer2 (F := Ideal) (Cert.Stages.spmm256 (F := Ideal) (m ((c : Thread nD τ).loc main_arg1)) (m ((c : Thread nD τ).loc main_arg2)) (m ((c : Thread nD τ).loc main_arg3)) (Cert.Stages.layer1 (F := Ideal) (m ((c : Thread nD τ).loc main_arg0)) (m ((c : Thread nD τ).loc main_arg4)))) (m ((c : Thread nD τ).loc main_arg5)))) (m ((c : Thread nD τ).loc main_arg6)) :=
  (W5_arr m c 2).trans ((Cert.KernelIdeal.Value2.arrAt (V4 m) shFull c).trans
    (congrArg₂ (Cert.Stages.layer3 (F := Ideal)) (stage3 m c) (keep4 m c main_arg6 (by decide) (by decide) (by decide) (by decide))))

/-- The third aggregation: the embedding, as region 3 finds it. -/
theorem stage5 (c : Dev nD) : W6 m c (Proc.devRef .tc main_v41) = zOf m c :=
  (Host.host3 (W5 m c)).trans (by
    rw [keep5 m c main_arg1 (by decide) (by decide) (by decide) (by decide) (by decide),
      keep5 m c main_arg2 (by decide) (by decide) (by decide) (by decide) (by decide),
      keep5 m c main_arg3 (by decide) (by decide) (by decide) (by decide) (by decide), stage4 m c]
    rfl)

/-- At the return the first result is the embedding of the arguments, -/
theorem result0 (c : Dev nD) : W7 m c (Proc.devRef .tc main_v41) = zOf m c :=
  (W7_of_ne m c main_v41 (by decide)).trans (stage5 m c)

/-- and the second its reconstruction. -/
theorem result1 (c : Dev nD) : W7 m c (Proc.devRef .tc main_v42) = Cert.Stages.recon (F := Ideal) (zOf m c) :=
  (W7_out m c).trans ((Cert.KernelIdeal.Value3.arrAt (V6 m) shHalves c).trans (congrArg (Cert.Stages.recon (F := Ideal)) (stage5 m c)))

/-- THE VALUE RUN: every weakly fair execution of the idealized kernel terminates with the results at the embedding
    of the arguments and its reconstruction, the arguments unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v41) = zOf m c
      ∧ r.2.mem ((c.tc : Thread nD τ).loc main_v42) = Cert.Stages.recon (F := Ideal) (zOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v41 (by decide))).trans (result0 m c),
     (h c _ (mem_uc main_v42 (by decide))).trans (result1 m c),
     (h c _ (mem_uc main_arg0 (by decide))).trans (keep7 m c main_arg0 (by decide) (by decide) (by decide) (by decide) (by decide) (by decide) (by decide)),
     (h c _ (mem_uc main_arg1 (by decide))).trans (keep7 m c main_arg1 (by decide) (by decide) (by decide) (by decide) (by decide) (by decide) (by decide)),
     (h c _ (mem_uc main_arg2 (by decide))).trans (keep7 m c main_arg2 (by decide) (by decide) (by decide) (by decide) (by decide) (by decide) (by decide)),
     (h c _ (mem_uc main_arg3 (by decide))).trans (keep7 m c main_arg3 (by decide) (by decide) (by decide) (by decide) (by decide) (by decide) (by decide)),
     (h c _ (mem_uc main_arg4 (by decide))).trans (keep7 m c main_arg4 (by decide) (by decide) (by decide) (by decide) (by decide) (by decide) (by decide)),
     (h c _ (mem_uc main_arg5 (by decide))).trans (keep7 m c main_arg5 (by decide) (by decide) (by decide) (by decide) (by decide) (by decide) (by decide)),
     (h c _ (mem_uc main_arg6 (by decide))).trans (keep7 m c main_arg6 (by decide) (by decide) (by decide) (by decide) (by decide) (by decide) (by decide))⟩)
    (run_all m ρ)

end Cert.KernelIdeal.Run

end
-- ==== Proof.RefValue.lean ====
/-
  The reference's run, read through the stages: its first result is the embedding of the arguments (three dense
  layers, each followed by the sparse aggregation) and its second the reconstruction 1 / (1 + exp (-(z zᵀ))) of that
  embedding. The run's composed term is these stage functions spelled out, so nothing is computed here.
-/
import proofs.«160782_j22454089023912_1_alg».proof.Proof.Gen.ReferenceIdeal.Run
import proofs.«160782_j22454089023912_1_alg».proof.Proof.Stages
import Idealize.ShloMosaic.PureOps.Ideal

set_option maxRecDepth 16384

noncomputable section

namespace Cert.ReferenceIdeal.RefValue

open Cert.ReferenceIdeal Cert.ReferenceIdeal.Gen Idealize.ShloMosaic Idealize.ShloMosaic.TcCoe Idealize.SL.Sem

variable (m : (ℓ : Loc nD τ sig) → Buf (Elt Ideal) ℓ)

/-- The embedding of the launch's arguments. -/
abbrev zOf (c : Dev nD) : Cert.Stages.Arr Ideal S12288x64 .f32 :=
  Cert.Stages.embed (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- Every weakly fair execution of the reference terminates with its results at the embedding of the arguments
    and its reconstruction, the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v43) = zOf m c
      ∧ r.2.mem ((c.tc : Thread nD τ).loc main_v51) = Cert.Stages.recon (F := Ideal) (zOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c).1.trans (by unfold zOf Cert.Stages.embed Cert.Stages.spmm64 Cert.Stages.spmm128 Cert.Stages.spmm256 Cert.Stages.layer1 Cert.Stages.layer2 Cert.Stages.layer3 Cert.Stages.gatherIdx; rfl),
     (h c).2.1.trans (by unfold Cert.ReferenceIdeal.Value.res_main_v51 zOf Cert.Stages.recon Cert.Stages.embed Cert.Stages.spmm64 Cert.Stages.spmm128 Cert.Stages.spmm256 Cert.Stages.layer1 Cert.Stages.layer2 Cert.Stages.layer3 Cert.Stages.gatherIdx; rfl),
     (h c).2.2⟩)
    (Cert.ReferenceIdeal.Value.run (F := Ideal) m ρ)

end Cert.ReferenceIdeal.RefValue

end
-- ==== Proof.lean ====
/-
  The certificate of a three-layer graph encoder with adjacency reconstruction against its jnp reference.
  Both programs compute z = A (A tanh (A tanh (x W₁) W₂) W₃), where A h is the sparse aggregation
  (A h)[r] = Σ over the edges e with row e = r of w e · h[col e], and then 1 / (1 + exp (-(z zᵀ))).
  The kernel does the four dense products in Pallas regions (row tiles of x W₁, z₁ W₂, z₂ W₃ with the whole
  contraction resident per tile; 1024 × 1024 tiles of z zᵀ read from ONE array through two windows) with bf16
  operands, and the aggregation by the same host code as the reference. Over the extended reals a change of float
  format is the identity, a product accumulated from zero is the host's product, and the kernel's logistic function
  is 1 / (1 + exp (-x)) by definition, so each region's output array is the reference's dense stage of its input
  arrays and the two programs' results are one function of the arguments, stage by stage; only finite sums are
  re-indexed, and no input needs to be finite for that.
  The frames: @main is seven items (four regions, three host stretches); each region's body runs at every grid point
  and its pipeline leaves the output array at what the points wrote; the reconstruction region holds its input array
  as two halves, one per window, and joins them at its exit. The same text serves the word-level program.
  The ideal pass rewrote nothing, so the idealization claim is trivial.
-/
import proofs.«160782_j22454089023912_1_alg».proof.Defs
import proofs.«160782_j22454089023912_1_alg».proof.Proof.Gen.Kernel
import proofs.«160782_j22454089023912_1_alg».proof.Proof.Gen.KernelIdeal
import proofs.«160782_j22454089023912_1_alg».proof.Proof.Gen.ReferenceIdeal
import proofs.«160782_j22454089023912_1_alg».proof.Proof.Gen.ReferenceIdeal.Run
import proofs.«160782_j22454089023912_1_alg».proof.Proof.Gen.ReferenceIdeal.Read
import proofs.«160782_j22454089023912_1_alg».proof.Proof.Gen.Pre_finite_inputs
import proofs.«160782_j22454089023912_1_alg».proof.Proof.KernelFrame
import proofs.«160782_j22454089023912_1_alg».proof.Proof.KernelIdealValue
import proofs.«160782_j22454089023912_1_alg».proof.Proof.RefValue
import Idealize.ShloMosaic.Adequacy
import Idealize.ShloMosaic.Init

noncomputable section

namespace Cert.Proof

open Idealize.ShloMosaic Idealize.SL.Sem

/-- The word-level kernel runs to the end and leaves its arguments as launched. -/
theorem frame_k : Cert.frame_Kernel := fun m ρ _ => Cert.Kernel.Run.frame m ρ

/-- So does the idealized kernel. -/
theorem frame_ki : Cert.frame_KernelIdeal := fun m ρ _ => Cert.KernelIdeal.Run.frame m ρ

/-- And the reference: its run, with the results dropped. -/
theorem frame_ri : Cert.frame_ReferenceIdeal := fun m ρ _ =>
  (θ_run Cert.ReferenceIdeal.defs _ _).mono (fun _ h c => (h c).2.2) (Cert.ReferenceIdeal.RefValue.run m ρ)

/-- From memories agreeing on the arguments both idealized programs end with the embedding of the arguments and
    its reconstruction. -/
theorem algebraic : Cert.algebraic_KernelIdeal_ReferenceIdeal := by
  intro m ρ m' ρ' _ hagree
  have e : ∀ c, Cert.ReferenceIdeal.RefValue.zOf m' c = Cert.KernelIdeal.Run.zOf m c := fun c => by
    obtain ⟨h0, h1, h2, h3, h4, h5, h6⟩ := hagree c
    unfold Cert.ReferenceIdeal.RefValue.zOf Cert.KernelIdeal.Run.zOf
    rw [h0, h1, h2, h3, h4, h5, h6]
  refine ⟨fun c => Cert.KernelIdeal.Run.zOf m c, fun c => Cert.Stages.recon (F := Ideal) (Cert.KernelIdeal.Run.zOf m c),
    Cert.KernelIdeal.Run.run_value m ρ, ?_⟩
  refine (θ_run Cert.ReferenceIdeal.defs _ _).mono (fun _ h c => ⟨(h c).1.trans (e c), (h c).2.1.trans ?_, (h c).2.2⟩)
    (Cert.ReferenceIdeal.RefValue.run m' ρ')
  rw [e c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
